-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x1024x256 : Shape := ⟨3, ![32, 1024, 256]⟩
abbrev S32x1024 : Shape := ⟨2, ![32, 1024]⟩
abbrev S2x256x256 : Shape := ⟨3, ![2, 256, 256]⟩
abbrev S2x256 : Shape := ⟨2, ![2, 256]⟩
abbrev S32 : Shape := ⟨1, ![32]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x1024x256 : S_.BroadcastsInDim S32x1024x256 (![] : Fin 0 → Fin S32x1024x256.rank)
  reducesTo_S32x1024x256_S_d0_1_2 : S32x1024x256.ReducesTo [0, 1, 2] S_
  bcast_S_S32x1024 : S_.BroadcastsInDim S32x1024 (![] : Fin 0 → Fin S32x1024.rank)
  reducesTo_S32x1024_S_d0_1 : S32x1024.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S2x256 .f32) (main_arg5 : FVec F S2x256 .f32) (main_arg6 : IVec S32 32) (main_v13 : IVec S_ 1) (main_v16 : IVec S2x256x256 1) : IVec S_ 1 :=
  let main_c_5 : IVec S_ 1 := constantI S_ 1 1#1
  let main_v17 : IVec S_ 1 := (fun x v => Host.reduce IntOp.andi x v reducesTo_S2x256x256_S_d0_1_2 h_S_) main_v16 main_c_5
  let main_v18 : IVec S_ 1 := andi main_v13 main_v17
  let main_v19 : FVec F S2x256 .f32 := Host.absf main_arg4
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2x256 .f32 := Host.absf main_arg5
  let main_cst_8 : FVec F S_ .f32 := constant S_ .f32 0x7F800000#32
  let main_v25 : FVec F S2x256 .f32 := broadcastInDim S2x256 ![] bcast_S_S2x256 main_cst_8
  let main_v26 : IVec S2x256 1 := cmpf .olt main_v24 main_v25
  let main_c_9 : IVec S_ 1 := constantI S_ 1 1#1
  let main_v27 : IVec S_ 1 := (fun x v => Host.reduce IntOp.andi x v reducesTo_S2x256_S_d0_1 h_S_) main_v26 main_c_9
  let main_v28 : IVec S_ 1 := andi main_v23 main_v27
  let main_c_10 : IVec S_ 32 := constantI S_ 32 2#32
  let main_v29 : IVec S32 32 := broadcastInDim S32 ![] bcast_S_S32 main_c_10
  let main_v30 : IVec S32 1 := cmpi .sge main_arg6 main_v29
  let main_c_11 : IVec S_ 1 := constantI S_ 1 1#1
  let main_v31 : IVec S_ 1 := (fun x v => Host.reduce IntOp.andi x v reducesTo_S32_S_d0 h_S_) main_v30 main_c_11
  let main_v32 : IVec S_ 1 := andi main_v28 main_v31
  main_v32

def fn {F : FTy → Type} [FloatOps F] (main_arg0 : FVec F S32x1024x1024 .f32) (main_arg1 : FVec F S32x1024x256 .f32) (main_arg2 : FVec F S32x1024 .f32) (main_arg3 : FVec F S2x256x256 .f32) (main_arg4 : FVec F S2x256 .f32) (main_arg5 : FVec F S2x256 .f32) (main_arg6 : IVec S32 32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x256 .f32 := Host.absf main_arg1
  let main_cst_0 : FVec F S_ .f32 := constant S_ .f32 0x7F800000#32
  let main_v5 : FVec F S32x1024x256 .f32 := broadcastInDim S32x1024x256 ![] bcast_S_S32x1024x256 main_cst_0
  let main_v6 : IVec S32x1024x256 1 := cmpf .olt main_v4 main_v5
  let main_c_1 : IVec S_ 1 := constantI S_ 1 1#1
  let main_v7 : IVec S_ 1 := (fun x v => Host.reduce IntOp.andi x v reducesTo_S32x1024x256_S_d0_1_2 h_S_) main_v6 main_c_1
  let main_v8 : IVec S_ 1 := andi main_v3 main_v7
  let main_v9 : FVec F S32x1024 .f32 := Host.absf main_arg2
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_v14 : FVec F S2x256x256 .f32 := Host.absf main_arg3
  let main_cst_4 : FVec F S_ .f32 := constant S_ .f32 0x7F800000#32
  let main_v15 : FVec F S2x256x256 .f32 := broadcastInDim S2x256x256 ![] bcast_S_S2x256x256 main_cst_4
  let main_v16 : IVec S2x256x256 1 := cmpf .olt main_v14 main_v15
  fn_part1 (F := F) main_arg4 main_arg5 main_arg6 main_v13 main_v16
-- ==== Kernel.lean ====
abbrev S32x1024x1024 : Shape := ⟨3, ![32, 1024, 1024]⟩
abbrev S32x1024x256 : Shape := ⟨3, ![32, 1024, 256]⟩
abbrev S32x1024 : Shape := ⟨2, ![32, 1024]⟩
abbrev S2x256x256 : Shape := ⟨3, ![2, 256, 256]⟩
abbrev S2x256 : Shape := ⟨2, ![2, 256]⟩
abbrev S32 : Shape := ⟨1, ![32]⟩
abbrev S32x1024x1 : Shape := ⟨3, ![32, 1024, 1]⟩
abbrev S1x1024x256 : Shape := ⟨3, ![1, 1024, 256]⟩
abbrev S1x1024x1 : Shape := ⟨3, ![1, 1024, 1]⟩
abbrev S1 : Shape := ⟨1, ![1]⟩
abbrev S1024x1 : Shape := ⟨2, ![1024, 1]⟩
abbrev S1024x256 : Shape := ⟨2, ![1024, 256]⟩
abbrev S1024 : Shape := ⟨1, ![1024]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 8
  | .vmem => 9
  | .smem => 1
  | _ => 0

abbrev bufTy : (tb : Table) → Fin (tcTables nBuf tb) → BufTy
  | .hbm, ⟨0, _⟩ => ⟨S32x1024x1024, .f32⟩
  | .hbm, ⟨1, _⟩ => ⟨S32x1024x256, .f32⟩
  | .hbm, ⟨2, _⟩ => ⟨S32x1024, .f32⟩
  | .hbm, ⟨3, _⟩ => ⟨S2x256x256, .f32⟩
  | .hbm, ⟨4, _⟩ => ⟨S2x256, .f32⟩
  | .hbm, ⟨5, _⟩ => ⟨S2x256, .f32⟩
  | .hbm, ⟨6, _⟩ => ⟨S32x1024x1, .f32⟩
  | .hbm, ⟨7, _⟩ => ⟨S32x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x1, .f32⟩
  | .local _ .vmem, ⟨3, _⟩ => ⟨S1x1024x1, .f32⟩
  | .local _ .vmem, ⟨4, _⟩ => ⟨S2x256x256, .f32⟩
  | .local _ .vmem, ⟨5, _⟩ => ⟨S2x256, .f32⟩
  | .local _ .vmem, ⟨6, _⟩ => ⟨S2x256, .f32⟩
  | .local _ .vmem, ⟨7, _⟩ => ⟨S1x1024x256, .f32⟩
  | .local _ .vmem, ⟨8, _⟩ => ⟨S1x1024x256, .f32⟩
  | .local _ .smem, ⟨0, _⟩ => ⟨S32, .i32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x1024_S32x1024x1 : S32x1024.ShapeCasts S32x1024x1
  numel1_S1 : S1.numel = 1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  broadcasts_S1024x1_S1024x256 : S1024x1.Broadcasts S1024x256
  iota_S1024x1_d0_w32 : S1024x1.Iotas .tc 32 [0]
  reduces_S1024x256_S1024 : S1024x256.Reduces [1] S1024
  shapeCasts_S1024_S1024x1 : S1024.ShapeCasts S1024x1
  bitsLt_bf16_f32 : FTy.bits .bf16 < FTy.bits .f32
  inb_S2x256x256_S1x256x256_0_0_0 : ∀ a, (![0, 0, 0] : Fin 3 → Nat) a + S1x256x256.size a ≤ S2x256x256.size a
  h_S1x256x256 : 0 < S1x256x256.numel
  shapeCasts_S1x256x256_S256x256 : S1x256x256.ShapeCasts S256x256
  rotates_S1024x256_d0 : S1024x256.Rotates 0 none
  natLt_1_32 : 1 < 32
  inb_S2x256_S1x256_0_0 : ∀ a, (![0, 0] : Fin 2 → Nat) a + S1x256.size a ≤ S2x256.size a
  h_S1x256 : 0 < S1x256.numel
  shapeCasts_S1x256_S256 : S1x256.ShapeCasts S256
  shapeCasts_S256_S1x256 : S256.ShapeCasts S1x256
  broadcasts_S1x256_S1024x256 : S1x256.Broadcasts S1024x256
  inb_S2x256x256_S1x256x256_1_0_0 : ∀ a, (![1, 0, 0] : Fin 3 → Nat) a + S1x256x256.size a ≤ S2x256x256.size a
  inb_S2x256_S1x256_1_0 : ∀ a, (![1, 0] : Fin 2 → Nat) a + S1x256.size a ≤ S2x256.size a
  shapeCasts_S1024x256_S1x1024x256 : S1024x256.ShapeCasts S1x1024x256
  dot_S1024x256_S256x256_S1024x256_1_0_0_1_n_n_wf : DotDims.WF S1024x256 S256x256 S1024x256 [1] [0] [0] [1] [] []
  dot_S1024x256_S256x256_S1024x256_1_1_0_0_n_n_wf : DotDims.WF S1024x256 S256x256 S1024x256 [1] [1] [0] [0] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S32x1024x1.size a
  hwx0_1 : ∀ i : grid0.Coords, EltTy.bits .f32 = 32 ∨ (Rect.block (s := S32x1024x1) S1x1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x256x256.size a ≤ S2x256x256.size a
  hwx0_2 : ∀ i : grid0.Coords, EltTy.bits .f32 = 32 ∨ (Rect.block (s := S2x256x256) S2x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x256.size a ≤ S2x256.size a
  hwx0_3 : ∀ i : grid0.Coords, EltTy.bits .f32 = 32 ∨ (Rect.block (s := S2x256) S2x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x256.size a ≤ S2x256.size a
  hwx0_4 : ∀ i : grid0.Coords, EltTy.bits .f32 = 32 ∨ (Rect.block (s := S2x256) S2x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x256.size a ≤ S32x1024x256.size a
  hwx0_5 : ∀ i : grid0.Coords, EltTy.bits .f32 = 32 ∨ (Rect.block (s := S32x1024x256) S1x1024x256.size (cc0_transform_5 i) (hinb0_5 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf

abbrev spec0_0 : Pipeline.WinSpec sig grid0.rank :=
  Pipeline.WinSpec.ofSpec (Memref.whole main_arg1) S1x1024x256.size reads0_0 false false 2 stage0_0 sem0_0 nbuf0_0 hstage0_0

abbrev spec0_1 : Pipeline.WinSpec sig grid0.rank :=
  Pipeline.WinSpec.ofSpec (Memref.whole main_v0) S1x1024x1.size reads0_1 false false 2 stage0_1 sem0_1 nbuf0_1 hstage0_1

abbrev spec0_2 : Pipeline.WinSpec sig grid0.rank :=
  Pipeline.WinSpec.ofSpec (Memref.whole main_arg3) S2x256x256.size reads0_2 false true 1 stage0_2 sem0_2 nbuf0_2 hstage0_2

abbrev spec0_3 : Pipeline.WinSpec sig grid0.rank :=
  Pipeline.WinSpec.ofSpec (Memref.whole main_arg4) S2x256.size reads0_3 false true 1 stage0_3 sem0_3 nbuf0_3 hstage0_3

abbrev spec0_4 : Pipeline.WinSpec sig grid0.rank :=
  Pipeline.WinSpec.ofSpec (Memref.whole main_arg5) S2x256.size reads0_4 false true 1 stage0_4 sem0_4 nbuf0_4 hstage0_4

abbrev spec0_5 : Pipeline.WinSpec sig grid0.rank :=
  Pipeline.WinSpec.ofSpec (Memref.whole main_v1) S1x1024x256.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S32x1024x1024 : Shape := ⟨3, ![32, 1024, 1024]⟩
abbrev S32x1024x256 : Shape := ⟨3, ![32, 1024, 256]⟩
abbrev S32x1024 : Shape := ⟨2, ![32, 1024]⟩
abbrev S2x256x256 : Shape := ⟨3, ![2, 256, 256]⟩
abbrev S2x256 : Shape := ⟨2, ![2, 256]⟩
abbrev S32 : Shape := ⟨1, ![32]⟩
abbrev S32x1024x1 : Shape := ⟨3, ![32, 1024, 1]⟩
abbrev S_ : Shape := ⟨0, ![]⟩
abbrev S32x1023x256 : Shape := ⟨3, ![32, 1023, 256]⟩
abbrev S1x256x256 : Shape := ⟨3, ![1, 256, 256]⟩
abbrev S256x256 : Shape := ⟨2, ![256, 256]⟩
abbrev S1 : Shape := ⟨1, ![1]⟩
abbrev S1x256 : Shape := ⟨2, ![1, 256]⟩
abbrev S256 : Shape := ⟨1, ![256]⟩
abbrev S32x1 : Shape := ⟨2, ![32, 1]⟩
abbrev S32x2 : Shape := ⟨2, ![32, 2]⟩
abbrev S32x256 : Shape := ⟨2, ![32, 256]⟩
abbrev S32x1022x256 : Shape := ⟨3, ![32, 1022, 256]⟩
abbrev S32x2x256 : Shape := ⟨3, ![32, 2, 256]⟩

abbrev nBuf : Space → Nat
  | .hbm => 323
  | .vmem => 0
  | .smem => 0
  | _ => 0

abbrev hbmTy0_0 (i : Nat) : BufTy := match i % 128 with
  | 0 => ⟨S32x1024x1024, .f32⟩
  | 1 => ⟨S32x1024x256, .f32⟩
  | 2 => ⟨S32x1024, .f32⟩
  | 3 => ⟨S2x256x256, .f32⟩
  | 4 => ⟨S2x256, .f32⟩
  | 5 => ⟨S2x256, .f32⟩
  | 6 => ⟨S32, .i32⟩
  | 7 => ⟨S32x1024x1, .f32⟩
  | 8 => ⟨S32x1024x256, .f32⟩
  | 9 => ⟨S32x1024x256, .f32⟩
  | 10 => ⟨S32x1024x1, .f32⟩
  | 11 => ⟨S32x1024x1024, .f32⟩
  | 12 => ⟨S32x1024x1024, .f32⟩
  | 13 => ⟨S32, .i32⟩
  | 14 => ⟨S_, .f32⟩
  | 15 => ⟨S32x1024, .f32⟩
  | 16 => ⟨S_, .f32⟩
  | 17 => ⟨S32x1024, .f32⟩
  | 18 => ⟨S32x1024, .f32⟩
  | 19 => ⟨S32x1024x1, .f32⟩
  | 20 => ⟨S32x1024x256, .f32⟩
  | 21 => ⟨S32x1024x256, .f32⟩
  | 22 => ⟨S32x1024x256, .f32⟩
  | 23 => ⟨S_, .f32⟩
  | 24 => ⟨S32x1024, .f32⟩
  | 25 => ⟨S32x1024x1, .f32⟩
  | 26 => ⟨S32x1024x256, .f32⟩
  | 27 => ⟨S32x1024x256, .f32⟩
  | 28 => ⟨S_, .f32⟩
  | 29 => ⟨S32x1024x256, .f32⟩
  | 30 => ⟨S_, .f32⟩
  | 31 => ⟨S32x1024x256, .f32⟩
  | 32 => ⟨S32x1023x256, .f32⟩
  | 33 => ⟨S1x256x256, .f32⟩
  | 34 => ⟨S256x256, .f32⟩
  | 35 => ⟨S32x1023x256, .f32⟩
  | 36 => ⟨S_, .i32⟩
  | 37 => ⟨S1, .i32⟩
  | 38 => ⟨S32x1024x256, .f32⟩
  | 39 => ⟨S32x1023x256, .f32⟩
  | 40 => ⟨S1x256x256, .f32⟩
  | 41 => ⟨S256x256, .f32⟩
  | 42 => ⟨S32x1023x256, .f32⟩
  | 43 => ⟨S_, .i32⟩
  | 44 => ⟨S1, .i32⟩
  | 45 => ⟨S32x1024x256, .f32⟩
  | 46 => ⟨S_, .i32⟩
  | 47 => ⟨S32, .i32⟩
  | 48 => ⟨S32, .i32⟩
  | 49 => ⟨S1x256, .f32⟩
  | 50 => ⟨S256, .f32⟩
  | 51 => ⟨S_, .i32⟩
  | 52 => ⟨S32, .i32⟩
  | 53 => ⟨S32, .i1⟩
  | 54 => ⟨S_, .i32⟩
  | 55 => ⟨S32, .i32⟩
  | 56 => ⟨S32, .i32⟩
  | 57 => ⟨S32, .i32⟩
  | 58 => ⟨S_, .i32⟩
  | 59 => ⟨S32, .i32⟩
  | 60 => ⟨S32, .i1⟩
  | 61 => ⟨S_, .i32⟩
  | 62 => ⟨S32, .i32⟩
  | 63 => ⟨S32, .i32⟩
  | 64 => ⟨S32, .i32⟩
  | 65 => ⟨S32x1, .i32⟩
  | 66 => ⟨S32x1, .i32⟩
  | 67 => ⟨S32x2, .i32⟩
  | 68 => ⟨S32x256, .f32⟩
  | 69 => ⟨S32x1024x256, .f32⟩
  | 70 => ⟨S32x1022x256, .f32⟩
  | 71 => ⟨S1x256x256, .f32⟩
  | 72 => ⟨S256x256, .f32⟩
  | 73 => ⟨S32x1022x256, .f32⟩
  | 74 => ⟨S_, .i32⟩
  | 75 => ⟨S1, .i32⟩
  | 76 => ⟨S32x1024x256, .f32⟩
  | 77 => ⟨S32x1022x256, .f32⟩
  | 78 => ⟨S1x256x256, .f32⟩
  | 79 => ⟨S256x256, .f32⟩
  | 80 => ⟨S32x1022x256, .f32⟩
  | 81 => ⟨S_, .i32⟩
  | 82 => ⟨S1, .i32⟩
  | 83 => ⟨S32x1024x256, .f32⟩
  | 84 => ⟨S_, .i32⟩
  | 85 => ⟨S32, .i32⟩
  | 86 => ⟨S32, .i32⟩
  | 87 => ⟨S1x256, .f32⟩
  | 88 => ⟨S256, .f32⟩
  | 89 => ⟨S_, .i32⟩
  | 90 => ⟨S32, .i32⟩
  | 91 => ⟨S32, .i1⟩
  | 92 => ⟨S_, .i32⟩
  | 93 => ⟨S32, .i32⟩
  | 94 => ⟨S32, .i32⟩
  | 95 => ⟨S32, .i32⟩
  | 96 => ⟨S_, .i32⟩
  | 97 => ⟨S32, .i32⟩
  | 98 => ⟨S32, .i1⟩
  | 99 => ⟨S_, .i32⟩
  | 100 => ⟨S32, .i32⟩
  | 101 => ⟨S32, .i32⟩
  | 102 => ⟨S32, .i32⟩
  | 103 => ⟨S32x1, .i32⟩
  | 104 => ⟨S32x1, .i32⟩
  | 105 => ⟨S32x2, .i32⟩
  | 106 => ⟨S32x256, .f32⟩
  | 107 => ⟨S32x1024x256, .f32⟩
  | 108 => ⟨S32x1024x256, .f32⟩
  | 109 => ⟨S_, .i32⟩
  | 110 => ⟨S1, .i32⟩
  | 111 => ⟨S32x2x256, .f32⟩
  | 112 => ⟨S32x1024x256, .f32⟩
  | 113 => ⟨S32x1024x256, .f32⟩
  | 114 => ⟨S32x1024x1, .f32⟩
  | 115 => ⟨S32x1024x256, .f32⟩
  | 116 => ⟨S32x1024x256, .f32⟩
  | 117 => ⟨S_, .f32⟩
  | 118 => ⟨S32x1024, .f32⟩
  | 119 => ⟨S_, .f32⟩
  | 120 => ⟨S32x1024, .f32⟩
  | 121 => ⟨S32x1024, .f32⟩
  | 122 => ⟨S32x1024x1, .f32⟩
  | 123 => ⟨S32x1024x256, .f32⟩
  | 124 => ⟨S32x1024x256, .f32⟩
  | 125 => ⟨S32x1024x256, .f32⟩
  | 126 => ⟨S_, .f32⟩
  | 127 => ⟨S32x1024, .f32⟩
  | _ => ⟨S32x1024x1024, .f32⟩

abbrev hbmTy0_1 (i : Nat) : BufTy := match i % 128 with
  | 0 => ⟨S32x1024x1, .f32⟩
  | 1 => ⟨S32x1024x256, .f32⟩
  | 2 => ⟨S32x1024x256, .f32⟩
  | 3 => ⟨S_, .f32⟩
  | 4 => ⟨S32x1024x256, .f32⟩
  | 5 => ⟨S_, .f32⟩
  | 6 => ⟨S32x1024x256, .f32⟩
  | 7 => ⟨S32x1023x256, .f32⟩
  | 8 => ⟨S1x256x256, .f32⟩
  | 9 => ⟨S256x256, .f32⟩
  | 10 => ⟨S32x1023x256, .f32⟩
  | 11 => ⟨S_, .i32⟩
  | 12 => ⟨S1, .i32⟩
  | 13 => ⟨S32x1024x256, .f32⟩
  | 14 => ⟨S32x1023x256, .f32⟩
  | 15 => ⟨S1x256x256, .f32⟩
  | 16 => ⟨S256x256, .f32⟩
  | 17 => ⟨S32x1023x256, .f32⟩
  | 18 => ⟨S_, .i32⟩
  | 19 => ⟨S1, .i32⟩
  | 20 => ⟨S32x1024x256, .f32⟩
  | 21 => ⟨S_, .i32⟩
  | 22 => ⟨S32, .i32⟩
  | 23 => ⟨S32, .i32⟩
  | 24 => ⟨S1x256, .f32⟩
  | 25 => ⟨S256, .f32⟩
  | 26 => ⟨S_, .i32⟩
  | 27 => ⟨S32, .i32⟩
  | 28 => ⟨S32, .i1⟩
  | 29 => ⟨S_, .i32⟩
  | 30 => ⟨S32, .i32⟩
  | 31 => ⟨S32, .i32⟩
  | 32 => ⟨S32, .i32⟩
  | 33 => ⟨S_, .i32⟩
  | 34 => ⟨S32, .i32⟩
  | 35 => ⟨S32, .i1⟩
  | 36 => ⟨S_, .i32⟩
  | 37 => ⟨S32, .i32⟩
  | 38 => ⟨S32, .i32⟩
  | 39 => ⟨S32, .i32⟩
  | 40 => ⟨S32x1, .i32⟩
  | 41 => ⟨S32x1, .i32⟩
  | 42 => ⟨S32x2, .i32⟩
  | 43 => ⟨S32x256, .f32⟩
  | 44 => ⟨S32x1024x256, .f32⟩
  | 45 => ⟨S32x1022x256, .f32⟩
  | 46 => ⟨S1x256x256, .f32⟩
  | 47 => ⟨S256x256, .f32⟩
  | 48 => ⟨S32x1022x256, .f32⟩
  | 49 => ⟨S_, .i32⟩
  | 50 => ⟨S1, .i32⟩
  | 51 => ⟨S32x1024x256, .f32⟩
  | 52 => ⟨S32x1022x256, .f32⟩
  | 53 => ⟨S1x256x256, .f32⟩
  | 54 => ⟨S256x256, .f32⟩
  | 55 => ⟨S32x1022x256, .f32⟩
  | 56 => ⟨S_, .i32⟩
  | 57 => ⟨S1, .i32⟩
  | 58 => ⟨S32x1024x256, .f32⟩
  | 59 => ⟨S_, .i32⟩
  | 60 => ⟨S32, .i32⟩
  | 61 => ⟨S32, .i32⟩
  | 62 => ⟨S1x256, .f32⟩
  | 63 => ⟨S256, .f32⟩
  | 64 => ⟨S_, .i32⟩
  | 65 => ⟨S32, .i32⟩
  | 66 => ⟨S32, .i1⟩
  | 67 => ⟨S_, .i32⟩
  | 68 => ⟨S32, .i32⟩
  | 69 => ⟨S32, .i32⟩
  | 70 => ⟨S32, .i32⟩
  | 71 => ⟨S_, .i32⟩
  | 72 => ⟨S32, .i32⟩
  | 73 => ⟨S32, .i1⟩
  | 74 => ⟨S_, .i32⟩
  | 75 => ⟨S32, .i32⟩
  | 76 => ⟨S32, .i32⟩
  | 77 => ⟨S32, .i32⟩
  | 78 => ⟨S32x1, .i32⟩
  | 79 => ⟨S32x1, .i32⟩
  | 80 => ⟨S32x2, .i32⟩
  | 81 => ⟨S32x256, .f32⟩
  | 82 => ⟨S32x1024x256, .f32⟩
  | 83 => ⟨S32x1024x256, .f32⟩
  | 84 => ⟨S_, .i32⟩
  | 85 => ⟨S1, .i32⟩
  | 86 => ⟨S32x2x256, .f32⟩
  | 87 => ⟨S32x1024x256, .f32⟩
  | 88 => ⟨S32x1024x256, .f32⟩
  | 89 => ⟨S32x1024x1, .f32⟩
  | 90 => ⟨S32x1024x256, .f32⟩
  | 91 => ⟨S32x1024x256, .f32⟩
  | 92 => ⟨S_, .f32⟩
  | 93 => ⟨S32x1024, .f32⟩
  | 94 => ⟨S_, .f32⟩
  | 95 => ⟨S32x1024, .f32⟩
  | 96 => ⟨S32x1024, .f32⟩
  | 97 => ⟨S32x1024x1, .f32⟩
  | 98 => ⟨S32x1024x256, .f32⟩
  | 99 => ⟨S32x1024x256, .f32⟩
  | 100 => ⟨S32x1024x256, .f32⟩
  | 101 => ⟨S_, .f32⟩
  | 102 => ⟨S32x1024, .f32⟩
  | 103 => ⟨S32x1024x1, .f32⟩
  | 104 => ⟨S32x1024x256, .f32⟩
  | 105 => ⟨S32x1024x256, .f32⟩
  | 106 => ⟨S_, .f32⟩
  | 107 => ⟨S32x1024x256, .f32⟩
  | 108 => ⟨S_, .f32⟩
  | 109 => ⟨S32x1024x256, .f32⟩
  | 110 => ⟨S32x1023x256, .f32⟩
  | 111 => ⟨S1x256x256, .f32⟩
  | 112 => ⟨S256x256, .f32⟩
  | 113 => ⟨S32x1023x256, .f32⟩
  | 114 => ⟨S_, .i32⟩
  | 115 => ⟨S1, .i32⟩
  | 116 => ⟨S32x1024x256, .f32⟩
  | 117 => ⟨S32x1023x256, .f32⟩
  | 118 => ⟨S1x256x256, .f32⟩
  | 119 => ⟨S256x256, .f32⟩
  | 120 => ⟨S32x1023x256, .f32⟩
  | 121 => ⟨S_, .i32⟩
  | 122 => ⟨S1, .i32⟩
  | 123 => ⟨S32x1024x256, .f32⟩
  | 124 => ⟨S_, .i32⟩
  | 125 => ⟨S32, .i32⟩
  | 126 => ⟨S32, .i32⟩
  | 127 => ⟨S1x256, .f32⟩
  | _ => ⟨S32x1024x1024, .f32⟩

abbrev hbmTy0_2 (i : Nat) : BufTy := match i % 128 with
  | 0 => ⟨S256, .f32⟩
  | 1 => ⟨S_, .i32⟩
  | 2 => ⟨S32, .i32⟩
  | 3 => ⟨S32, .i1⟩
  | 4 => ⟨S_, .i32⟩
  | 5 => ⟨S32, .i32⟩
  | 6 => ⟨S32, .i32⟩
  | 7 => ⟨S32, .i32⟩
  | 8 => ⟨S_, .i32⟩
  | 9 => ⟨S32, .i32⟩
  | 10 => ⟨S32, .i1⟩
  | 11 => ⟨S_, .i32⟩
  | 12 => ⟨S32, .i32⟩
  | 13 => ⟨S32, .i32⟩
  | 14 => ⟨S32, .i32⟩
  | 15 => ⟨S32x1, .i32⟩
  | 16 => ⟨S32x1, .i32⟩
  | 17 => ⟨S32x2, .i32⟩
  | 18 => ⟨S32x256, .f32⟩
  | 19 => ⟨S32x1024x256, .f32⟩
  | 20 => ⟨S32x1022x256, .f32⟩
  | 21 => ⟨S1x256x256, .f32⟩
  | 22 => ⟨S256x256, .f32⟩
  | 23 => ⟨S32x1022x256, .f32⟩
  | 24 => ⟨S_, .i32⟩
  | 25 => ⟨S1, .i32⟩
  | 26 => ⟨S32x1024x256, .f32⟩
  | 27 => ⟨S32x1022x256, .f32⟩
  | 28 => ⟨S1x256x256, .f32⟩
  | 29 => ⟨S256x256, .f32⟩
  | 30 => ⟨S32x1022x256, .f32⟩
  | 31 => ⟨S_, .i32⟩
  | 32 => ⟨S1, .i32⟩
  | 33 => ⟨S32x1024x256, .f32⟩
  | 34 => ⟨S_, .i32⟩
  | 35 => ⟨S32, .i32⟩
  | 36 => ⟨S32, .i32⟩
  | 37 => ⟨S1x256, .f32⟩
  | 38 => ⟨S256, .f32⟩
  | 39 => ⟨S_, .i32⟩
  | 40 => ⟨S32, .i32⟩
  | 41 => ⟨S32, .i1⟩
  | 42 => ⟨S_, .i32⟩
  | 43 => ⟨S32, .i32⟩
  | 44 => ⟨S32, .i32⟩
  | 45 => ⟨S32, .i32⟩
  | 46 => ⟨S_, .i32⟩
  | 47 => ⟨S32, .i32⟩
  | 48 => ⟨S32, .i1⟩
  | 49 => ⟨S_, .i32⟩
  | 50 => ⟨S32, .i32⟩
  | 51 => ⟨S32, .i32⟩
  | 52 => ⟨S32, .i32⟩
  | 53 => ⟨S32x1, .i32⟩
  | 54 => ⟨S32x1, .i32⟩
  | 55 => ⟨S32x2, .i32⟩
  | 56 => ⟨S32x256, .f32⟩
  | 57 => ⟨S32x1024x256, .f32⟩
  | 58 => ⟨S32x1024x256, .f32⟩
  | 59 => ⟨S_, .i32⟩
  | 60 => ⟨S1, .i32⟩
  | 61 => ⟨S32x2x256, .f32⟩
  | 62 => ⟨S32x1024x256, .f32⟩
  | 63 => ⟨S32x1024x256, .f32⟩
  | 64 => ⟨S32x1024x1, .f32⟩
  | 65 => ⟨S32x1024x256, .f32⟩
  | 66 => ⟨S32x1024x256, .f32⟩
  | _ => ⟨S32x1024x1024, .f32⟩

abbrev hbmTy (i : Nat) : BufTy := match i / 128 with
  | 0 => hbmTy0_0 i
  | 1 => hbmTy0_1 i
  | 2 => hbmTy0_2 i
  | _ => ⟨S32x1024x1024, .f32⟩

abbrev bufTy : (tb : Table) → Fin (tcTables nBuf tb) → BufTy
  | .hbm, ⟨i, _⟩ => hbmTy i
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_8 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_11 : Ref sig .tc := ⟨.hbm, 81, rfl⟩
abbrev main_v61 : Ref sig .tc := ⟨.hbm, 82, rfl⟩
abbrev main_v62 : Ref sig .tc := ⟨.hbm, 83, rfl⟩
abbrev main_c_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_13 : Ref sig .tc := ⟨.hbm, 89, rfl⟩
abbrev main_v67 : Ref sig .tc := ⟨.hbm, 90, rfl⟩
abbrev main_v68 : Ref sig .tc := ⟨.hbm, 91, rfl⟩
abbrev main_c_14 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_15 : Ref sig .tc := ⟨.hbm, 96, rfl⟩
abbrev main_v72 : Ref sig .tc := ⟨.hbm, 97, rfl⟩
abbrev main_v73 : Ref sig .tc := ⟨.hbm, 98, rfl⟩
abbrev main_c_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_17 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_18 : Ref sig .tc := ⟨.hbm, 117, rfl⟩
abbrev main_v90 : Ref sig .tc := ⟨.hbm, 118, rfl⟩
abbrev main_cst_19 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_20 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_21 : Ref sig .tc := ⟨.hbm, 131, rfl⟩
abbrev main_v101 : Ref sig .tc := ⟨.hbm, 132, rfl⟩
abbrev main_cst_22 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_c_23 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_c_24 : Ref sig .tc := ⟨.hbm, 146, rfl⟩
abbrev main_v113 : Ref sig .tc := ⟨.hbm, 147, rfl⟩
abbrev main_v114 : Ref sig .tc := ⟨.hbm, 148, rfl⟩
abbrev main_c_25 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_c_26 : Ref sig .tc := ⟨.hbm, 154, rfl⟩
abbrev main_v119 : Ref sig .tc := ⟨.hbm, 155, rfl⟩
abbrev main_v120 : Ref sig .tc := ⟨.hbm, 156, rfl⟩
abbrev main_c_27 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_c_28 : Ref sig .tc := ⟨.hbm, 161, rfl⟩
abbrev main_v124 : Ref sig .tc := ⟨.hbm, 162, rfl⟩
abbrev main_v125 : Ref sig .tc := ⟨.hbm, 163, rfl⟩
abbrev main_c_29 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_c_30 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_c_31 : Ref sig .tc := ⟨.hbm, 184, rfl⟩
abbrev main_v144 : Ref sig .tc := ⟨.hbm, 185, rfl⟩
abbrev main_v145 : Ref sig .tc := ⟨.hbm, 186, rfl⟩
abbrev main_c_32 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_c_33 : Ref sig .tc := ⟨.hbm, 192, rfl⟩
abbrev main_v150 : Ref sig .tc := ⟨.hbm, 193, rfl⟩
abbrev main_v151 : Ref sig .tc := ⟨.hbm, 194, rfl⟩
abbrev main_c_34 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_c_35 : Ref sig .tc := ⟨.hbm, 199, rfl⟩
abbrev main_v155 : Ref sig .tc := ⟨.hbm, 200, rfl⟩
abbrev main_v156 : Ref sig .tc := ⟨.hbm, 201, rfl⟩
abbrev main_c_36 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_c_37 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_38 : Ref sig .tc := ⟨.hbm, 220, rfl⟩
abbrev main_v173 : Ref sig .tc := ⟨.hbm, 221, rfl⟩
abbrev main_cst_39 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_cst_40 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_41 : Ref sig .tc := ⟨.hbm, 234, rfl⟩
abbrev main_v184 : Ref sig .tc := ⟨.hbm, 235, rfl⟩
abbrev main_cst_42 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_c_43 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_c_44 : Ref sig .tc := ⟨.hbm, 249, rfl⟩
abbrev main_v196 : Ref sig .tc := ⟨.hbm, 250, rfl⟩
abbrev main_v197 : Ref sig .tc := ⟨.hbm, 251, rfl⟩
abbrev main_c_45 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_c_46 : Ref sig .tc := ⟨.hbm, 257, rfl⟩
abbrev main_v202 : Ref sig .tc := ⟨.hbm, 258, rfl⟩
abbrev main_v203 : Ref sig .tc := ⟨.hbm, 259, rfl⟩
abbrev main_c_47 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_c_48 : Ref sig .tc := ⟨.hbm, 264, rfl⟩
abbrev main_v207 : Ref sig .tc := ⟨.hbm, 265, rfl⟩
abbrev main_v208 : Ref sig .tc := ⟨.hbm, 266, rfl⟩
abbrev main_c_49 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_c_50 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_c_51 : Ref sig .tc := ⟨.hbm, 287, rfl⟩
abbrev main_v227 : Ref sig .tc := ⟨.hbm, 288, rfl⟩
abbrev main_v228 : Ref sig .tc := ⟨.hbm, 289, rfl⟩
abbrev main_c_52 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_c_53 : Ref sig .tc := ⟨.hbm, 295, rfl⟩
abbrev main_v233 : Ref sig .tc := ⟨.hbm, 296, rfl⟩
abbrev main_v234 : Ref sig .tc := ⟨.hbm, 297, rfl⟩
abbrev main_c_54 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_c_55 : Ref sig .tc := ⟨.hbm, 302, rfl⟩
abbrev main_v238 : Ref sig .tc := ⟨.hbm, 303, rfl⟩
abbrev main_v239 : Ref sig .tc := ⟨.hbm, 304, rfl⟩
abbrev main_c_56 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_c_57 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩

abbrev nD : Nat := 1
abbrev τ : Topo := Topo.v7x

variable {F : FTy → Type} [FloatOps F]

class Facts₀ : Prop where
  bcast_S32x1024_S32x1024x1_0_1 : S32x1024.BroadcastsInDim S32x1024x1 (![0, 1] : Fin 2 → Fin S32x1024x1.rank)
  bcast_S32x1024x1_S32x1024x256_0_1_2 : S32x1024x1.BroadcastsInDim S32x1024x256 (![0, 1, 2] : Fin 3 → Fin S32x1024x256.rank)
  bcast_S32x1024x1_S32x1024x1024_0_1_2 : S32x1024x1.BroadcastsInDim S32x1024x1024 (![0, 1, 2] : Fin 3 → Fin S32x1024x1024.rank)
  reducesTo_S32x1024x256_S32x1024_d2 : S32x1024x256.ReducesTo [2] S32x1024
  h_S_ : 0 < S_.numel
  bcast_S_S32x1024 : S_.BroadcastsInDim S32x1024 (![] : Fin 0 → Fin S32x1024.rank)
  bcast_S_S32x1024x256 : S_.BroadcastsInDim S32x1024x256 (![] : Fin 0 → Fin S32x1024x256.rank)
  slices_S32x1024x256_S32x1023x256_0_0_0 : S32x1024x256.Slices ![0, 0, 0] S32x1023x256
  slices_S2x256x256_S1x256x256_0_0_0 : S2x256x256.Slices ![0, 0, 0] S1x256x256
  shapeCasts_S1x256x256_S256x256 : S1x256x256.ShapeCasts S256x256
  bcast_S_S1 : S_.BroadcastsInDim S1 (![] : Fin 0 → Fin S1.rank)
  slices_S32x1024x256_S32x1023x256_0_1_0 : S32x1024x256.Slices ![0, 1, 0] S32x1023x256
  bcast_S_S32 : S_.BroadcastsInDim S32 (![] : Fin 0 → Fin S32.rank)
  slices_S2x256_S1x256_0_0 : S2x256.Slices ![0, 0] S1x256
  shapeCasts_S1x256_S256 : S1x256.ShapeCasts S256
  bcast_S32_S32x1_0 : S32.BroadcastsInDim S32x1 (![0] : Fin 1 → Fin S32x1.rank)
  concatenates_S32x1_S32x1_S32x2_d1 : Shape.Concatenates [S32x1, S32x1] S32x2 1
  bcast_S256_S32x256_1 : S256.BroadcastsInDim S32x256 (![1] : Fin 1 → Fin S32x256.rank)
  slices_S32x1024x256_S32x1022x256_0_0_0 : S32x1024x256.Slices ![0, 0, 0] S32x1022x256
  slices_S2x256x256_S1x256x256_1_0_0 : S2x256x256.Slices ![1, 0, 0] S1x256x256
  slices_S32x1024x256_S32x1022x256_0_2_0 : S32x1024x256.Slices ![0, 2, 0] S32x1022x256
  slices_S2x256_S1x256_1_0 : S2x256.Slices ![1, 0] S1x256
  bcast_S2x256_S32x2x256_1_2 : S2x256.BroadcastsInDim S32x2x256 (![1, 2] : Fin 2 → Fin S32x2x256.rank)
  dot_S32x1023x256_S256x256_S32x1023x256_2_0_01_1_n_n_wf : DotDims.WF S32x1023x256 S256x256 S32x1023x256 [2] [0] [0, 1] [1] [] []
  scatter_S32x1024x256_S1_S32x1023x256_012_n_1_0_wf : ScatterDims.WF S32x1024x256 S1 S32x1023x256 [0, 1, 2] [] [1] 0
  dot_S32x1023x256_S256x256_S32x1023x256_2_1_01_0_n_n_wf : DotDims.WF S32x1023x256 S256x256 S32x1023x256 [2] [1] [0, 1] [0] [] []
  scatter_S32x1024x256_S32x2_S32x256_1_01_01_1_wf : ScatterDims.WF S32x1024x256 S32x2 S32x256 [1] [0, 1] [0, 1] 1
  dot_S32x1022x256_S256x256_S32x1022x256_2_0_01_1_n_n_wf : DotDims.WF S32x1022x256 S256x256 S32x1022x256 [2] [0] [0, 1] [1] [] []
  scatter_S32x1024x256_S1_S32x1022x256_012_n_1_0_wf : ScatterDims.WF S32x1024x256 S1 S32x1022x256 [0, 1, 2] [] [1] 0
  dot_S32x1022x256_S256x256_S32x1022x256_2_1_01_0_n_n_wf : DotDims.WF S32x1022x256 S256x256 S32x1022x256 [2] [1] [0, 1] [0] [] []
  scatter_S32x1024x256_S1_S32x2x256_012_n_1_0_wf : ScatterDims.WF S32x1024x256 S1 S32x2x256 [0, 1, 2] [] [1] 0

variable [Facts₀]

def dot_S32x1023x256_S256x256_S32x1023x256_2_0_01_1_n_n : DotDims S32x1023x256 S256x256 S32x1023x256 where
  lhsContracting := [2]
  rhsContracting := [0]
  lhsNonContracting := [0, 1]
  rhsNonContracting := [1]
  lhsBatch := []
  rhsBatch := []
  wf := dot_S32x1023x256_S256x256_S32x1023x256_2_0_01_1_n_n_wf
def scatter_S32x1024x256_S1_S32x1023x256_012_n_1_0 : ScatterDims S32x1024x256 S1 S32x1023x256 where
  updateWindowDims := [0, 1, 2]
  insertedWindowDims := []
  scatterDimsToOperandDims := [1]
  indexVectorDim := 0
  wf := scatter_S32x1024x256_S1_S32x1023x256_012_n_1_0_wf
def dot_S32x1023x256_S256x256_S32x1023x256_2_1_01_0_n_n : DotDims S32x1023x256 S256x256 S32x1023x256 where
  lhsContracting := [2]
  rhsContracting := [1]
  lhsNonContracting := [0, 1]
  rhsNonContracting := [0]
  lhsBatch := []
  rhsBatch := []
  wf := dot_S32x1023x256_S256x256_S32x1023x256_2_1_01_0_n_n_wf
def scatter_S32x1024x256_S32x2_S32x256_1_01_01_1 : ScatterDims S32x1024x256 S32x2 S32x256 where
  updateWindowDims := [1]
  insertedWindowDims := [0, 1]
  scatterDimsToOperandDims := [0, 1]
  indexVectorDim := 1
  wf := scatter_S32x1024x256_S32x2_S32x256_1_01_01_1_wf
def dot_S32x1022x256_S256x256_S32x1022x256_2_0_01_1_n_n : DotDims S32x1022x256 S256x256 S32x1022x256 where
  lhsContracting := [2]
  rhsContracting := [0]
  lhsNonContracting := [0, 1]
  rhsNonContracting := [1]
  lhsBatch := []
  rhsBatch := []
  wf := dot_S32x1022x256_S256x256_S32x1022x256_2_0_01_1_n_n_wf
def scatter_S32x1024x256_S1_S32x1022x256_012_n_1_0 : ScatterDims S32x1024x256 S1 S32x1022x256 where
  updateWindowDims := [0, 1, 2]
  insertedWindowDims := []
  scatterDimsToOperandDims := [1]
  indexVectorDim := 0
  wf := scatter_S32x1024x256_S1_S32x1022x256_012_n_1_0_wf
def dot_S32x1022x256_S256x256_S32x1022x256_2_1_01_0_n_n : DotDims S32x1022x256 S256x256 S32x1022x256 where
  lhsContracting := [2]
  rhsContracting := [1]
  lhsNonContracting := [0, 1]
  rhsNonContracting := [0]
  lhsBatch := []
  rhsBatch := []
  wf := dot_S32x1022x256_S256x256_S32x1022x256_2_1_01_0_n_n_wf
def scatter_S32x1024x256_S1_S32x2x256_012_n_1_0 : ScatterDims S32x1024x256 S1 S32x2x256 where
  updateWindowDims := [0, 1, 2]
  insertedWindowDims := []
  scatterDimsToOperandDims := [1]
  indexVectorDim := 0
  wf := scatter_S32x1024x256_S1_S32x2x256_012_n_1_0_wf

class Facts : Prop extends Facts₀ where

variable [Facts]
-- ==== Proof.Spec.lean ====
/-
  The function both programs compute.  For one batch element, with scores `u s t` (position `s` of 1024,
  tag `t` of 256), a mask `mk s`, two transition matrices `T 0`, `T 1` (neighbours at distance one and two),
  start rows `St`, end rows `E` and a sequence length `len`:
    U = u · mk;   q₀ = U;   q ↦ (U + msg (softmax q)) · mk, three times.
  The message at position `s` collects, for each distance `j` of 1 and 2, the left neighbour's row `s - j`
  through `T (j-1)`, the right neighbour's row `s + j` through the transpose of `T (j-1)`, the end row
  `E (j-1)` at the position `j` before the sequence's end, and the start rows at positions 0 and 1.
  Everything is on the extended reals; sums are finite sums there, so their order and grouping are free.
-/
import Idealize.ShloMosaic.PureOps.Ideal.Laws
import Idealize.ShloMosaic.Lib.ValueIdx

noncomputable section

open scoped BigOperators

namespace Cert.Mfvi

open Idealize.ShloMosaic Idealize.ShloMosaic.ValueIdx

/-- One batch element's scores: position by tag. -/
abbrev Slab : Type := Fin 1024 → Fin 256 → EReal

/-- The value of the literal both programs start their row maximum from (the word of −∞). -/
abbrev negInf : EReal := Ideal.ofBits .f32 0xFF800000#32

/-- A row's maximum as both programs take it: `max` folded over the row from −∞, joined once more with −∞. -/
def rowTop (r : Fin 256 → EReal) : EReal :=
  max negInf ((Finset.univ : Finset (Fin 256)).fold max negInf r)

/-- Softmax along the tags: `exp (q − row maximum)` over its row sum. -/
def smax (q : Slab) : Slab := fun s t =>
  Ideal.div (Ideal.exp (q s t - rowTop (q s))) (∑ k : Fin 256, Ideal.exp (q s k - rowTop (q s)))

/-- Row `s` of `p` through `T`: `∑ₐ p s a · T a t`. -/
def dotL (T : Fin 256 → Fin 256 → EReal) (p : Slab) (s : Fin 1024) (t : Fin 256) : EReal :=
  ∑ a : Fin 256, p s a * T a t

/-- Row `s` of `p` through the transpose of `T`: `∑_b p s b · T t b`. -/
def dotR (T : Fin 256 → Fin 256 → EReal) (p : Slab) (s : Fin 1024) (t : Fin 256) : EReal :=
  ∑ b : Fin 256, p s b * T t b

/-- Position `s` is the one `j` before the end of a sequence of length `len` (as 32-bit words). -/
def hit (len j : BitVec 32) (s : Fin 1024) : Prop := BitVec.ofNat 32 s.val = len - j

instance (len j : BitVec 32) (s : Fin 1024) : Decidable (hit len j s) := by unfold hit; infer_instance

/-- The message every position receives from its neighbours, the sequence's end and its start. The position
    arithmetic `s - j`, `s + j` is that of `Fin 1024`; under its guard it does not wrap. -/
def msg (T : Fin 2 → Fin 256 → Fin 256 → EReal) (St E : Fin 2 → Fin 256 → EReal) (len : BitVec 32) (p : Slab) : Slab :=
  fun s t =>
    (if 1 ≤ s.val then dotL (T 0) p (s - 1) t else 0)
    + (if s.val < 1023 then dotR (T 0) p (s + 1) t else 0)
    + (if hit len 1#32 s then E 0 t else 0)
    + (if 2 ≤ s.val then dotL (T 1) p (s - 2) t else 0)
    + (if s.val < 1022 then dotR (T 1) p (s + 2) t else 0)
    + (if hit len 2#32 s then E 1 t else 0)
    + (if s.val = 0 then St 0 t else 0)
    + (if s.val = 1 then St 1 t else 0)

/-- One round: the masked scores plus the message of the softmax, masked again. -/
def step (U : Slab) (mk : Fin 1024 → EReal) (T : Fin 2 → Fin 256 → Fin 256 → EReal) (St E : Fin 2 → Fin 256 → EReal)
    (len : BitVec 32) (q : Slab) : Slab :=
  fun s t => (U s t + msg T St E len (smax q) s t) * mk s

/-- The masked scores. -/
def masked (u : Slab) (mk : Fin 1024 → EReal) : Slab := fun s t => u s t * mk s

/-- Three rounds from the masked scores: one batch element's result. -/
def G3 (u : Slab) (mk : Fin 1024 → EReal) (T : Fin 2 → Fin 256 → Fin 256 → EReal) (St E : Fin 2 → Fin 256 → EReal)
    (len : BitVec 32) : Slab :=
  step (masked u mk) mk T St E len (step (masked u mk) mk T St E len (step (masked u mk) mk T St E len (masked u mk)))

/-- The whole result array: batch element `b`'s three rounds, from batch `b` of the scores, of the mask and of the lengths. -/
def Gfull (u : FVec Ideal ⟨3, ![32, 1024, 256]⟩ .f32) (mk : FVec Ideal ⟨2, ![32, 1024]⟩ .f32)
    (T : FVec Ideal ⟨3, ![2, 256, 256]⟩ .f32) (St E : FVec Ideal ⟨2, ![2, 256]⟩ .f32) (lens : IVec ⟨1, ![32]⟩ 32) :
    FVec Ideal ⟨3, ![32, 1024, 256]⟩ .f32 :=
  fun i =>
    let b : Fin 32 := i 0
    let s : Fin 1024 := i 1
    let t : Fin 256 := i 2
    G3 (fun s t => u (ix3 b s t)) (fun s => mk (ix2 b s)) (fun j a c => T (ix3 j a c)) (fun j t => St (ix2 j t))
      (fun j t => E (ix2 j t)) (lens (ix1 b)) s t

end Cert.Mfvi

end
-- ==== Proof.KStep.lean ====
/-
  One round of the kernel body as one pure function of the values the body has loaded: the statements of the
  printed body from the row maximum of the round's input `q` to the masked sum that is the round's output, in the
  printed order, the six loads (two transition matrices, two end rows, two start rows) as parameters. The body's
  three rounds are this function three times: from the masked scores `v7`, then from each round's output.
-/
import proofs.«422564_j72224170049656_1_alg».proof.Proof.Gen.KernelIdeal

set_option synthInstance.maxSize 4096

noncomputable section

namespace Cert.KernelIdeal.Hand

open Idealize.ShloMosaic Idealize.SL.Sem Cert.KernelIdeal Cert.KernelIdeal.Gen

variable {F : FTy → Type} [FloatOps F]

/-- One round: softmax of `q` along the tags, the four neighbour messages through the two transition matrices
    (rotated into place and masked at the edges), the two end rows at the positions before the length `v1`, the
    two start rows at positions 0 and 1, all added to the masked scores `v7` and masked by `v3` again. -/
def kstep (v1 : BitVec 32) (v3 : FVec F S1024x1 .f32) (v7 : FVec F S1024x256 .f32) (v8 : IVec S1024x1 32)
    (v22 : Vec F S1x256x256 .f32) (v43 : Vec F S1x256 .f32) (v55 : Vec F S1x256x256 .f32) (v76 : Vec F S1x256 .f32)
    (v88 : Vec F S1x256 .f32) (v99 : Vec F S1x256 .f32) (q : FVec F S1024x256 .f32) : FVec F S1024x256 .f32 :=
  have v9 : FVec F S1024 .f32 := multiReduction .maximumf [1] S1024 q 0xFF800000#32 reduces_S1024x256_S1024 (.inl rfl) rfl
  have cst_5 : F .f32 := Scalar.ofBits .f32 0xFF800000#32
  have v10 : FVec F S1024 .f32 := broadcast S1024 cst_5
  have v11 : FVec F S1024 .f32 := maximumf v10 v9
  have v12 : FVec F S1024x1 .f32 := shapeCast S1024x1 v11 shapeCasts_S1024_S1024x1
  have v13 : FVec F S1024x256 .f32 := broadcastTo S1024x256 v12 broadcasts_S1024x1_S1024x256
  have v14 : FVec F S1024x256 .f32 := subf q v13
  have v15 : FVec F S1024x256 .f32 := exp v14
  have cst_6 : FVec F S1024 .f32 := constant S1024 .f32 0x00000000#32
  have v16 : FVec F S1024 .f32 := multiReduction .add [1] S1024 v15 0x00000000#32 reduces_S1024x256_S1024 (.inl rfl) rfl
  have v17 : FVec F S1024x1 .f32 := shapeCast S1024x1 v16 shapeCasts_S1024_S1024x1
  have v18 : FVec F S1024x256 .f32 := broadcastTo S1024x256 v17 broadcasts_S1024x1_S1024x256
  have v19 : FVec F S1024x256 .f32 := divf v15 v18
  have v20 : FVec F S1024x256 .bf16 := truncf .bf16 v19 bitsLt_bf16_f32
  have cst_7 : F .f32 := Scalar.ofBits .f32 0x00000000#32
  have v21 : FVec F S1024x256 .f32 := broadcast S1024x256 cst_7
  let c0_8 : Index := 0#32
  let c0_9 : Index := 0#32
  let c0_10 : Index := 0#32
  have v23 : FVec F S256x256 .f32 := shapeCast S256x256 v22 shapeCasts_S1x256x256_S256x256
  have v24 : FVec F S256x256 .bf16 := truncf .bf16 v23 bitsLt_bf16_f32
  have cst_11 : FVec F S1024x256 .f32 := constant S1024x256 .f32 0x00000000#32
  have v25 : FVec F S1024x256 .f32 := matmul dot_S1024x256_S256x256_S1024x256_1_0_0_1_n_n none v20 v24 cst_11
  have cst_12 : FVec F S1024x256 .f32 := constant S1024x256 .f32 0x00000000#32
  have v26 : FVec F S1024x256 .f32 := matmul dot_S1024x256_S256x256_S1024x256_1_1_0_0_n_n none v20 v24 cst_12
  let c1_i32 : BitVec 32 := 1#32
  have v27 : FVec F S1024x256 .f32 := dynamicRotate 0 c1_i32 none v25 rotates_S1024x256_d0
  let c1_i32_13 : BitVec 32 := 1#32
  have v28 : IVec S1024x1 32 := broadcast S1024x1 c1_i32_13
  have v29 : IVec S1024x1 1 := cmpi .sge v8 v28
  have v30 : IVec S1024x1 32 := extui 32 v29 natLt_1_32
  have v31 : FVec F S1024x1 .f32 := sitofp .f32 v30
  have v32 : FVec F S1024x256 .f32 := broadcastTo S1024x256 v31 broadcasts_S1024x1_S1024x256
  have v33 : FVec F S1024x256 .f32 := mulf v27 v32
  have v34 : FVec F S1024x256 .f32 := addf v21 v33
  let c1023_i32 : BitVec 32 := 1023#32
  have v35 : FVec F S1024x256 .f32 := dynamicRotate 0 c1023_i32 none v26 rotates_S1024x256_d0
  let c1023_i32_14 : BitVec 32 := 1023#32
  have v36 : IVec S1024x1 32 := broadcast S1024x1 c1023_i32_14
  have v37 : IVec S1024x1 1 := cmpi .slt v8 v36
  have v38 : IVec S1024x1 32 := extui 32 v37 natLt_1_32
  have v39 : FVec F S1024x1 .f32 := sitofp .f32 v38
  have v40 : FVec F S1024x256 .f32 := broadcastTo S1024x256 v39 broadcasts_S1024x1_S1024x256
  have v41 : FVec F S1024x256 .f32 := mulf v35 v40
  have v42 : FVec F S1024x256 .f32 := addf v34 v41
  let c0_15 : Index := 0#32
  let c0_16 : Index := 0#32
  have v44 : FVec F S256 .f32 := shapeCast S256 v43 shapeCasts_S1x256_S256
  have v45 : FVec F S1x256 .f32 := shapeCast S1x256 v44 shapeCasts_S256_S1x256
  let c1_i32_17 : BitVec 32 := 1#32
  let v46 : BitVec 32 := Scalar.subi v1 c1_i32_17
  have v47 : IVec S1024x1 32 := broadcast S1024x1 v46
  have v48 : IVec S1024x1 1 := cmpi .eq v8 v47
  have v49 : IVec S1024x1 32 := extui 32 v48 natLt_1_32
  have v50 : FVec F S1024x1 .f32 := sitofp .f32 v49
  have v51 : FVec F S1024x256 .f32 := broadcastTo S1024x256 v50 broadcasts_S1024x1_S1024x256
  have v52 : FVec F S1024x256 .f32 := broadcastTo S1024x256 v45 broadcasts_S1x256_S1024x256
  have v53 : FVec F S1024x256 .f32 := mulf v51 v52
  have v54 : FVec F S1024x256 .f32 := addf v42 v53
  let c1 : Index := 1#32
  let c0_18 : Index := 0#32
  let c0_19 : Index := 0#32
  have v56 : FVec F S256x256 .f32 := shapeCast S256x256 v55 shapeCasts_S1x256x256_S256x256
  have v57 : FVec F S256x256 .bf16 := truncf .bf16 v56 bitsLt_bf16_f32
  have cst_20 : FVec F S1024x256 .f32 := constant S1024x256 .f32 0x00000000#32
  have v58 : FVec F S1024x256 .f32 := matmul dot_S1024x256_S256x256_S1024x256_1_0_0_1_n_n none v20 v57 cst_20
  have cst_21 : FVec F S1024x256 .f32 := constant S1024x256 .f32 0x00000000#32
  have v59 : FVec F S1024x256 .f32 := matmul dot_S1024x256_S256x256_S1024x256_1_1_0_0_n_n none v20 v57 cst_21
  let c2_i32 : BitVec 32 := 2#32
  have v60 : FVec F S1024x256 .f32 := dynamicRotate 0 c2_i32 none v58 rotates_S1024x256_d0
  let c2_i32_22 : BitVec 32 := 2#32
  have v61 : IVec S1024x1 32 := broadcast S1024x1 c2_i32_22
  have v62 : IVec S1024x1 1 := cmpi .sge v8 v61
  have v63 : IVec S1024x1 32 := extui 32 v62 natLt_1_32
  have v64 : FVec F S1024x1 .f32 := sitofp .f32 v63
  have v65 : FVec F S1024x256 .f32 := broadcastTo S1024x256 v64 broadcasts_S1024x1_S1024x256
  have v66 : FVec F S1024x256 .f32 := mulf v60 v65
  have v67 : FVec F S1024x256 .f32 := addf v54 v66
  let c1022_i32 : BitVec 32 := 1022#32
  have v68 : FVec F S1024x256 .f32 := dynamicRotate 0 c1022_i32 none v59 rotates_S1024x256_d0
  let c1022_i32_23 : BitVec 32 := 1022#32
  have v69 : IVec S1024x1 32 := broadcast S1024x1 c1022_i32_23
  have v70 : IVec S1024x1 1 := cmpi .slt v8 v69
  have v71 : IVec S1024x1 32 := extui 32 v70 natLt_1_32
  have v72 : FVec F S1024x1 .f32 := sitofp .f32 v71
  have v73 : FVec F S1024x256 .f32 := broadcastTo S1024x256 v72 broadcasts_S1024x1_S1024x256
  have v74 : FVec F S1024x256 .f32 := mulf v68 v73
  have v75 : FVec F S1024x256 .f32 := addf v67 v74
  let c1_24 : Index := 1#32
  let c0_25 : Index := 0#32
  have v77 : FVec F S256 .f32 := shapeCast S256 v76 shapeCasts_S1x256_S256
  have v78 : FVec F S1x256 .f32 := shapeCast S1x256 v77 shapeCasts_S256_S1x256
  let c2_i32_26 : BitVec 32 := 2#32
  let v79 : BitVec 32 := Scalar.subi v1 c2_i32_26
  have v80 : IVec S1024x1 32 := broadcast S1024x1 v79
  have v81 : IVec S1024x1 1 := cmpi .eq v8 v80
  have v82 : IVec S1024x1 32 := extui 32 v81 natLt_1_32
  have v83 : FVec F S1024x1 .f32 := sitofp .f32 v82
  have v84 : FVec F S1024x256 .f32 := broadcastTo S1024x256 v83 broadcasts_S1024x1_S1024x256
  have v85 : FVec F S1024x256 .f32 := broadcastTo S1024x256 v78 broadcasts_S1x256_S1024x256
  have v86 : FVec F S1024x256 .f32 := mulf v84 v85
  have v87 : FVec F S1024x256 .f32 := addf v75 v86
  let c0_27 : Index := 0#32
  let c0_28 : Index := 0#32
  have v89 : FVec F S256 .f32 := shapeCast S256 v88 shapeCasts_S1x256_S256
  have v90 : FVec F S1x256 .f32 := shapeCast S1x256 v89 shapeCasts_S256_S1x256
  let c0_i32 : BitVec 32 := 0#32
  have v91 : IVec S1024x1 32 := broadcast S1024x1 c0_i32
  have v92 : IVec S1024x1 1 := cmpi .eq v8 v91
  have v93 : IVec S1024x1 32 := extui 32 v92 natLt_1_32
  have v94 : FVec F S1024x1 .f32 := sitofp .f32 v93
  have v95 : FVec F S1024x256 .f32 := broadcastTo S1024x256 v94 broadcasts_S1024x1_S1024x256
  have v96 : FVec F S1024x256 .f32 := broadcastTo S1024x256 v90 broadcasts_S1x256_S1024x256
  have v97 : FVec F S1024x256 .f32 := mulf v95 v96
  have v98 : FVec F S1024x256 .f32 := addf v87 v97
  let c1_29 : Index := 1#32
  let c0_30 : Index := 0#32
  have v100 : FVec F S256 .f32 := shapeCast S256 v99 shapeCasts_S1x256_S256
  have v101 : FVec F S1x256 .f32 := shapeCast S1x256 v100 shapeCasts_S256_S1x256
  let c1_i32_31 : BitVec 32 := 1#32
  have v102 : IVec S1024x1 32 := broadcast S1024x1 c1_i32_31
  have v103 : IVec S1024x1 1 := cmpi .eq v8 v102
  have v104 : IVec S1024x1 32 := extui 32 v103 natLt_1_32
  have v105 : FVec F S1024x1 .f32 := sitofp .f32 v104
  have v106 : FVec F S1024x256 .f32 := broadcastTo S1024x256 v105 broadcasts_S1024x1_S1024x256
  have v107 : FVec F S1024x256 .f32 := broadcastTo S1024x256 v101 broadcasts_S1x256_S1024x256
  have v108 : FVec F S1024x256 .f32 := mulf v106 v107
  have v109 : FVec F S1024x256 .f32 := addf v98 v108
  have v110 : FVec F S1024x256 .f32 := addf v7 v109
  have v111 : FVec F S1024x256 .f32 := broadcastTo S1024x256 v3 broadcasts_S1024x1_S1024x256
  have v112 : FVec F S1024x256 .f32 := mulf v110 v111
  v112

end Cert.KernelIdeal.Hand

end
-- ==== Proof.KOps.lean ====
/-
  The kernel's non-pointwise operations read at a position and a tag, at the extended reals: a product with a
  transition matrix rotated along the positions, the 0/1 columns the position compares make, and the row
  broadcasts.
-/
import proofs.«422564_j72224170049656_1_alg».proof.Proof.KStep
import proofs.«422564_j72224170049656_1_alg».proof.Proof.Spec
import Idealize.ShloMosaic.PureOps.Ideal.Laws
import Idealize.ShloMosaic.Lib.Pipeline.Value
import Idealize.ShloMosaic.Lib.ValueLayout
import Idealize.ShloMosaic.Lib.ValueIdx
import Idealize.ShloMosaic.Lib.KernelVsHost
import Idealize.ShloMosaic.Lib.Affine

noncomputable section

open scoped BigOperators

namespace Cert.KernelIdeal.Hand

open Idealize.ShloMosaic Idealize.ShloMosaic.ValueIdx Cert.KernelIdeal Cert.KernelIdeal.Gen Cert.Mfvi

/-- The column of positions: entry `s` is the word of `s`. -/
abbrev posCol : IVec S1024x1 32 := iota .tc S1024x1 32 [0] iota_S1024x1_d0_w32

theorem posCol_apply (s : Fin 1024) : posCol (ix2 s (0 : Fin 1)) = BitVec.ofNat 32 s.val :=
  iota_single_apply .tc S1024x1 32 0 iota_S1024x1_d0_w32 (ix2 s (0 : Fin 1))

/-- A column broadcast along the tags reads its entry at the position. -/
theorem colbc_apply (c : FVec Ideal S1024x1 .f32) (s : Fin 1024) (t : Fin 256) :
    broadcastTo S1024x256 c broadcasts_S1024x1_S1024x256 (ix2 s t) = c (ix2 s (0 : Fin 1)) :=
  broadcastTo_apply c broadcasts_S1024x1_S1024x256 (ix2 s t) (ix2 s (0 : Fin 1)) fun a =>
    match a with
    | ⟨0, _⟩ => rfl
    | ⟨1, _⟩ => rfl

/-- A row broadcast down the positions reads its entry at the tag. -/
theorem rowbc_apply (r : FVec Ideal S1x256 .f32) (s : Fin 1024) (t : Fin 256) :
    broadcastTo S1024x256 r broadcasts_S1x256_S1024x256 (ix2 s t) = r (ix2 (0 : Fin 1) t) :=
  broadcastTo_apply r broadcasts_S1x256_S1024x256 (ix2 s t) (ix2 (0 : Fin 1) t) fun a =>
    match a with
    | ⟨0, _⟩ => rfl
    | ⟨1, _⟩ => rfl

/-- A number below 1024 read as a signed 32-bit word is itself. -/
theorem toInt_ofNat_small (n : ℕ) (hn : n < 1024) : (BitVec.ofNat 32 n).toInt = (n : ℤ) := by
  rw [BitVec.toInt_eq_toNat_cond, BitVec.toNat_ofNat]
  have h : n % 2 ^ 32 = n := Nat.mod_eq_of_lt (by omega)
  rw [h, if_pos (by omega)]

/-- A one-bit condition widened to a word and converted is 1 where it holds and 0 where it does not. -/
theorem bit_to_real (b : BitVec 1) (P : Prop) [Decidable P] (h : b = 1#1 ↔ P) :
    ((((b.setWidth 32).toInt : ℤ) : ℝ) : EReal) = if P then 1 else 0 := by
  rw [toInt_setWidth_bit]
  by_cases hP : P
  · rw [if_pos hP, h.mpr hP]; simp
  · rw [if_neg hP, eq_zero_of_ne_one (fun hb => hP (h.mp hb))]; simp

/-- The 0/1 column of the positions at or after `k`, broadcast along the tags. -/
theorem ind_sge_apply (k : ℕ) (hk : k < 1024) (s : Fin 1024) (t : Fin 256) :
    broadcastTo S1024x256 (sitofp (F := Ideal) .f32 (extui 32 (cmpi .sge posCol (broadcast S1024x1 (BitVec.ofNat 32 k))) natLt_1_32))
      broadcasts_S1024x1_S1024x256 (ix2 s t) = if k ≤ s.val then 1 else 0 := by
  rw [colbc_apply]
  show (((((IntOp.cmpi .sge (posCol (ix2 s (0 : Fin 1))) (BitVec.ofNat 32 k)).setWidth 32).toInt : ℤ) : ℝ) : EReal) = _
  rw [posCol_apply]
  refine bit_to_real _ _ ?_
  rw [IntOp.cmpi_sge, toInt_ofNat_small k hk, toInt_ofNat_small s.val s.isLt]
  exact Int.ofNat_le

/-- The 0/1 column of the positions before `k`, broadcast along the tags. -/
theorem ind_slt_apply (k : ℕ) (hk : k < 1024) (s : Fin 1024) (t : Fin 256) :
    broadcastTo S1024x256 (sitofp (F := Ideal) .f32 (extui 32 (cmpi .slt posCol (broadcast S1024x1 (BitVec.ofNat 32 k))) natLt_1_32))
      broadcasts_S1024x1_S1024x256 (ix2 s t) = if s.val < k then 1 else 0 := by
  rw [colbc_apply]
  show (((((IntOp.cmpi .slt (posCol (ix2 s (0 : Fin 1))) (BitVec.ofNat 32 k)).setWidth 32).toInt : ℤ) : ℝ) : EReal) = _
  rw [posCol_apply]
  refine bit_to_real _ _ ?_
  rw [IntOp.cmpi_slt, toInt_ofNat_small k hk, toInt_ofNat_small s.val s.isLt]
  exact Int.ofNat_lt

/-- The 0/1 column of the position whose word is `w`, broadcast along the tags. -/
theorem ind_eq_apply (w : BitVec 32) (s : Fin 1024) (t : Fin 256) :
    broadcastTo S1024x256 (sitofp (F := Ideal) .f32 (extui 32 (cmpi .eq posCol (broadcast S1024x1 w)) natLt_1_32))
      broadcasts_S1024x1_S1024x256 (ix2 s t) = if BitVec.ofNat 32 s.val = w then 1 else 0 := by
  rw [colbc_apply]
  show (((((IntOp.cmpi .eq (posCol (ix2 s (0 : Fin 1))) w).setWidth 32).toInt : ℤ) : ℝ) : EReal) = _
  rw [posCol_apply]
  exact bit_to_real _ _ IntOp.cmpi_eq

/-! ## The two products read at an index

The first record contracts the tags of the left operand with the rows of the matrix; the second contracts the tags of
the left operand with the columns of the matrix (a product with the transpose). Each operand index is read axis by axis. -/

theorem lhsA_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl

theorem lhsA_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q

theorem rhsA_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q

theorem rhsA_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The product with the matrix, into a zero accumulator, at position `s` and tag `t`. -/
theorem matmulA_apply (p : FVec Ideal S1024x256 .bf16) (w : FVec Ideal S256x256 .bf16) (s : Fin 1024) (t : Fin 256) :
    matmul dot_S1024x256_S256x256_S1024x256_1_0_0_1_n_n none p w (constant S1024x256 .f32 0x00000000#32) (ix2 s t)
      = ∑ a : Fin 256, p (ix2 s a) * w (ix2 a t) := by
  simp only [matmul]
  rw [Ideal.matmul_constant_zero_apply,
    ← Equiv.sum_comp (contrEquiv1 dot_S1024x256_S256x256_S1024x256_1_0_0_1_n_n 256 rfl rfl).symm]
  refine Finset.sum_congr rfl fun a _ => ?_
  have ha := contrEquiv1_symm_val dot_S1024x256_S256x256_S1024x256_1_0_0_1_n_n 256 rfl rfl a
  have el : dot_S1024x256_S256x256_S1024x256_1_0_0_1_n_n.lhsIdx (ix2 s t)
      ((contrEquiv1 dot_S1024x256_S256x256_S1024x256_1_0_0_1_n_n 256 rfl rfl).symm a) = ix2 s a :=
    funext fun b => Fin.ext (by
      match b with
      | ⟨0, _⟩ => exact lhsA_0 _ _
      | ⟨1, _⟩ => exact (lhsA_1 _ _).trans ha)
  have er : dot_S1024x256_S256x256_S1024x256_1_0_0_1_n_n.rhsIdx (ix2 s t)
      ((contrEquiv1 dot_S1024x256_S256x256_S1024x256_1_0_0_1_n_n 256 rfl rfl).symm a) = ix2 a t :=
    funext fun b => Fin.ext (by
      match b with
      | ⟨0, _⟩ => exact (rhsA_0 _ _).trans ha
      | ⟨1, _⟩ => exact rhsA_1 _ _)
  rw [el, er]

theorem lhsB_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide),
    dif_pos (show (0 : Fin S1024x256.rank) ∈ dot_S1024x256_S256x256_S1024x256_1_1_0_0_n_n.lhsNonContracting by decide)]
  rfl

theorem lhsB_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q

theorem rhsB_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide),
    dif_pos (show (0 : Fin S256x256.rank) ∈ dot_S1024x256_S256x256_S1024x256_1_1_0_0_n_n.rhsNonContracting by decide)]
  rfl

theorem rhsB_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

/-- The product with the transposed matrix, into a zero accumulator, at position `s` and tag `t`. -/
theorem matmulB_apply (p : FVec Ideal S1024x256 .bf16) (w : FVec Ideal S256x256 .bf16) (s : Fin 1024) (t : Fin 256) :
    matmul dot_S1024x256_S256x256_S1024x256_1_1_0_0_n_n none p w (constant S1024x256 .f32 0x00000000#32) (ix2 s t)
      = ∑ b : Fin 256, p (ix2 s b) * w (ix2 t b) := by
  simp only [matmul]
  rw [Ideal.matmul_constant_zero_apply,
    ← Equiv.sum_comp (contrEquiv1 dot_S1024x256_S256x256_S1024x256_1_1_0_0_n_n 256 rfl rfl).symm]
  refine Finset.sum_congr rfl fun a _ => ?_
  have ha := contrEquiv1_symm_val dot_S1024x256_S256x256_S1024x256_1_1_0_0_n_n 256 rfl rfl a
  have el : dot_S1024x256_S256x256_S1024x256_1_1_0_0_n_n.lhsIdx (ix2 s t)
      ((contrEquiv1 dot_S1024x256_S256x256_S1024x256_1_1_0_0_n_n 256 rfl rfl).symm a) = ix2 s a :=
    funext fun b => Fin.ext (by
      match b with
      | ⟨0, _⟩ => exact lhsB_0 _ _
      | ⟨1, _⟩ => exact (lhsB_1 _ _).trans ha)
  have er : dot_S1024x256_S256x256_S1024x256_1_1_0_0_n_n.rhsIdx (ix2 s t)
      ((contrEquiv1 dot_S1024x256_S256x256_S1024x256_1_1_0_0_n_n 256 rfl rfl).symm a) = ix2 t a :=
    funext fun b => Fin.ext (by
      match b with
      | ⟨0, _⟩ => exact rhsB_0 _ _
      | ⟨1, _⟩ => exact (rhsB_1 _ _).trans ha)
  rw [el, er]

/-! ## The rotations along the positions -/

/-- A rotation of the positions by `d` reads, at position `s`, the operand's position `r` when `r` is `s` moved back by `d` around the end. -/
theorem rot_apply (d : BitVec 32) (x : FVec Ideal S1024x256 .f32) (s r : Fin 1024) (t : Fin 256)
    (hr : r.val = (s.val + 1024 - d.toNat % 1024) % 1024) :
    dynamicRotate 0 d none x rotates_S1024x256_d0 (ix2 s t) = x (ix2 r t) :=
  dynamicRotate_apply (0 : Fin S1024x256.rank) d x rotates_S1024x256_d0 (ix2 s t) (ix2 r t) fun b =>
    match b with
    | ⟨0, _⟩ => hr
    | ⟨1, _⟩ => rfl

/-- The product with the matrix moved `k` positions forward: position `s` holds row `s - k`'s product. -/
theorem rot_left_apply (k : ℕ) (hk : k < 1024) (p : FVec Ideal S1024x256 .bf16) (w : FVec Ideal S256x256 .bf16)
    (s : Fin 1024) (t : Fin 256) :
    dynamicRotate 0 (BitVec.ofNat 32 k) none
        (matmul dot_S1024x256_S256x256_S1024x256_1_0_0_1_n_n none p w (constant S1024x256 .f32 0x00000000#32))
        rotates_S1024x256_d0 (ix2 s t)
      = ∑ a : Fin 256, p (ix2 (s - ⟨k, hk⟩) a) * w (ix2 a t) := by
  refine (rot_apply _ _ s (s - ⟨k, hk⟩) t ?_).trans (matmulA_apply p w _ t)
  rw [BitVec.toNat_ofNat, Fin.sub_def]
  have hs := s.isLt
  show (1024 - k + s.val) % 1024 = (s.val + 1024 - k % 2 ^ 32 % 1024) % 1024
  omega

/-- The product with the transposed matrix moved `k` positions back: position `s` holds row `s + k`'s product. -/
theorem rot_right_apply (k : ℕ) (hk0 : 0 < k) (hk : k < 1024) (p : FVec Ideal S1024x256 .bf16) (w : FVec Ideal S256x256 .bf16)
    (s : Fin 1024) (t : Fin 256) :
    dynamicRotate 0 (BitVec.ofNat 32 (1024 - k)) none
        (matmul dot_S1024x256_S256x256_S1024x256_1_1_0_0_n_n none p w (constant S1024x256 .f32 0x00000000#32))
        rotates_S1024x256_d0 (ix2 s t)
      = ∑ b : Fin 256, p (ix2 (s + ⟨k, hk⟩) b) * w (ix2 t b) := by
  refine (rot_apply _ _ s (s + ⟨k, hk⟩) t ?_).trans (matmulB_apply p w _ t)
  rw [BitVec.toNat_ofNat, Fin.add_def]
  have hs := s.isLt
  show (s.val + k) % 1024 = (s.val + 1024 - (1024 - k) % 2 ^ 32 % 1024) % 1024
  omega

end Cert.KernelIdeal.Hand

end
-- ==== Proof.KMath.lean ====
/-
  One round of the kernel body at the extended reals, read at a position and a tag: the masked score plus the
  message of the softmax of the round's input, times the mask.
-/
import proofs.«422564_j72224170049656_1_alg».proof.Proof.KStep
import proofs.«422564_j72224170049656_1_alg».proof.Proof.KOps
import proofs.«422564_j72224170049656_1_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.Hand

open Idealize.ShloMosaic Idealize.ShloMosaic.ValueIdx Cert.KernelIdeal Cert.KernelIdeal.Gen Cert.Mfvi

/-- The index a reduction over the tags inserts: position `s`, tag `k`. -/
theorem lift_row (h : S1024x256.Reduces [1] S1024) (s : Fin 1024) (k : Fin 256) :
    h.lift (ix1 s) k = ix2 s k := by
  funext a
  match a with
  | ⟨0, _⟩ => exact Fin.ext rfl
  | ⟨1, _⟩ => exact Fin.ext rfl

/-- A row's maximum from −∞. -/
theorem rowmax_apply (q : FVec Ideal S1024x256 .f32) (h : S1024x256.Reduces [1] S1024) (hφ : FKind.Formats .f32)
    (hacc : (0xFF800000#32 : BitVec 32) = FKind.maximumf.neutral .f32 hφ) (s : Fin 1024) :
    multiReduction (F := Ideal) .maximumf [1] S1024 q 0xFF800000#32 h hφ hacc (ix1 s)
      = (Finset.univ : Finset (Fin 256)).fold max negInf (fun t => q (ix2 s t)) := by
  refine (Ideal.multiReduction_maximumf_single q _ h hφ hacc (ix1 s)).trans ?_
  show (Finset.univ : Finset (Fin 256)).fold max negInf (q ∘ h.lift (ix1 s)) = _
  congr 1
  funext k
  exact congrArg q (lift_row h s k)

/-- A row's sum from 0. -/
theorem rowsum_apply (x : FVec Ideal S1024x256 .f32) (h : S1024x256.Reduces [1] S1024) (hφ : FKind.Formats .f32)
    (hacc : (0x00000000#32 : BitVec 32) = FKind.add.neutral .f32 hφ) (s : Fin 1024) :
    multiReduction (F := Ideal) .add [1] S1024 x 0x00000000#32 h hφ hacc (ix1 s)
      = ∑ k : Fin 256, x (ix2 s k) := by
  refine (Ideal.multiReduction_add_single x _ h hφ hacc (ix1 s)).trans ?_
  show ∑ k : Fin 256, x (h.lift (ix1 s) k) = _
  refine Finset.sum_congr rfl fun k _ => ?_
  exact congrArg x (lift_row h s k)

/-- A vector of 1024 cast to a column reads its entry. -/
theorem col_cast_apply {α : Type} (x : S1024.Idx → α) (h : S1024.ShapeCasts S1024x1) (s : Fin 1024) (u : Fin 1) :
    shapeCast S1024x1 x h (ix2 s u) = x (ix1 s) :=
  shapeCast_apply x h _ _ (by
    have hu : u.val = 0 := by omega
    rw [Shape.rowMajor_val_two, Shape.rowMajor_val_one]
    show s.val = s.val * 1 + u.val
    rw [hu, Nat.mul_one, Nat.add_zero])

/-- A column broadcast along the tags reads the column's entry. -/
theorem colbc0_apply {α : Type} (c : S1024x1.Idx → α) (h : S1024x1.Broadcasts S1024x256) (s : Fin 1024) (t : Fin 256) :
    broadcastTo S1024x256 c h (ix2 s t) = c (ix2 s (0 : Fin 1)) := by
  refine broadcastTo_apply c h (ix2 s t) (ix2 s (0 : Fin 1)) fun ax => ?_
  match ax with
  | ⟨0, _⟩ => rfl
  | ⟨1, _⟩ => rfl

/-- The softmax stretch of one round: the round's input less its row maximum, exponentiated, over its row sum. -/
def ksoft (q : FVec Ideal S1024x256 .f32) : FVec Ideal S1024x256 .bf16 :=
  have v9 : FVec Ideal S1024 .f32 := multiReduction .maximumf [1] S1024 q 0xFF800000#32 reduces_S1024x256_S1024 (.inl rfl) rfl
  have cst_5 : Ideal .f32 := Scalar.ofBits .f32 0xFF800000#32
  have v10 : FVec Ideal S1024 .f32 := broadcast S1024 cst_5
  have v11 : FVec Ideal S1024 .f32 := maximumf v10 v9
  have v12 : FVec Ideal S1024x1 .f32 := shapeCast S1024x1 v11 shapeCasts_S1024_S1024x1
  have v13 : FVec Ideal S1024x256 .f32 := broadcastTo S1024x256 v12 broadcasts_S1024x1_S1024x256
  have v14 : FVec Ideal S1024x256 .f32 := subf q v13
  have v15 : FVec Ideal S1024x256 .f32 := exp v14
  have v16 : FVec Ideal S1024 .f32 := multiReduction .add [1] S1024 v15 0x00000000#32 reduces_S1024x256_S1024 (.inl rfl) rfl
  have v17 : FVec Ideal S1024x1 .f32 := shapeCast S1024x1 v16 shapeCasts_S1024_S1024x1
  have v18 : FVec Ideal S1024x256 .f32 := broadcastTo S1024x256 v17 broadcasts_S1024x1_S1024x256
  have v19 : FVec Ideal S1024x256 .f32 := divf v15 v18
  truncf .bf16 v19 bitsLt_bf16_f32

/-- The row maximum as the body takes it, broadcast back along the tags, is `rowTop` of the row. -/
theorem ktop_apply (q : FVec Ideal S1024x256 .f32) (s : Fin 1024) (t : Fin 256) :
    broadcastTo S1024x256 (shapeCast S1024x1 (maximumf (broadcast S1024 (Scalar.ofBits (F := Ideal) .f32 0xFF800000#32))
        (multiReduction (F := Ideal) .maximumf [1] S1024 q 0xFF800000#32 reduces_S1024x256_S1024 (.inl rfl) rfl))
        shapeCasts_S1024_S1024x1) broadcasts_S1024x1_S1024x256 (ix2 s t)
      = rowTop (fun t => q (ix2 s t)) := by
  refine (colbc0_apply _ _ s t).trans ?_
  refine (col_cast_apply _ _ s 0).trans ?_
  exact congrArg (max negInf) (rowmax_apply q _ _ _ s)

/-- `exp (q − row maximum)` at a position and a tag. -/
theorem kexp_apply (q : FVec Ideal S1024x256 .f32) (s : Fin 1024) (t : Fin 256) :
    exp (subf q (broadcastTo S1024x256 (shapeCast S1024x1 (maximumf (broadcast S1024 (Scalar.ofBits (F := Ideal) .f32 0xFF800000#32))
        (multiReduction (F := Ideal) .maximumf [1] S1024 q 0xFF800000#32 reduces_S1024x256_S1024 (.inl rfl) rfl))
        shapeCasts_S1024_S1024x1) broadcasts_S1024x1_S1024x256)) (ix2 s t)
      = Ideal.exp (q (ix2 s t) - rowTop (fun t => q (ix2 s t))) := by
  exact congrArg (fun m => Ideal.exp (q (ix2 s t) - m)) (ktop_apply q s t)

/-- The softmax stretch at a position and a tag is the softmax of the round's input. -/
theorem ksoft_apply (q : FVec Ideal S1024x256 .f32) (s : Fin 1024) (t : Fin 256) :
    ksoft q (ix2 s t) = smax (fun s t => q (ix2 s t)) s t := by
  unfold ksoft smax
  show Ideal.div _ _ = Ideal.div _ _
  refine congrArg₂ Ideal.div (kexp_apply q s t) ?_
  refine (colbc0_apply _ _ s t).trans ?_
  refine (col_cast_apply _ _ s 0).trans ?_
  refine (rowsum_apply _ _ _ _ s).trans ?_
  exact Finset.sum_congr rfl fun k _ => kexp_apply q s k

/-- A transition matrix as the body prepares it (leading unit axis dropped, format narrowed), at `(a, c)`. -/
theorem kmat_apply (v : Vec Ideal S1x256x256 .f32) (a c : Fin 256) :
    (truncf .bf16 (shapeCast S256x256 v shapeCasts_S1x256x256_S256x256) bitsLt_bf16_f32 : FVec Ideal S256x256 .bf16) (ix2 a c)
      = v (ix3 (0 : Fin 1) a c) :=
  shapeCast_1ab_ab_apply v _ a c

/-- A start or end row cast to a vector and back, at its one row. -/
theorem krow_apply (v : FVec Ideal S1x256 .f32) (t : Fin 256) :
    shapeCast S1x256 (shapeCast S256 v shapeCasts_S1x256_S256) shapeCasts_S256_S1x256 (ix2 (0 : Fin 1) t) = v (ix2 (0 : Fin 1) t) :=
  (shapeCast_a_1a_apply _ _ 0 t).trans (shapeCast_1a_a_apply v _ t)

/-- The word test "position is `j` before the length" is `hit`. -/
theorem ite_hit (len j : BitVec 32) (s : Fin 1024) (x : EReal) :
    (if BitVec.ofNat 32 s.val = Scalar.subi len j then x else 0) = if hit len j s then x else 0 := by
  by_cases h : BitVec.ofNat 32 s.val = Scalar.subi len j
  · rw [if_pos h, if_pos (show hit len j s from h)]
  · rw [if_neg h, if_neg (show ¬ hit len j s from h)]

/-- A position's word equals a small literal's word exactly when the position is that literal. -/
theorem ofNat_pos_eq (s : Fin 1024) (k : ℕ) (hk : k < 1024) : BitVec.ofNat 32 s.val = BitVec.ofNat 32 k ↔ s.val = k := by
  constructor
  · intro h
    have h2 := congrArg BitVec.toNat h
    simp only [BitVec.toNat_ofNat] at h2
    have := s.isLt
    omega
  · intro h; rw [h]

/-- One round at `(s, t)`: the loads `v22`, `v55` are the two transition matrices, `v88`, `v99` the start rows,
    `v43`, `v76` the end rows; `v8` is the column of positions (the iota). -/
theorem kstep_apply (v1 : BitVec 32) (v3 : FVec Ideal S1024x1 .f32) (v7 : FVec Ideal S1024x256 .f32)
    (v22 : Vec Ideal S1x256x256 .f32) (v43 : Vec Ideal S1x256 .f32) (v55 : Vec Ideal S1x256x256 .f32) (v76 : Vec Ideal S1x256 .f32)
    (v88 : Vec Ideal S1x256 .f32) (v99 : Vec Ideal S1x256 .f32) (q : FVec Ideal S1024x256 .f32) (s : Fin 1024) (t : Fin 256) :
    kstep (F := Ideal) v1 v3 v7 (iota .tc S1024x1 32 [0] iota_S1024x1_d0_w32) v22 v43 v55 v76 v88 v99 q (ix2 s t)
      = (v7 (ix2 s t)
          + msg (fun j a c => if j = 0 then v22 (ix3 (0 : Fin 1) a c) else v55 (ix3 (0 : Fin 1) a c))
              (fun j t => if j = 0 then v88 (ix2 (0 : Fin 1) t) else v99 (ix2 (0 : Fin 1) t))
              (fun j t => if j = 0 then v43 (ix2 (0 : Fin 1) t) else v76 (ix2 (0 : Fin 1) t)) v1
              (smax (fun s t => q (ix2 s t))) s t)
        * v3 (ix2 s (0 : Fin 1)) := by
  have hsoft := ksoft_apply q
  unfold ksoft at hsoft
  dsimp only at hsoft
  have hR1 : ∀ (p : FVec Ideal S1024x256 .bf16) (w : FVec Ideal S256x256 .bf16),
      dynamicRotate 0 1023#32 none (matmul dot_S1024x256_S256x256_S1024x256_1_1_0_0_n_n none p w (constant S1024x256 .f32 0x00000000#32))
        rotates_S1024x256_d0 (ix2 s t) = ∑ b : Fin 256, p (ix2 (s + 1) b) * w (ix2 t b) :=
    fun p w => rot_right_apply 1 (by decide) (by decide) p w s t
  have hR2 : ∀ (p : FVec Ideal S1024x256 .bf16) (w : FVec Ideal S256x256 .bf16),
      dynamicRotate 0 1022#32 none (matmul dot_S1024x256_S256x256_S1024x256_1_1_0_0_n_n none p w (constant S1024x256 .f32 0x00000000#32))
        rotates_S1024x256_d0 (ix2 s t) = ∑ b : Fin 256, p (ix2 (s + 2) b) * w (ix2 t b) :=
    fun p w => rot_right_apply 2 (by decide) (by decide) p w s t
  have hL1 : ∀ (p : FVec Ideal S1024x256 .bf16) (w : FVec Ideal S256x256 .bf16),
      dynamicRotate 0 1#32 none (matmul dot_S1024x256_S256x256_S1024x256_1_0_0_1_n_n none p w (constant S1024x256 .f32 0x00000000#32))
        rotates_S1024x256_d0 (ix2 s t) = ∑ a : Fin 256, p (ix2 (s - 1) a) * w (ix2 a t) :=
    fun p w => rot_left_apply 1 (by decide) p w s t
  have hL2 : ∀ (p : FVec Ideal S1024x256 .bf16) (w : FVec Ideal S256x256 .bf16),
      dynamicRotate 0 2#32 none (matmul dot_S1024x256_S256x256_S1024x256_1_0_0_1_n_n none p w (constant S1024x256 .f32 0x00000000#32))
        rotates_S1024x256_d0 (ix2 s t) = ∑ a : Fin 256, p (ix2 (s - 2) a) * w (ix2 a t) :=
    fun p w => rot_left_apply 2 (by decide) p w s t
  unfold kstep
  simp only [mulf_apply, addf_apply]
  simp only [hL1, hL2, hR1, hR2, ind_sge_apply 1 (by decide), ind_sge_apply 2 (by decide), ind_slt_apply 1023 (by decide),
    ind_slt_apply 1022 (by decide), ind_eq_apply (Scalar.subi v1 1#32) s t, ind_eq_apply (Scalar.subi v1 2#32) s t,
    ind_eq_apply 0#32 s t, ind_eq_apply 1#32 s t]
  simp only [rowbc_apply, colbc_apply, broadcast_apply, kmat_apply, krow_apply, hsoft]
  have h10 : ¬ (1 : Fin 2) = 0 := by decide
  have hz : FloatOps.ofBits (F := Ideal) .f32 0x00000000#32 = 0 := Ideal.ofBits_zero_f32
  unfold msg dotL dotR
  simp only [mul_ite, mul_one, mul_zero, ite_mul, one_mul, zero_mul, ite_hit, ofNat_pos_eq s 0 (by decide), ofNat_pos_eq s 1 (by decide),
    h10, if_false, if_true, eq_self_iff_true, hz, zero_add]

end Cert.KernelIdeal.Hand

end
-- ==== Proof.KRounds.lean ====
/-
  Three rounds of the kernel body from the masked scores, read at a position and a tag, are the specification's
  three rounds of the block's batch element: each round is the specification's step (one round read at an index),
  the masked scores are the scores times the mask column, and the six loaded rows are rows of the transition, start
  and end blocks.
-/
import proofs.«422564_j72224170049656_1_alg».proof.Proof.KMath
import proofs.«422564_j72224170049656_1_alg».proof.Proof.Gen.KernelIdeal.Skeleton

noncomputable section

namespace Cert.KernelIdeal.Hand

open Idealize.ShloMosaic Idealize.ShloMosaic.ValueIdx Cert.KernelIdeal Cert.KernelIdeal.Gen Cert.Mfvi

/-- The mask column, as the body flattens the mask block: entry `s`. -/
theorem pay2_apply (x1 : Vec Ideal S1x1024x1 .f32) (s : Fin 1024) :
    k0_pay2 (F := Ideal) x1 (ix2 s (0 : Fin 1)) = x1 (ix3 (0 : Fin 1) s (0 : Fin 1)) := by
  show shapeCast S1024x1 x1 shapeCasts_S1x1024x1_S1024x1 (ix2 s (0 : Fin 1)) = _
  refine shapeCast_apply x1 shapeCasts_S1x1024x1_S1024x1 (ix2 s (0 : Fin 1)) (ix3 (0 : Fin 1) s (0 : Fin 1)) ?_
  rw [Shape.rowMajor_val_three, Shape.rowMajor_val_two]
  show (0 * 1024 + s.val) * 1 + 0 = s.val * 1 + 0
  omega

/-- The score block flattened: entry `(s, t)`. -/
theorem flat_apply (x0 : Vec Ideal S1x1024x256 .f32) (s : Fin 1024) (t : Fin 256) :
    shapeCast S1024x256 x0 shapeCasts_S1x1024x256_S1024x256 (ix2 s t) = x0 (ix3 (0 : Fin 1) s t) := by
  refine shapeCast_apply x0 shapeCasts_S1x1024x256_S1024x256 (ix2 s t) (ix3 (0 : Fin 1) s t) ?_
  rw [Shape.rowMajor_val_three, Shape.rowMajor_val_two]
  show (0 * 1024 + s.val) * 256 + t.val = s.val * 256 + t.val
  omega

/-- A position-by-tag array stored as a block of one batch element: entry `(0, s, t)`. -/
theorem block_apply (v : FVec Ideal S1024x256 .f32) (s : Fin 1024) (t : Fin 256) :
    shapeCast S1x1024x256 v shapeCasts_S1024x256_S1x1024x256 (ix3 (0 : Fin 1) s t) = v (ix2 s t) := by
  refine shapeCast_apply v shapeCasts_S1024x256_S1x1024x256 (ix3 (0 : Fin 1) s t) (ix2 s t) ?_
  rw [Shape.rowMajor_val_three, Shape.rowMajor_val_two]
  show s.val * 256 + t.val = (0 * 1024 + s.val) * 256 + t.val
  omega

/-- The masked scores: the score times the mask at its position. -/
theorem pay3_apply (x1 : Vec Ideal S1x1024x1 .f32) (x0 : Vec Ideal S1x1024x256 .f32) (s : Fin 1024) (t : Fin 256) :
    k0_pay3 (F := Ideal) x1 x0 (ix2 s t) = x0 (ix3 (0 : Fin 1) s t) * x1 (ix3 (0 : Fin 1) s (0 : Fin 1)) := by
  show mulf (shapeCast S1024x256 x0 shapeCasts_S1x1024x256_S1024x256)
      (broadcastTo S1024x256 (k0_pay2 (F := Ideal) x1) broadcasts_S1024x1_S1024x256) (ix2 s t) = _
  rw [mulf_apply, flat_apply, colbc_apply, pay2_apply]

/-- A function of the two transition, start or end rows given by cases on the row is the block's row. -/
theorem two_rows {α : Type} (f g : α) (h : Fin 2 → α) (h0 : f = h 0) (h1 : g = h 1) (j : Fin 2) :
    (if j = 0 then f else g) = h j := by
  by_cases hj : j = 0
  · subst hj; rw [if_pos rfl]; exact h0
  · have hj1 : j = 1 := Fin.ext (by have := j.isLt; have : j.val ≠ 0 := fun e => hj (Fin.ext e); omega)
    subst hj1; rw [if_neg hj]; exact h1

/-- One round of the body, as a slab of positions by tags, is the specification's step of the round's input. -/
theorem kround_slab (x0 : Vec Ideal S1x1024x256 .f32) (x1 : Vec Ideal S1x1024x1 .f32) (x2 : Vec Ideal S2x256x256 .f32)
    (x3 x4 : Vec Ideal S2x256 .f32) (len : BitVec 32)
    (v22 v55 : Vec Ideal S1x256x256 .f32) (v43 v76 v88 v99 : Vec Ideal S1x256 .f32)
    (h22 : ∀ (a c : Fin 256), v22 (ix3 (0 : Fin 1) a c) = x2 (ix3 (0 : Fin 2) a c))
    (h55 : ∀ (a c : Fin 256), v55 (ix3 (0 : Fin 1) a c) = x2 (ix3 (1 : Fin 2) a c))
    (h43 : ∀ t : Fin 256, v43 (ix2 (0 : Fin 1) t) = x4 (ix2 (0 : Fin 2) t))
    (h76 : ∀ t : Fin 256, v76 (ix2 (0 : Fin 1) t) = x4 (ix2 (1 : Fin 2) t))
    (h88 : ∀ t : Fin 256, v88 (ix2 (0 : Fin 1) t) = x3 (ix2 (0 : Fin 2) t))
    (h99 : ∀ t : Fin 256, v99 (ix2 (0 : Fin 1) t) = x3 (ix2 (1 : Fin 2) t))
    (q : FVec Ideal S1024x256 .f32) :
    (fun (s : Fin 1024) (t : Fin 256) =>
        kstep (F := Ideal) len (k0_pay2 x1) (k0_pay3 x1 x0) (iota .tc S1024x1 32 [0] iota_S1024x1_d0_w32) v22 v43 v55 v76 v88 v99 q (ix2 s t))
      = step (masked (fun s t => x0 (ix3 (0 : Fin 1) s t)) (fun s => x1 (ix3 (0 : Fin 1) s (0 : Fin 1))))
          (fun s => x1 (ix3 (0 : Fin 1) s (0 : Fin 1))) (fun j a b => x2 (ix3 j a b)) (fun j t => x3 (ix2 j t))
          (fun j t => x4 (ix2 j t)) len (fun s t => q (ix2 s t)) := by
  have hT : (fun (j : Fin 2) (a c : Fin 256) => if j = 0 then v22 (ix3 (0 : Fin 1) a c) else v55 (ix3 (0 : Fin 1) a c))
      = fun j a b => x2 (ix3 j a b) := by
    funext j a c
    exact two_rows _ _ (fun j => x2 (ix3 j a c)) (h22 a c) (h55 a c) j
  have hSt : (fun (j : Fin 2) (t : Fin 256) => if j = 0 then v88 (ix2 (0 : Fin 1) t) else v99 (ix2 (0 : Fin 1) t))
      = fun j t => x3 (ix2 j t) := by
    funext j t
    exact two_rows _ _ (fun j => x3 (ix2 j t)) (h88 t) (h99 t) j
  have hE : (fun (j : Fin 2) (t : Fin 256) => if j = 0 then v43 (ix2 (0 : Fin 1) t) else v76 (ix2 (0 : Fin 1) t))
      = fun j t => x4 (ix2 j t) := by
    funext j t
    exact two_rows _ _ (fun j => x4 (ix2 j t)) (h43 t) (h76 t) j
  funext s t
  rw [kstep_apply, hT, hSt, hE, pay3_apply, pay2_apply]
  rfl

/-- The three rounds, stored as a block of one batch element, are `G3` of the input blocks: `v22`, `v55` hold the two
    transition matrices, `v43`, `v76` the two end rows (block `x4`), `v88`, `v99` the two start rows (block `x3`). -/
theorem rounds_eq (x0 : Vec Ideal S1x1024x256 .f32) (x1 : Vec Ideal S1x1024x1 .f32) (x2 : Vec Ideal S2x256x256 .f32)
    (x3 x4 : Vec Ideal S2x256 .f32) (len : BitVec 32)
    (v22 v55 : Vec Ideal S1x256x256 .f32) (v43 v76 v88 v99 : Vec Ideal S1x256 .f32)
    (h22 : ∀ (a c : Fin 256), v22 (ix3 (0 : Fin 1) a c) = x2 (ix3 (0 : Fin 2) a c))
    (h55 : ∀ (a c : Fin 256), v55 (ix3 (0 : Fin 1) a c) = x2 (ix3 (1 : Fin 2) a c))
    (h43 : ∀ t : Fin 256, v43 (ix2 (0 : Fin 1) t) = x4 (ix2 (0 : Fin 2) t))
    (h76 : ∀ t : Fin 256, v76 (ix2 (0 : Fin 1) t) = x4 (ix2 (1 : Fin 2) t))
    (h88 : ∀ t : Fin 256, v88 (ix2 (0 : Fin 1) t) = x3 (ix2 (0 : Fin 2) t))
    (h99 : ∀ t : Fin 256, v99 (ix2 (0 : Fin 1) t) = x3 (ix2 (1 : Fin 2) t)) :
    shapeCast S1x1024x256
        (kstep (F := Ideal) len (k0_pay2 x1) (k0_pay3 x1 x0) (iota .tc S1024x1 32 [0] iota_S1024x1_d0_w32) v22 v43 v55 v76 v88 v99
          (kstep (F := Ideal) len (k0_pay2 x1) (k0_pay3 x1 x0) (iota .tc S1024x1 32 [0] iota_S1024x1_d0_w32) v22 v43 v55 v76 v88 v99
            (kstep (F := Ideal) len (k0_pay2 x1) (k0_pay3 x1 x0) (iota .tc S1024x1 32 [0] iota_S1024x1_d0_w32) v22 v43 v55 v76 v88 v99
              (k0_pay3 x1 x0))))
        shapeCasts_S1024x256_S1x1024x256
      = fun y =>
          let s : Fin 1024 := y 1
          let t : Fin 256 := y 2
          G3 (fun s t => x0 (ix3 (0 : Fin 1) s t)) (fun s => x1 (ix3 (0 : Fin 1) s (0 : Fin 1))) (fun j a b => x2 (ix3 j a b))
            (fun j t => x3 (ix2 j t)) (fun j t => x4 (ix2 j t)) len s t := by
  funext y
  obtain ⟨z, s, t, rfl⟩ : ∃ (z : Fin 1) (s : Fin 1024) (t : Fin 256), y = ix3 z s t := ⟨y 0, y 1, y 2, eq_ix3 y⟩
  obtain rfl : z = 0 := Subsingleton.elim _ _
  rw [block_apply]
  -- the three rounds, each as a slab
  have hr := kround_slab x0 x1 x2 x3 x4 len v22 v55 v43 v76 v88 v99 h22 h55 h43 h76 h88 h99
  have h0 : (fun (s : Fin 1024) (t : Fin 256) => k0_pay3 (F := Ideal) x1 x0 (ix2 s t))
      = masked (fun s t => x0 (ix3 (0 : Fin 1) s t)) (fun s => x1 (ix3 (0 : Fin 1) s (0 : Fin 1))) := by
    funext s t
    exact pay3_apply x1 x0 s t
  refine (congrFun (congrFun (hr _) s) t).trans ?_
  rw [hr, hr, h0]
  rfl

end Cert.KernelIdeal.Hand

end
-- ==== Proof.KBody.lean ====
/-
  What the kernel body leaves in its output block at one grid point, at the extended reals: the three rounds
  `Cert.Mfvi.G3` of the point's input blocks (one batch element's scores, mask column, the two transition
  matrices, the start rows, the end rows) and of the batch element's length word.
-/
import proofs.«422564_j72224170049656_1_alg».proof.Proof.Gen.KernelIdeal.Frame
import proofs.«422564_j72224170049656_1_alg».proof.Proof.Spec
import proofs.«422564_j72224170049656_1_alg».proof.Proof.KMath
import proofs.«422564_j72224170049656_1_alg».proof.Proof.KRounds
import Idealize.ShloMosaic.Lib.Pipeline.Value
import Idealize.ShloMosaic.Lib.ValueIdx
import Idealize.ShloMosaic.Lib.Tactic

noncomputable section

namespace Cert.KernelIdeal.Hand

open Idealize.ShloMosaic Idealize.ShloMosaic.ValueIdx Cert.KernelIdeal Cert.KernelIdeal.Gen Cert.Mfvi

/-- One grid point's result block as a function of its input blocks and the length word: `G3` of the blocks read
    at their one leading coordinate. -/
def bodyG (x0 : Vec Ideal S1x1024x256 .f32) (x1 : Vec Ideal S1x1024x1 .f32) (x2 : Vec Ideal S2x256x256 .f32)
    (x3 x4 : Vec Ideal S2x256 .f32) (len : BitVec 32) : Vec Ideal S1x1024x256 .f32 :=
  fun y =>
    let s : Fin 1024 := y 1
    let t : Fin 256 := y 2
    G3 (fun s t => x0 (ix3 (0 : Fin 1) s t)) (fun s => x1 (ix3 (0 : Fin 1) s (0 : Fin 1))) (fun j a b => x2 (ix3 j a b))
      (fun j t => x3 (ix2 j t)) (fun j t => x4 (ix2 j t)) len s t

/-- The length word the body reads at grid point `i`: entry `i 0` of the prefetched table. -/
def lenAt (c : Dev nD) (xt0 : TbBuf0 (F := Ideal) c tbM0_0) (i : grid0.Coords) : BitVec 32 :=
  (show IVec S32 32 from xt0) (ix1 (show Fin 32 from i 0))

/-- The store's rectangle starts at the origin. -/
theorem body_hz3 : (![0, 0, 0] : Fin 3 → Nat) = fun _ => 0 := funext fun a => by fin_cases a <;> rfl

section Chain

variable {F : FTy → Type} [FloatOps F]

/-- The value the body stores, as it is composed from the loaded values, is three rounds from the masked scores,
    cast to a block of one batch element: the same operations in the same order, grouped by rounds. -/
theorem body_chain_eq (v1 : BitVec 32) (w2 : Vec F S1x1024x1 .f32) (w4 : Vec F S1x1024x256 .f32)
    (v22 v55 : Vec F S1x256x256 .f32) (v43 v76 v88 v99 : Vec F S1x256 .f32) :
    k0_pay1 (k0_pay2 w2) (k0_pay3 w2 w4) (iota .tc S1024x1 32 [0] iota_S1024x1_d0_w32) (k0_pay24 v1 (iota .tc S1024x1 32 [0] iota_S1024x1_d0_w32) (k0_pay21 (k0_pay20 v1 (k0_pay2 w2) (k0_pay3 w2 w4) (iota .tc S1024x1 32 [0] iota_S1024x1_d0_w32) (k0_pay17 v1 (iota .tc S1024x1 32 [0] iota_S1024x1_d0_w32) (k0_pay12 (k0_pay2 w2) (k0_pay3 w2 w4) (iota .tc S1024x1 32 [0] iota_S1024x1_d0_w32) (k0_pay9 v1 (iota .tc S1024x1 32 [0] iota_S1024x1_d0_w32) (k0_pay4 w2 w4) (k0_pay6 w2 w4 v22) (k0_pay7 w2 w4 v22) k0_pay8 v43 v55) (k0_pay10 v76) (k0_pay11 v1 (iota .tc S1024x1 32 [0] iota_S1024x1_d0_w32)) v88 v99) k0_pay13 (k0_pay14 v22) (k0_pay15 (k0_pay2 w2) (k0_pay3 w2 w4) (iota .tc S1024x1 32 [0] iota_S1024x1_d0_w32) (k0_pay9 v1 (iota .tc S1024x1 32 [0] iota_S1024x1_d0_w32) (k0_pay4 w2 w4) (k0_pay6 w2 w4 v22) (k0_pay7 w2 w4 v22) k0_pay8 v43 v55) (k0_pay10 v76) (k0_pay11 v1 (iota .tc S1024x1 32 [0] iota_S1024x1_d0_w32)) v88 v99 v22) (constant S1024x256 .f32 0x00000000#32) v43 v55) (k0_pay18 (k0_pay12 (k0_pay2 w2) (k0_pay3 w2 w4) (iota .tc S1024x1 32 [0] iota_S1024x1_d0_w32) (k0_pay9 v1 (iota .tc S1024x1 32 [0] iota_S1024x1_d0_w32) (k0_pay4 w2 w4) (k0_pay6 w2 w4 v22) (k0_pay7 w2 w4 v22) k0_pay8 v43 v55) (k0_pay10 v76) (k0_pay11 v1 (iota .tc S1024x1 32 [0] iota_S1024x1_d0_w32)) v88 v99) v55) k0_pay19 v76 v88 v99)) (k0_pay22 v1 (iota .tc S1024x1 32 [0] iota_S1024x1_d0_w32) (k0_pay20 v1 (k0_pay2 w2) (k0_pay3 w2 w4) (iota .tc S1024x1 32 [0] iota_S1024x1_d0_w32) (k0_pay17 v1 (iota .tc S1024x1 32 [0] iota_S1024x1_d0_w32) (k0_pay12 (k0_pay2 w2) (k0_pay3 w2 w4) (iota .tc S1024x1 32 [0] iota_S1024x1_d0_w32) (k0_pay9 v1 (iota .tc S1024x1 32 [0] iota_S1024x1_d0_w32) (k0_pay4 w2 w4) (k0_pay6 w2 w4 v22) (k0_pay7 w2 w4 v22) k0_pay8 v43 v55) (k0_pay10 v76) (k0_pay11 v1 (iota .tc S1024x1 32 [0] iota_S1024x1_d0_w32)) v88 v99) k0_pay13 (k0_pay14 v22) (k0_pay15 (k0_pay2 w2) (k0_pay3 w2 w4) (iota .tc S1024x1 32 [0] iota_S1024x1_d0_w32) (k0_pay9 v1 (iota .tc S1024x1 32 [0] iota_S1024x1_d0_w32) (k0_pay4 w2 w4) (k0_pay6 w2 w4 v22) (k0_pay7 w2 w4 v22) k0_pay8 v43 v55) (k0_pay10 v76) (k0_pay11 v1 (iota .tc S1024x1 32 [0] iota_S1024x1_d0_w32)) v88 v99 v22) (constant S1024x256 .f32 0x00000000#32) v43 v55) (k0_pay18 (k0_pay12 (k0_pay2 w2) (k0_pay3 w2 w4) (iota .tc S1024x1 32 [0] iota_S1024x1_d0_w32) (k0_pay9 v1 (iota .tc S1024x1 32 [0] iota_S1024x1_d0_w32) (k0_pay4 w2 w4) (k0_pay6 w2 w4 v22) (k0_pay7 w2 w4 v22) k0_pay8 v43 v55) (k0_pay10 v76) (k0_pay11 v1 (iota .tc S1024x1 32 [0] iota_S1024x1_d0_w32)) v88 v99) v55) k0_pay19 v76 v88 v99) v22 v43) (k0_pay23 v55) v76 v88) (k0_pay25 v99) k0_pay26
      = shapeCast S1x1024x256 (kstep v1 (k0_pay2 w2) (k0_pay3 w2 w4) (iota .tc S1024x1 32 [0] iota_S1024x1_d0_w32) v22 v43 v55 v76 v88 v99 (kstep v1 (k0_pay2 w2) (k0_pay3 w2 w4) (iota .tc S1024x1 32 [0] iota_S1024x1_d0_w32) v22 v43 v55 v76 v88 v99 (kstep v1 (k0_pay2 w2) (k0_pay3 w2 w4) (iota .tc S1024x1 32 [0] iota_S1024x1_d0_w32) v22 v43 v55 v76 v88 v99 (k0_pay3 w2 w4)))) shapeCasts_S1024x256_S1x1024x256 := by
  rfl

end Chain

/-- A load of the one matrix at leading coordinate `o` of a block of two, read at `(0, a, c)`, is the block at `(o, a, c)`. -/
theorem body_ld_mat (X : Vec Ideal S2x256x256 .f32) (o : Nat) (ho : o < 2)
    (inb : ∀ a, (![o, 0, 0] : Fin 3 → Nat) a + (![1, 256, 256] : Fin 3 → Nat) a ≤ S2x256x256.size a) (a c : Fin 256) :
    View.ld (Val := Elt Ideal) X (Rect.unit (s := S2x256x256) ![o, 0, 0] ![1, 256, 256] inb) (ix3 (0 : Fin 1) a c)
      = X (ix3 (⟨o, ho⟩ : Fin 2) a c) := by
  show X _ = X _
  congr 1
  funext d
  match d with
  | ⟨0, _⟩ => exact Fin.ext (by show o + 1 * 0 = o; omega)
  | ⟨1, _⟩ => exact Fin.ext (by show 0 + 1 * a.val = a.val; omega)
  | ⟨2, _⟩ => exact Fin.ext (by show 0 + 1 * c.val = c.val; omega)

/-- A load of the one row at leading coordinate `o` of a block of two rows, read at `(0, t)`, is the block at `(o, t)`. -/
theorem body_ld_row (X : Vec Ideal S2x256 .f32) (o : Nat) (ho : o < 2)
    (inb : ∀ a, (![o, 0] : Fin 2 → Nat) a + (![1, 256] : Fin 2 → Nat) a ≤ S2x256.size a) (t : Fin 256) :
    View.ld (Val := Elt Ideal) X (Rect.unit (s := S2x256) ![o, 0] ![1, 256] inb) (ix2 (0 : Fin 1) t)
      = X (ix2 (⟨o, ho⟩ : Fin 2) t) := by
  show X _ = X _
  congr 1
  funext d
  match d with
  | ⟨0, _⟩ => exact Fin.ext (by show o + 1 * 0 = o; omega)
  | ⟨1, _⟩ => exact Fin.ext (by show 0 + 1 * t.val = t.val; omega)

/-- The word the body loads from the table at its grid coordinate is the table's entry there. -/
theorem body_word_eq (c : Dev nD) (i : grid0.Coords) (xt0 : TbBuf0 (F := Ideal) c tbM0_0)
    (h : 0 < (Rect.unit (s := S32) (k0_off1 i) S1.size (k0_off1_inb i)).toLoadRect.shape.numel) :
    View.readAt (Elt Ideal) tbM0_0.view (Rect.unit (s := S32) (k0_off1 i) S1.size (k0_off1_inb i)).toLoadRect xt0 (Shape.Idx.first h)
      = lenAt c xt0 i := by
  unfold lenAt
  show xt0 _ = xt0 _
  congr 1
  funext d
  match d with
  | ⟨0, _⟩ =>
    apply Fin.ext
    show k0_off1 i 0 + 1 * 0 = (i 0).val
    have hi : (i 0).val < 32 := (i 0).isLt
    unfold k0_off1
    simp only [Scalar.indexCast]
    show (BitVec.ofNat 32 (i 0).val).toNat + 1 * 0 = (i 0).val
    rw [BitVec.toNat_ofNat]
    omega

/-- The body's stores, read back, are `bodyG` of the blocks. -/
theorem body_eq (c : Dev nD) (i : grid0.Coords) (arg2 : Memref sig .tc .vmem S1x1024x256 .f32) (harg2 : arg2.IsWhole) (arg3 : Memref sig .tc .vmem S1x1024x1 .f32) (harg3 : arg3.IsWhole) (arg4 : Memref sig .tc .vmem S2x256x256 .f32) (harg4 : arg4.IsWhole) (arg5 : Memref sig .tc .vmem S2x256 .f32) (harg5 : arg5.IsWhole) (arg6 : Memref sig .tc .vmem S2x256 .f32) (harg6 : arg6.IsWhole) (arg7 : Memref sig .tc .vmem S1x1024x256 .f32) (harg7 : arg7.IsWhole)
    (x0 : Vec Ideal S1x1024x256 .f32) (x1 : Vec Ideal S1x1024x1 .f32) (x2 : Vec Ideal S2x256x256 .f32) (x3 : Vec Ideal S2x256 .f32) (x4 : Vec Ideal S2x256 .f32) (xt0 : TbBuf0 (F := Ideal) c tbM0_0) :
    out0_A_5 (F := Ideal) c i arg2 harg2 arg3 harg3 arg4 harg4 arg5 harg5 arg6 harg6 arg7 harg7 x0 x1 x2 x3 x4 xt0
      = bodyG x0 x1 x2 x3 x4 (lenAt c xt0 i) := by
  unfold out0_A_5
  rw [View.read_writes_eq_canon _ _ _ (cover0_A_5 c i arg2 harg2 arg3 harg3 arg4 harg4 arg5 harg5 arg6 harg6 arg7 harg7 x0 x1 x2 x3 x4 xt0)]
  unfold kernelRun0_A
  dsimp only
  sl_unfold_run_names
  rw [View.canon_unit_zero body_hz3]
  generalize hW : View.readAt (Elt Ideal) tbM0_0.view _ xt0 _ = W
  have hWl : W = lenAt c xt0 i := hW.symm.trans (body_word_eq c i xt0 _)
  subst hWl
  simp only [View.readAt_eq_ld, harg2.read_unread, harg3.read_unread, harg4.read_unread, harg5.read_unread,
    harg6.read_unread, View.ld_unit_zero (S := S1x1024x256) body_hz3, View.ld_unit_zero (S := S1x1024x1) body_hz3]
  refine (body_chain_eq (lenAt c xt0 i) x1 x0 _ _ _ _ _ _).trans ?_
  unfold bodyG
  exact rounds_eq x0 x1 x2 x3 x4 (lenAt c xt0 i) _ _ _ _ _ _
    (fun a c => body_ld_mat x2 0 (by omega) _ a c) (fun a c => body_ld_mat x2 1 (by omega) _ a c)
    (fun t => body_ld_row x4 0 (by omega) _ t) (fun t => body_ld_row x4 1 (by omega) _ t)
    (fun t => body_ld_row x3 0 (by omega) _ t) (fun t => body_ld_row x3 1 (by omega) _ t)

end Cert.KernelIdeal.Hand

end
-- ==== Proof.KValue.lean ====
/-
  The idealized kernel's run with its result array named: batch element `b`'s block of the output is what grid
  point `b` wrote, and that is `Cert.Mfvi.G3` of batch `b` of the argument arrays; the blocks tile the array, so
  the whole array is `Cert.Mfvi.Gfull` of the arguments.
-/
import proofs.«422564_j72224170049656_1_alg».proof.Proof.KBody
import Idealize.ShloMosaic.Lib.Pipeline.Value

-- membership of an index in a rectangle of extents 1024 and 256 is looked at once per coordinate of the long axes
set_option maxRecDepth 16384

noncomputable section

namespace Cert.KernelIdeal.Hand

open Idealize.ShloMosaic Idealize.ShloMosaic.TcCoe Idealize.SL.Sem Idealize.ShloMosaic.ValueIdx Cert.KernelIdeal Cert.KernelIdeal.Gen Cert.Mfvi
open Idealize.ShloMosaic.Pipeline (Dat)
open Idealize.ShloMosaic.Tactic

variable (m : (ℓ : Loc nD τ sig) → Buf (Elt Ideal) ℓ) (ρ : Dev nD → PrngReg)

/-! ## The specification at one batch element, from blocks that are that batch element's rows of the arrays -/

/-- One grid point's result block is batch element `b` of `Gfull`, when the blocks are batch `b` of the scores and
    of the mask column, the three whole parameter arrays, and the length word is entry `b` of the lengths. -/
theorem bodyG_eq_Gfull (x0 : Vec Ideal S1x1024x256 .f32) (x1 : Vec Ideal S1x1024x1 .f32) (x2 : Vec Ideal S2x256x256 .f32)
    (x3 x4 : Vec Ideal S2x256 .f32) (len : BitVec 32)
    (A1 : FVec Ideal ⟨3, ![32, 1024, 256]⟩ .f32) (A2 : FVec Ideal ⟨2, ![32, 1024]⟩ .f32)
    (A3 : FVec Ideal ⟨3, ![2, 256, 256]⟩ .f32) (A4 A5 : FVec Ideal ⟨2, ![2, 256]⟩ .f32) (A6 : IVec ⟨1, ![32]⟩ 32) (b : Fin 32)
    (h0 : ∀ (s : Fin 1024) (t : Fin 256), x0 (ix3 (0 : Fin 1) s t) = A1 (ix3 b s t))
    (h1 : ∀ s : Fin 1024, x1 (ix3 (0 : Fin 1) s (0 : Fin 1)) = A2 (ix2 b s))
    (h2 : x2 = A3) (h3 : x3 = A4) (h4 : x4 = A5) (hl : len = A6 (ix1 b)) (s : Fin 1024) (t : Fin 256) :
    bodyG x0 x1 x2 x3 x4 len (ix3 (0 : Fin 1) s t) = Gfull A1 A2 A3 A4 A5 A6 (ix3 b s t) := by
  subst h2 h3 h4 hl
  have e0 : (fun (s : Fin 1024) (t : Fin 256) => x0 (ix3 (0 : Fin 1) s t)) = fun s t => A1 (ix3 b s t) :=
    funext fun s => funext fun t => h0 s t
  have e1 : (fun s : Fin 1024 => x1 (ix3 (0 : Fin 1) s (0 : Fin 1))) = fun s => A2 (ix2 b s) := funext h1
  show G3 (fun (s : Fin 1024) (t : Fin 256) => x0 (ix3 (0 : Fin 1) s t)) (fun s : Fin 1024 => x1 (ix3 (0 : Fin 1) s (0 : Fin 1))) _ _ _ _ s t
    = G3 (fun s t => A1 (ix3 b s t)) (fun s => A2 (ix2 b s)) _ _ _ _ s t
  rw [e0, e1]

/-! ## The index maps, decided over the grid -/

/-- Each window's block index at every grid point: the scores, the mask column and the result move with the point
    along the batch axis; the parameter arrays stay whole. The point's one coordinate is the point. -/
theorem idx_facts : ∀ t : Fin grid0.N,
    (cc0_transform_0 (grid0.coords t) 0 = t.val ∧ cc0_transform_0 (grid0.coords t) 1 = 0 ∧ cc0_transform_0 (grid0.coords t) 2 = 0)
    ∧ (cc0_transform_1 (grid0.coords t) 0 = t.val ∧ cc0_transform_1 (grid0.coords t) 1 = 0 ∧ cc0_transform_1 (grid0.coords t) 2 = 0)
    ∧ (cc0_transform_2 (grid0.coords t) 0 = 0 ∧ cc0_transform_2 (grid0.coords t) 1 = 0 ∧ cc0_transform_2 (grid0.coords t) 2 = 0)
    ∧ (cc0_transform_3 (grid0.coords t) 0 = 0 ∧ cc0_transform_3 (grid0.coords t) 1 = 0)
    ∧ (cc0_transform_4 (grid0.coords t) 0 = 0 ∧ cc0_transform_4 (grid0.coords t) 1 = 0)
    ∧ (cc0_transform_5 (grid0.coords t) 0 = t.val ∧ cc0_transform_5 (grid0.coords t) 1 = 0 ∧ cc0_transform_5 (grid0.coords t) 2 = 0)
    ∧ ((grid0.coords t) 0).val = t.val := by
  decide +kernel

/-- Every batch element is some grid point's block index. -/
theorem idx_onto : ∀ q : Fin 32, ∃ t : Fin grid0.N, t.val = q.val := by decide +kernel

/-! ## The mask column the region finds: the reshape of the mask -/

/-- The one host operation before the region writes the mask as a column. -/
theorem V_v0 (c : Dev nD) : (V m c main_v0 : S32x1024x1.Idx → EReal)
    = fun i => shapeCast S32x1024x1 (m ((c.tc : Thread nD τ).loc main_arg2) : S32x1024.Idx → EReal) Facts₀.shapeCasts_S32x1024_S32x1024x1 i := by
  dsimp only [Gen.V, Gen.hostOps0]
  after_results
  rfl

/-- Entry `(b, s, 0)` of the column is entry `(b, s)` of the mask. -/
theorem V_v0_apply (c : Dev nD) (k : S32x1024x1.Idx) (b : Fin 32) (s : Fin 1024) (hb : (k 0).val = b.val) (hs : (k 1).val = s.val) :
    (V m c main_v0 : S32x1024x1.Idx → EReal) k = (m ((c.tc : Thread nD τ).loc main_arg2) : S32x1024.Idx → EReal) (ix2 b s) := by
  rw [V_v0]
  refine shapeCast_apply _ _ k (ix2 b s) ?_
  rw [Shape.rowMajor_val_two, Shape.rowMajor_val_three]
  have h2 : (k 2).val < 1 := (k 2).isLt
  show b.val * 1024 + s.val = ((k 0).val * 1024 + (k 1).val) * 1 + (k 2).val
  omega

/-! ## Each window's block at a grid point, read off its array -/

/-- The scores' block at point `t` is batch element `t` of the scores. -/
theorem blk0_read (hO : Ok m) (c : Dev nD) (t : Fin (cfgM m hO).N) (x : S1x1024x256.Idx) (k : S32x1024x256.Idx)
    (h0 : (k 0).val = t.val) (h1 : (k 1).val = (x 1).val) (h2 : (k 2).val = (x 2).val) :
    (iblk m hO c 0 t : Vec Ideal S1x1024x256 .f32) x = (V m c main_arg1 : Vec Ideal S32x1024x256 .f32) k := by
  obtain ⟨⟨e0, e1, e2⟩, -⟩ := idx_facts t
  show V m c main_arg1 ((((cfgM m hO).win 0).blk t).view.emb x) = V m c main_arg1 k
  refine congrArg (V m c main_arg1) (funext fun a => Fin.ext ?_)
  match a with
  | ⟨0, _⟩ => show cc0_transform_0 (grid0.coords t) (0 : Fin 3) * 1 + 1 * (x 0).val = (k 0).val; have hx : (x 0).val < 1 := (x 0).isLt; omega
  | ⟨1, _⟩ => show cc0_transform_0 (grid0.coords t) (1 : Fin 3) * 1024 + 1 * (x 1).val = (k 1).val; omega
  | ⟨2, _⟩ => show cc0_transform_0 (grid0.coords t) (2 : Fin 3) * 256 + 1 * (x 2).val = (k 2).val; omega

/-- The mask column's block at point `t` is batch element `t` of the column. -/
theorem blk1_read (hO : Ok m) (c : Dev nD) (t : Fin (cfgM m hO).N) (x : S1x1024x1.Idx) (k : S32x1024x1.Idx)
    (h0 : (k 0).val = t.val) (h1 : (k 1).val = (x 1).val) :
    (iblk m hO c 1 t : Vec Ideal S1x1024x1 .f32) x = (V m c main_v0 : Vec Ideal S32x1024x1 .f32) k := by
  obtain ⟨-, ⟨e0, e1, e2⟩, -⟩ := idx_facts t
  show V m c main_v0 ((((cfgM m hO).win 1).blk t).view.emb x) = V m c main_v0 k
  refine congrArg (V m c main_v0) (funext fun a => Fin.ext ?_)
  match a with
  | ⟨0, _⟩ => show cc0_transform_1 (grid0.coords t) (0 : Fin 3) * 1 + 1 * (x 0).val = (k 0).val; have hx : (x 0).val < 1 := (x 0).isLt; omega
  | ⟨1, _⟩ => show cc0_transform_1 (grid0.coords t) (1 : Fin 3) * 1024 + 1 * (x 1).val = (k 1).val; omega
  | ⟨2, _⟩ => show cc0_transform_1 (grid0.coords t) (2 : Fin 3) * 1 + 1 * (x 2).val = (k 2).val; have hx : (x 2).val < 1 := (x 2).isLt; have hk : (k 2).val < 1 := (k 2).isLt; omega

/-- The transition matrices' block is the whole array at every point. -/
theorem blk2_read (hO : Ok m) (c : Dev nD) (t : Fin (cfgM m hO).N) :
    (iblk m hO c 2 t : Vec Ideal S2x256x256 .f32) = (V m c main_arg3 : Vec Ideal S2x256x256 .f32) := by
  obtain ⟨-, -, ⟨e0, e1, e2⟩, -⟩ := idx_facts t
  refine funext fun (x : S2x256x256.Idx) => ?_
  show V m c main_arg3 ((((cfgM m hO).win 2).blk t).view.emb x) = V m c main_arg3 x
  refine congrArg (V m c main_arg3) (funext fun a => Fin.ext ?_)
  match a with
  | ⟨0, _⟩ => show cc0_transform_2 (grid0.coords t) (0 : Fin 3) * 2 + 1 * (x 0).val = (x 0).val; omega
  | ⟨1, _⟩ => show cc0_transform_2 (grid0.coords t) (1 : Fin 3) * 256 + 1 * (x 1).val = (x 1).val; omega
  | ⟨2, _⟩ => show cc0_transform_2 (grid0.coords t) (2 : Fin 3) * 256 + 1 * (x 2).val = (x 2).val; omega

/-- The start rows' block is the whole array at every point. -/
theorem blk3_read (hO : Ok m) (c : Dev nD) (t : Fin (cfgM m hO).N) :
    (iblk m hO c 3 t : Vec Ideal S2x256 .f32) = (V m c main_arg4 : Vec Ideal S2x256 .f32) := by
  obtain ⟨-, -, -, ⟨e0, e1⟩, -⟩ := idx_facts t
  refine funext fun (x : S2x256.Idx) => ?_
  show V m c main_arg4 ((((cfgM m hO).win 3).blk t).view.emb x) = V m c main_arg4 x
  refine congrArg (V m c main_arg4) (funext fun a => Fin.ext ?_)
  match a with
  | ⟨0, _⟩ => show cc0_transform_3 (grid0.coords t) (0 : Fin 2) * 2 + 1 * (x 0).val = (x 0).val; omega
  | ⟨1, _⟩ => show cc0_transform_3 (grid0.coords t) (1 : Fin 2) * 256 + 1 * (x 1).val = (x 1).val; omega

/-- The end rows' block is the whole array at every point. -/
theorem blk4_read (hO : Ok m) (c : Dev nD) (t : Fin (cfgM m hO).N) :
    (iblk m hO c 4 t : Vec Ideal S2x256 .f32) = (V m c main_arg5 : Vec Ideal S2x256 .f32) := by
  obtain ⟨-, -, -, -, ⟨e0, e1⟩, -⟩ := idx_facts t
  refine funext fun (x : S2x256.Idx) => ?_
  show V m c main_arg5 ((((cfgM m hO).win 4).blk t).view.emb x) = V m c main_arg5 x
  refine congrArg (V m c main_arg5) (funext fun a => Fin.ext ?_)
  match a with
  | ⟨0, _⟩ => show cc0_transform_4 (grid0.coords t) (0 : Fin 2) * 2 + 1 * (x 0).val = (x 0).val; omega
  | ⟨1, _⟩ => show cc0_transform_4 (grid0.coords t) (1 : Fin 2) * 256 + 1 * (x 1).val = (x 1).val; omega

/-! ## What each grid point writes back, the cover, the array after the run -/

/-- The side condition on the table holds of every contents. -/
theorem ok_all : Ok m := trivial

/-- What point `t` writes back is block `t` of `Gfull` of the arrays as the region finds them. -/
theorem flushed_eq (hO : Ok m) (c : Dev nD) (t : Fin (cfgM m hO).N) :
    (dats m hO 0 c).flushed 5 t = (((cfgM m hO).win 5).blk t).view.read (Elt Ideal)
      (Gfull (V m c main_arg1) (m ((c.tc : Thread nD τ).loc main_arg2)) (V m c main_arg3) (V m c main_arg4) (V m c main_arg5)
        (V m c main_arg6)) := by
  show ((cfgM m hO).win 5).cut (grid0.coords t) ((dats m hO 0 c).after 5 t) = _
  rw [after0_5]
  show (outsAt0 m hO c t : Vec Ideal S1x1024x256 .f32) = _
  unfold outsAt0
  refine (body_eq c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (iblk m hO c 0 t) (iblk m hO c 1 t)
    (iblk m hO c 2 t) (iblk m hO c 3 t) (iblk m hO c 4 t) (tbl m 0)).trans ?_
  obtain ⟨-, -, -, -, -, ⟨e0, e1, e2⟩, e6⟩ := idx_facts t
  refine funext fun (y : S1x1024x256.Idx) => ?_
  obtain ⟨z, s, t', rfl⟩ : ∃ (z : Fin 1) (s : Fin 1024) (t' : Fin 256), y = ix3 z s t' := ⟨y 0, y 1, y 2, eq_ix3 y⟩
  obtain rfl : z = 0 := Subsingleton.elim _ _
  have hb : t.val < 32 := t.isLt
  have hemb : (((cfgM m hO).win 5).blk t).view.emb (ix3 (0 : Fin 1) s t') = (ix3 (⟨t.val, hb⟩ : Fin 32) s t' : S32x1024x256.Idx) :=
    funext fun a => Fin.ext (by
      match a with
      | ⟨0, _⟩ => show cc0_transform_5 (grid0.coords t) (0 : Fin 3) * 1 + 1 * 0 = t.val; omega
      | ⟨1, _⟩ => show cc0_transform_5 (grid0.coords t) (1 : Fin 3) * 1024 + 1 * s.val = s.val; omega
      | ⟨2, _⟩ => show cc0_transform_5 (grid0.coords t) (2 : Fin 3) * 256 + 1 * t'.val = t'.val; omega)
  have hl : lenAt c (tbl m 0) (grid0.coords t) = (V m c main_arg6 : IVec S32 32) (ix1 (⟨t.val, hb⟩ : Fin 32)) := by
    obtain rfl : c = 0 := Subsingleton.elim _ _
    have hc : (show Fin 32 from (grid0.coords t) 0) = (⟨t.val, hb⟩ : Fin 32) := Fin.ext e6
    unfold lenAt
    rw [hc]
    rfl
  refine Eq.trans ?_ (congrArg (Gfull (V m c main_arg1) (m ((c.tc : Thread nD τ).loc main_arg2)) (V m c main_arg3) (V m c main_arg4)
    (V m c main_arg5) (V m c main_arg6)) hemb.symm)
  exact bodyG_eq_Gfull (iblk m hO c 0 t) (iblk m hO c 1 t) (iblk m hO c 2 t) (iblk m hO c 3 t) (iblk m hO c 4 t)
    (lenAt c (tbl m 0) (grid0.coords t)) (V m c main_arg1) (m ((c.tc : Thread nD τ).loc main_arg2)) (V m c main_arg3)
    (V m c main_arg4) (V m c main_arg5) (V m c main_arg6) (⟨t.val, hb⟩ : Fin 32)
    (fun s t' => blk0_read m hO c t (ix3 (0 : Fin 1) s t') (ix3 (⟨t.val, hb⟩ : Fin 32) s t') rfl rfl rfl)
    (fun s => (blk1_read m hO c t (ix3 (0 : Fin 1) s (0 : Fin 1)) (ix3 (⟨t.val, hb⟩ : Fin 32) s (0 : Fin 1)) rfl rfl).trans
      (V_v0_apply m c (ix3 (⟨t.val, hb⟩ : Fin 32) s (0 : Fin 1)) (⟨t.val, hb⟩ : Fin 32) s rfl rfl))
    (blk2_read m hO c t) (blk3_read m hO c t) (blk4_read m hO c t) hl s t'

/-- An index of the result array is in point `t`'s block iff each coordinate is in the block's range on its axis. -/
theorem mem_blk (hO : Ok m) (t : Fin (cfgM m hO).N) (i : S32x1024x256.Idx) :
    i ∈ (((cfgM m hO).win 5).blk t).view.set ↔ ∀ a : Fin 3, cc0_transform_5 (grid0.coords t) a * S1x1024x256.size a ≤ (i a).val
      ∧ (i a).val < cc0_transform_5 (grid0.coords t) a * S1x1024x256.size a + S1x1024x256.size a := by
  have h := View.set_slice_whole main_v1 (((cfgM m hO).win 5).rect t)
  refine (iff_of_eq (congrArg (fun S => i ∈ S) h)).trans ?_
  refine Rect.mem_set_unit.trans ?_
  exact Iff.rfl

/-- Every index of the result array is in the block of the point that is its batch coordinate. -/
theorem cover (hO : Ok m) (i : S32x1024x256.Idx) :
    ∃ t : Fin (cfgM m hO).N, ((cfgM m hO).win 5).flush t = true ∧ i ∈ (((cfgM m hO).win 5).blk t).view.set := by
  have hi0 : (i 0).val < 32 := (i 0).isLt
  have hi1 : (i 1).val < 1024 := (i 1).isLt
  have hi2 : (i 2).val < 256 := (i 2).isLt
  refine ⟨⟨(i 0).val, hi0⟩, flush0_5 (adm m hO) _, ?_⟩
  rw [mem_blk]
  obtain ⟨-, -, -, -, -, ⟨e0, e1, e2⟩, -⟩ := idx_facts (⟨(i 0).val, hi0⟩ : Fin grid0.N)
  intro a
  match a with
  | ⟨0, _⟩ => show cc0_transform_5 (grid0.coords ⟨(i 0).val, hi0⟩) (0 : Fin 3) * 1 ≤ (i 0).val ∧ (i 0).val < cc0_transform_5 (grid0.coords ⟨(i 0).val, hi0⟩) (0 : Fin 3) * 1 + 1; rw [e0]; show (i 0).val * 1 ≤ (i 0).val ∧ (i 0).val < (i 0).val * 1 + 1; omega
  | ⟨1, _⟩ => show cc0_transform_5 (grid0.coords ⟨(i 0).val, hi0⟩) (1 : Fin 3) * 1024 ≤ (i 1).val ∧ (i 1).val < cc0_transform_5 (grid0.coords ⟨(i 0).val, hi0⟩) (1 : Fin 3) * 1024 + 1024; omega
  | ⟨2, _⟩ => show cc0_transform_5 (grid0.coords ⟨(i 0).val, hi0⟩) (2 : Fin 3) * 256 ≤ (i 2).val ∧ (i 2).val < cc0_transform_5 (grid0.coords ⟨(i 0).val, hi0⟩) (2 : Fin 3) * 256 + 256; omega

/-- The result array after the run: `Gfull` of the arguments' launch contents. -/
theorem final (hO : Ok m) (c : Dev nD) : (dats m hO 0 c).arrAt 5 (cfgM m hO).N
    = Gfull (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) := by
  have h := (dats m hO 0 c).arrAt_eq_of_cover 5
    (Gfull (V m c main_arg1) (m ((c.tc : Thread nD τ).loc main_arg2)) (V m c main_arg3) (V m c main_arg4) (V m c main_arg5) (V m c main_arg6))
    (fun t _ => flushed_eq m hO c t) (cover m hO)
  rw [V_main_arg1, V_main_arg3, V_main_arg4, V_main_arg5, V_main_arg6] at h
  exact h

/-! ## The run -/

/-- Every weakly fair execution of the idealized kernel terminates with the result array at `Gfull` of the
    arguments' launch contents and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1)
          = Gfull (m ((c.tc : Thread nD τ).loc main_arg1)) (m ((c.tc : Thread nD τ).loc main_arg2))
              (m ((c.tc : Thread nD τ).loc main_arg3)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 5).trans (final m (ok_all m) c),
      ((h c).2 main_arg0 (by decide : main_arg0 ∈ Pipeline.restRefs sig spec0)).trans (V_main_arg0 m c),
      ((h c).1 0).trans (((dats m (ok_all m) 0 c).arrAt_in 0 rfl _).trans ((A_eq m (ok_all m) c 0).trans (V_main_arg1 m c))),
      ((h c).2 main_arg2 (by decide : main_arg2 ∈ Pipeline.restRefs sig spec0)).trans (V_main_arg2 m c),
      ((h c).1 2).trans (((dats m (ok_all m) 0 c).arrAt_in 2 rfl _).trans ((A_eq m (ok_all m) c 2).trans (V_main_arg3 m c))),
      ((h c).1 3).trans (((dats m (ok_all m) 0 c).arrAt_in 3 rfl _).trans ((A_eq m (ok_all m) c 3).trans (V_main_arg4 m c))),
      ((h c).1 4).trans (((dats m (ok_all m) 0 c).arrAt_in 4 rfl _).trans ((A_eq m (ok_all m) c 4).trans (V_main_arg5 m c))),
      ((h c).2 main_arg6 (by decide : main_arg6 ∈ Pipeline.restRefs sig spec0)).trans (V_main_arg6 m c)⟩)
    (run_main m ρ (ok_all m))

end Cert.KernelIdeal.Hand

end
-- ==== Proof.RStep.lean ====
/-
  The reference's program as the run reads it back, in three named pieces: the masked scores, the softmax along
  the tags, and one round's update (the messages scattered into place, the end rows added at the wrapped positions
  `length - 1` and `length - 2`, the start rows, the masked scores added and the mask applied). The run's result
  term is the update of the softmax, three times from the masked scores. The terms below are the run's own, with
  its named intermediates and the argument arrays as parameters.
-/
import proofs.«422564_j72224170049656_1_alg».proof.Proof.Gen.ReferenceIdeal.Run
import proofs.«422564_j72224170049656_1_alg».proof.Proof.Spec

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Mfvi

variable {F : FTy → Type} [FloatOps F]

/-- The masked scores: the scores times the mask broadcast along the tags. -/
def rmasked (A1 : FVec F S32x1024x256 .f32) (A2 : FVec F S32x1024 .f32) : FVec F S32x1024x256 .f32 :=
  mulf A1 (broadcastInDim S32x1024x256 ![0, 1, 2] bcast_S32x1024x1_S32x1024x256_0_1_2 (broadcastInDim S32x1024x1 ![0, 1] bcast_S32x1024_S32x1024x1_0_1 A2))

/-- `exp (X − row maximum)`, the maximum taken along the tags from −∞. -/
def rexp (X : FVec F S32x1024x256 .f32) : FVec F S32x1024x256 .f32 :=
  Host.exp (subf X (broadcastInDim S32x1024x256 ![0, 1, 2] bcast_S32x1024x1_S32x1024x256_0_1_2 (broadcastInDim S32x1024x1 ![0, 1] bcast_S32x1024_S32x1024x1_0_1 (maximumf (broadcastInDim S32x1024 ![] bcast_S_S32x1024 (constant S_ .f32 0xFF800000#32)) (Host.reduce FloatOps.maximumf X (constant S_ .f32 0xFF800000#32) reducesTo_S32x1024x256_S32x1024_d2 h_S_)))))

/-- Softmax along the tags. -/
def rsoftmax (X : FVec F S32x1024x256 .f32) : FVec F S32x1024x256 .f32 :=
  Host.divf (rexp X) (broadcastInDim S32x1024x256 ![0, 1, 2] bcast_S32x1024x1_S32x1024x256_0_1_2 (broadcastInDim S32x1024x1 ![0, 1] bcast_S32x1024_S32x1024x1_0_1 (Host.reduceAdd (rexp X) (constant S_ .f32 0x00000000#32) reducesTo_S32x1024x256_S32x1024_d2 h_S_)))

/-- One round's update of the softmax `P`, from the masked scores `U`, the mask `A2`, the transition matrices `A3`,
    the start rows `A4`, the end rows `A5` and the lengths `A6`. -/
def rupd (U : FVec F S32x1024x256 .f32) (A2 : FVec F S32x1024 .f32) (A3 : FVec F S2x256x256 .f32) (A4 A5 : FVec F S2x256 .f32)
    (A6 : IVec S32 32) (P : FVec F S32x1024x256 .f32) : FVec F S32x1024x256 .f32 :=
  mulf (addf U (Host.scatter scatter_S32x1024x256_S1_S32x2x256_012_n_1_0 FloatOps.addf (addf (Host.scatter scatter_S32x1024x256_S1_S32x1022x256_012_n_1_0 FloatOps.addf (Host.scatter scatter_S32x1024x256_S1_S32x1023x256_012_n_1_0 FloatOps.addf (broadcastInDim S32x1024x256 ![] bcast_S_S32x1024x256 (constant S_ .f32 0x00000000#32)) (broadcastInDim S1 ![] bcast_S_S1 (constantI S_ 32 1#32)) (Host.dotGeneral dot_S32x1023x256_S256x256_S32x1023x256_2_0_01_1_n_n none (extractStridedSlice S32x1023x256 ![0, 0, 0] P slices_S32x1024x256_S32x1023x256_0_0_0) (shapeCast _ (extractStridedSlice S1x256x256 ![0, 0, 0] A3 slices_S2x256x256_S1x256x256_0_0_0) shapeCasts_S1x256x256_S256x256))) (broadcastInDim S1 ![] bcast_S_S1 (constantI S_ 32 2#32)) (Host.dotGeneral dot_S32x1022x256_S256x256_S32x1022x256_2_0_01_1_n_n none (extractStridedSlice S32x1022x256 ![0, 0, 0] P slices_S32x1024x256_S32x1022x256_0_0_0) (shapeCast _ (extractStridedSlice S1x256x256 ![1, 0, 0] A3 slices_S2x256x256_S1x256x256_1_0_0) shapeCasts_S1x256x256_S256x256))) (Host.scatterAdd scatter_S32x1024x256_S32x2_S32x256_1_01_01_1 (Host.scatter scatter_S32x1024x256_S1_S32x1022x256_012_n_1_0 FloatOps.addf (Host.scatterAdd scatter_S32x1024x256_S32x2_S32x256_1_01_01_1 (Host.scatter scatter_S32x1024x256_S1_S32x1023x256_012_n_1_0 FloatOps.addf (broadcastInDim S32x1024x256 ![] bcast_S_S32x1024x256 (constant S_ .f32 0x00000000#32)) (broadcastInDim S1 ![] bcast_S_S1 (constantI S_ 32 0#32)) (Host.dotGeneral dot_S32x1023x256_S256x256_S32x1023x256_2_1_01_0_n_n none (extractStridedSlice S32x1023x256 ![0, 1, 0] P slices_S32x1024x256_S32x1023x256_0_1_0) (shapeCast _ (extractStridedSlice S1x256x256 ![0, 0, 0] A3 slices_S2x256x256_S1x256x256_0_0_0) shapeCasts_S1x256x256_S256x256))) (concatenate S32x2 1 [⟨S32x1, (broadcastInDim S32x1 ![0] bcast_S32_S32x1_0 (select (cmpi .slt (iotaInDim S32 32 0) (broadcastInDim S32 ![] bcast_S_S32 (constantI S_ 32 0#32))) (addi (iotaInDim S32 32 0) (broadcastInDim S32 ![] bcast_S_S32 (constantI S_ 32 32#32))) (iotaInDim S32 32 0)))⟩, ⟨S32x1, (broadcastInDim S32x1 ![0] bcast_S32_S32x1_0 (select (cmpi .slt (subi A6 (broadcastInDim S32 ![] bcast_S_S32 (constantI S_ 32 1#32))) (broadcastInDim S32 ![] bcast_S_S32 (constantI S_ 32 0#32))) (addi (subi A6 (broadcastInDim S32 ![] bcast_S_S32 (constantI S_ 32 1#32))) (broadcastInDim S32 ![] bcast_S_S32 (constantI S_ 32 1024#32))) (subi A6 (broadcastInDim S32 ![] bcast_S_S32 (constantI S_ 32 1#32)))))⟩] concatenates_S32x1_S32x1_S32x2_d1) (broadcastInDim S32x256 ![1] bcast_S256_S32x256_1 (shapeCast _ (extractStridedSlice S1x256 ![0, 0] A5 slices_S2x256_S1x256_0_0) shapeCasts_S1x256_S256))) (broadcastInDim S1 ![] bcast_S_S1 (constantI S_ 32 0#32)) (Host.dotGeneral dot_S32x1022x256_S256x256_S32x1022x256_2_1_01_0_n_n none (extractStridedSlice S32x1022x256 ![0, 2, 0] P slices_S32x1024x256_S32x1022x256_0_2_0) (shapeCast _ (extractStridedSlice S1x256x256 ![1, 0, 0] A3 slices_S2x256x256_S1x256x256_1_0_0) shapeCasts_S1x256x256_S256x256))) (concatenate S32x2 1 [⟨S32x1, (broadcastInDim S32x1 ![0] bcast_S32_S32x1_0 (select (cmpi .slt (iotaInDim S32 32 0) (broadcastInDim S32 ![] bcast_S_S32 (constantI S_ 32 0#32))) (addi (iotaInDim S32 32 0) (broadcastInDim S32 ![] bcast_S_S32 (constantI S_ 32 32#32))) (iotaInDim S32 32 0)))⟩, ⟨S32x1, (broadcastInDim S32x1 ![0] bcast_S32_S32x1_0 (select (cmpi .slt (subi A6 (broadcastInDim S32 ![] bcast_S_S32 (constantI S_ 32 2#32))) (broadcastInDim S32 ![] bcast_S_S32 (constantI S_ 32 0#32))) (addi (subi A6 (broadcastInDim S32 ![] bcast_S_S32 (constantI S_ 32 2#32))) (broadcastInDim S32 ![] bcast_S_S32 (constantI S_ 32 1024#32))) (subi A6 (broadcastInDim S32 ![] bcast_S_S32 (constantI S_ 32 2#32)))))⟩] concatenates_S32x1_S32x1_S32x2_d1) (broadcastInDim S32x256 ![1] bcast_S256_S32x256_1 (shapeCast _ (extractStridedSlice S1x256 ![1, 0] A5 slices_S2x256_S1x256_1_0) shapeCasts_S1x256_S256)))) (broadcastInDim S1 ![] bcast_S_S1 (constantI S_ 32 0#32)) (broadcastInDim S32x2x256 ![1, 2] bcast_S2x256_S32x2x256_1_2 A4))) (broadcastInDim S32x1024x256 ![0, 1, 2] bcast_S32x1024x1_S32x1024x256_0_1_2 (broadcastInDim S32x1024x1 ![0, 1] bcast_S32x1024_S32x1024x1_0_1 A2))

end Cert.ReferenceIdeal.Hand

end
-- ==== Proof.RSoftmax.lean ====
/-
  The reference's masked scores and its softmax along the tags, read at an index: batch element `b`'s slab
  through the specification's `smax` (the host's max-reduce from −∞ is the fold of `max` over the row, its add-reduce
  from 0 the row's sum).
-/
import proofs.«422564_j72224170049656_1_alg».proof.Proof.RStep
import Idealize.ShloMosaic.PureOps.Ideal.Laws
import Idealize.ShloMosaic.PureOps.Reduce
import Idealize.ShloMosaic.Lib.IdealHost
import Idealize.ShloMosaic.Lib.Pipeline.Value

set_option maxRecDepth 8192

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Mfvi

/-- An array over (batch, position) broadcast along the tags reads, at (b, s, t), its entry at (b, s). -/
theorem bcastRow_apply {α : Type} (y : S32x1024.Idx → α) (b : Fin 32) (s : Fin 1024) (t : Fin 256) :
    broadcastInDim S32x1024x256 ![0, 1, 2] bcast_S32x1024x1_S32x1024x256_0_1_2
      (broadcastInDim S32x1024x1 ![0, 1] bcast_S32x1024_S32x1024x1_0_1 y) (ix3 b s t) = y (ix2 b s) := by
  refine (broadcastInDim_apply _ _ _ (ix3 b s t) (ix3 b s (0 : Fin 1))
    (fun a => match a with | ⟨0, _⟩ => rfl | ⟨1, _⟩ => rfl | ⟨2, _⟩ => rfl)).trans ?_
  exact broadcastInDim_apply _ _ _ (ix3 b s (0 : Fin 1)) (ix2 b s)
    (fun a => match a with | ⟨0, _⟩ => rfl | ⟨1, _⟩ => rfl)

/-- The masked scores at an index. -/
theorem rmasked_apply (A1 : FVec Ideal S32x1024x256 .f32) (A2 : FVec Ideal S32x1024 .f32) (b : Fin 32) (s : Fin 1024) (t : Fin 256) :
    rmasked A1 A2 (ix3 b s t) = A1 (ix3 b s t) * A2 (ix2 b s) := by
  unfold rmasked
  rw [mulf_apply, bcastRow_apply]

/-- Along the tags the array reduces to (batch, position). -/
theorem reduces_tags : S32x1024x256.Reduces [2] S32x1024 := by decide

/-- The reduced index (b, s) with tag `k` put back is (b, s, k). -/
theorem lift_tags (b : Fin 32) (s : Fin 1024) (k : Fin (S32x1024x256.size 2)) :
    reduces_tags.lift (ix2 b s) k = ix3 b s (⟨k.val, k.isLt⟩ : Fin 256) := by
  funext c; apply Fin.ext
  match c with
  | ⟨0, _⟩ => rfl
  | ⟨1, _⟩ => rfl
  | ⟨2, _⟩ => rfl

/-- The host's maximum along the tags from −∞, at (b, s): the fold of `max` over the row from −∞. -/
theorem rowMax_apply (X : FVec Ideal S32x1024x256 .f32) (b : Fin 32) (s : Fin 1024) :
    Host.reduce FloatOps.maximumf X (constant (F := Ideal) S_ .f32 0xFF800000#32) reducesTo_S32x1024x256_S32x1024_d2 h_S_ (ix2 b s)
      = (Finset.univ : Finset (Fin 256)).fold max negInf (fun k => X (ix3 b s k)) := by
  rw [Host.reduce_eq_fold_single FloatOps.maximumf X _ reducesTo_S32x1024x256_S32x1024_d2 reduces_tags h_S_]
  have hf : (X ∘ reduces_tags.lift (ix2 b s)) = fun k : Fin 256 => X (ix3 b s k) :=
    funext fun k => congrArg X (lift_tags b s k)
  exact congrArg (fun f => Finset.fold max negInf f (Finset.univ : Finset (Fin 256))) hf

/-- The host's sum along the tags from 0, at (b, s): the row's sum. -/
theorem rowSum_apply (Y : FVec Ideal S32x1024x256 .f32) (b : Fin 32) (s : Fin 1024) :
    Host.reduceAdd Y (constant (F := Ideal) S_ .f32 0x00000000#32) reducesTo_S32x1024x256_S32x1024_d2 h_S_ (ix2 b s)
      = ∑ k : Fin 256, Y (ix3 b s k) := by
  rw [hostReduceAdd_apply, Ideal.hostReduceAdd_single reducesTo_S32x1024x256_S32x1024_d2 reduces_tags, constant_apply,
    Ideal.ofBits_zero_f32, zero_add]
  exact Finset.sum_congr rfl fun k _ => congrArg Y (lift_tags b s k)

/-- `exp (X − row maximum)` at an index. -/
theorem rexp_apply (X : FVec Ideal S32x1024x256 .f32) (b : Fin 32) (s : Fin 1024) (t : Fin 256) :
    rexp X (ix3 b s t) = Ideal.exp (X (ix3 b s t) - rowTop (fun k => X (ix3 b s k))) := by
  unfold rexp
  show Ideal.exp (subf X _ (ix3 b s t)) = _
  rw [subf_apply, bcastRow_apply, maximumf_apply, broadcastInDim_scalar_apply, constant_apply, rowMax_apply]
  rfl

/-- The softmax at an index: batch element `b`'s slab through `smax`. -/
theorem rsoftmax_apply (X : FVec Ideal S32x1024x256 .f32) (b : Fin 32) (s : Fin 1024) (t : Fin 256) :
    rsoftmax X (ix3 b s t) = smax (fun s t => X (ix3 b s t)) s t := by
  unfold rsoftmax
  rw [hostDivf_apply, bcastRow_apply, rowSum_apply, rexp_apply]
  unfold smax
  exact congrArg (fun z => Ideal.div _ z) (Finset.sum_congr rfl fun k _ => rexp_apply X b s k)

end Cert.ReferenceIdeal.Hand

end
-- ==== Proof.RScatterAdd.lean ====
/-
  The host's scatter-add of one row per batch element, read at an index: the (batch, position) index pairs name one
  row of the operand each; the row is added where the position, after the program's wrap of a negative word by the
  number of rows, is inside the array, and dropped otherwise. The batch column is the batch's own number, so at
  (b, s, t) only batch element b's pair can land.
-/
import proofs.«422564_j72224170049656_1_alg».proof.Proof.RStep
import Idealize.ShloMosaic.PureOps.Ideal.Laws
import Idealize.ShloMosaic.Lib.ValueIdx
import Idealize.ShloMosaic.Lib.Pipeline.Value

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Mfvi

/-- A position word read as the program's index normalisation reads it: a negative word counts from the end of the
    `1024` rows. -/
def wrapPos (w : BitVec 32) : ℤ := if w.toInt < 0 then (w + 1024#32).toInt else w.toInt

local notation "dSA" => scatter_S32x1024x256_S32x2_S32x256_1_01_01_1

/-! ### The landing index of one update element -/

theorem fin3_cases : ∀ a : Fin 3, a = 0 ∨ a = 1 ∨ a = 2 := by decide

/-- The index pair that update element (b', t') reads is row b' of the pairs. -/
theorem siIdx_apply (b' : Fin 32) (t' : Fin 256) (c : Fin 2) :
    ScatterDims.siIdx dSA (ix2 b' t') c = ix2 b' c := by
  funext a; apply Fin.ext
  match a with
  | ⟨0, _⟩ => rfl
  | ⟨1, _⟩ => rfl

theorem start0 (idx : IVec S32x2 32) (b' : Fin 32) (t' : Fin 256) :
    ScatterDims.start dSA (ix2 b' t') idx (0 : Fin 3) = (idx (ix2 b' (0 : Fin 2))).toInt := by
  unfold ScatterDims.start
  rw [dif_pos (by decide)]
  exact congrArg (fun i => (idx i).toInt) (siIdx_apply b' t' 0)

theorem start1 (idx : IVec S32x2 32) (b' : Fin 32) (t' : Fin 256) :
    ScatterDims.start dSA (ix2 b' t') idx (1 : Fin 3) = (idx (ix2 b' (1 : Fin 2))).toInt := by
  unfold ScatterDims.start
  rw [dif_pos (by decide)]
  exact congrArg (fun i => (idx i).toInt) (siIdx_apply b' t' 1)

theorem start2 (idx : IVec S32x2 32) (b' : Fin 32) (t' : Fin 256) :
    ScatterDims.start dSA (ix2 b' t') idx (2 : Fin 3) = 0 := by
  unfold ScatterDims.start
  rw [dif_neg (by decide)]

theorem window0 (b' : Fin 32) (t' : Fin 256) : ScatterDims.window dSA (ix2 b' t') (0 : Fin 3) = 0 := by
  unfold ScatterDims.window
  rw [dif_neg (by decide)]

theorem window1 (b' : Fin 32) (t' : Fin 256) : ScatterDims.window dSA (ix2 b' t') (1 : Fin 3) = 0 := by
  unfold ScatterDims.window
  rw [dif_neg (by decide)]

theorem window2 (b' : Fin 32) (t' : Fin 256) : ScatterDims.window dSA (ix2 b' t') (2 : Fin 3) = t'.val := by
  unfold ScatterDims.window
  rw [dif_pos (by decide)]
  rfl

/-- Update element (b', t') lands at (b, s, t) exactly when its pair reads (b, s) and t' = t. -/
theorem resultIdx_rows (idx : IVec S32x2 32) (b' : Fin 32) (t' : Fin 256) (b : Fin 32) (s : Fin 1024) (t : Fin 256) :
    ScatterDims.resultIdx? dSA (ix2 b' t') idx = some (ix3 b s t) ↔
      (idx (ix2 b' (0 : Fin 2))).toInt = (b.val : ℤ) ∧ (idx (ix2 b' (1 : Fin 2))).toInt = (s.val : ℤ) ∧ t' = t := by
  unfold ScatterDims.resultIdx?
  constructor
  · intro h
    split at h
    · next hall =>
      have e := Option.some.inj h
      have e0 : (ScatterDims.start dSA (ix2 b' t') idx (0 : Fin 3) + ScatterDims.window dSA (ix2 b' t') (0 : Fin 3)).toNat = b.val :=
        congrArg Fin.val (congrFun e (0 : Fin 3))
      have e1 : (ScatterDims.start dSA (ix2 b' t') idx (1 : Fin 3) + ScatterDims.window dSA (ix2 b' t') (1 : Fin 3)).toNat = s.val :=
        congrArg Fin.val (congrFun e (1 : Fin 3))
      have e2 : (ScatterDims.start dSA (ix2 b' t') idx (2 : Fin 3) + ScatterDims.window dSA (ix2 b' t') (2 : Fin 3)).toNat = t.val :=
        congrArg Fin.val (congrFun e (2 : Fin 3))
      have h0 := (hall (0 : Fin 3)).1
      have h1 := (hall (1 : Fin 3)).1
      rw [start0, window0] at e0 h0
      rw [start1, window1] at e1 h1
      rw [start2, window2] at e2
      exact ⟨by omega, by omega, Fin.ext (by omega)⟩
    · exact absurd h (by simp)
  · rintro ⟨hA, hP, rfl⟩
    split
    · next hall =>
      refine congrArg some (funext fun a => Fin.ext ?_)
      rcases fin3_cases a with rfl | rfl | rfl
      · show (ScatterDims.start dSA (ix2 b' t') idx (0 : Fin 3) + ScatterDims.window dSA (ix2 b' t') (0 : Fin 3)).toNat = b.val
        rw [start0, window0]; omega
      · show (ScatterDims.start dSA (ix2 b' t') idx (1 : Fin 3) + ScatterDims.window dSA (ix2 b' t') (1 : Fin 3)).toNat = s.val
        rw [start1, window1]; omega
      · show (ScatterDims.start dSA (ix2 b' t') idx (2 : Fin 3) + ScatterDims.window dSA (ix2 b' t') (2 : Fin 3)).toNat = t'.val
        rw [start2, window2]; omega
    · next hn =>
      refine absurd (fun a => ?_) hn
      rcases fin3_cases a with rfl | rfl | rfl
      · rw [start0, window0]
        have := b.isLt
        show 0 ≤ _ ∧ _ < ((32 : ℕ) : ℤ)
        omega
      · rw [start1, window1]
        have := s.isLt
        show 0 ≤ _ ∧ _ < ((1024 : ℕ) : ℤ)
        omega
      · rw [start2, window2]
        have := t'.isLt
        show 0 ≤ _ ∧ _ < ((256 : ℕ) : ℤ)
        omega

/-! ### The index pairs -/

/-- Column 0 of the pairs is the first column. -/
theorem pairs_apply0 (c0 c1 : IVec S32x1 32) (b' : Fin 32) :
    concatenate S32x2 1 [⟨S32x1, c0⟩, ⟨S32x1, c1⟩] concatenates_S32x1_S32x1_S32x2_d1 (ix2 b' (0 : Fin 2)) = c0 (ix2 b' (0 : Fin 1)) :=
  concatenate_pair_apply_left _ c0 c1 _ (ix2 b' (0 : Fin 2)) rfl (ix2 b' (0 : Fin 1))
    (fun a => match a with | ⟨0, _⟩ => rfl | ⟨1, _⟩ => rfl)

/-- Column 1 of the pairs is the second column. -/
theorem pairs_apply1 (c0 c1 : IVec S32x1 32) (b' : Fin 32) :
    concatenate S32x2 1 [⟨S32x1, c0⟩, ⟨S32x1, c1⟩] concatenates_S32x1_S32x1_S32x2_d1 (ix2 b' (1 : Fin 2)) = c1 (ix2 b' (0 : Fin 1)) :=
  concatenate_pair_apply_right _ c0 c1 _ (ix2 b' (1 : Fin 2)) rfl rfl (ix2 b' (0 : Fin 1))
    (fun a => match a with | ⟨0, _⟩ => fun _ => rfl | ⟨1, _⟩ => fun h => absurd rfl h) rfl

/-- A vector made a column reads its own entry. -/
theorem col_apply (v : IVec S32 32) (b' : Fin 32) :
    broadcastInDim S32x1 ![0] bcast_S32_S32x1_0 v (ix2 b' (0 : Fin 1)) = v (ix1 b') :=
  broadcastInDim_apply _ _ _ (ix2 b' (0 : Fin 1)) (ix1 b') (fun a => match a with | ⟨0, _⟩ => rfl)

/-- The program's wrap of a negative index word by `n`, at an entry. -/
theorem wrapSel_apply (v : IVec S32 32) (n : BitVec 32) (i : S32.Idx) :
    (select (cmpi .slt v (broadcastInDim S32 ![] bcast_S_S32 (constantI S_ 32 0#32))) (addi v (broadcastInDim S32 ![] bcast_S_S32 (constantI S_ 32 n))) v) i
      = if (v i).toInt < 0 then v i + n else v i := by
  show Scalar.select (IntOp.cmpi .slt (v i) 0#32) (v i + n) (v i) = _
  unfold Scalar.select
  have hz : (0#32 : BitVec 32).toInt = 0 := by decide
  by_cases h : (v i).toInt < 0
  · have hc : IntOp.cmpi .slt (v i) 0#32 = 1#1 := IntOp.cmpi_slt.2 (by rw [hz]; exact h)
    exact (if_pos hc).trans (if_pos h).symm
  · have hc : ¬ IntOp.cmpi .slt (v i) 0#32 = 1#1 := fun hc => h (by have h' := IntOp.cmpi_slt.1 hc; rwa [hz] at h')
    exact (if_neg hc).trans (if_neg h).symm

/-- A batch number as a word is not negative. -/
theorem toInt_ofNat_batch (b' : Fin 32) : (BitVec.ofNat 32 b'.val).toInt = (b'.val : ℤ) := by
  have := b'.isLt
  rw [BitVec.toInt_eq_toNat_cond, BitVec.toNat_ofNat]
  omega

/-- The scatter-add of one row per batch element at the (batch, position) pairs. -/
theorem scatterAdd_rows_apply (x : FVec Ideal S32x1024x256 .f32) (pos : IVec S32 32) (e : FVec Ideal S256 .f32)
    (b : Fin 32) (s : Fin 1024) (t : Fin 256) :
    Host.scatterAdd scatter_S32x1024x256_S32x2_S32x256_1_01_01_1 x
      (concatenate S32x2 1 [⟨S32x1, (broadcastInDim S32x1 ![0] bcast_S32_S32x1_0 (select (cmpi .slt (iotaInDim S32 32 0) (broadcastInDim S32 ![] bcast_S_S32 (constantI S_ 32 0#32))) (addi (iotaInDim S32 32 0) (broadcastInDim S32 ![] bcast_S_S32 (constantI S_ 32 32#32))) (iotaInDim S32 32 0)))⟩, ⟨S32x1, (broadcastInDim S32x1 ![0] bcast_S32_S32x1_0 (select (cmpi .slt pos (broadcastInDim S32 ![] bcast_S_S32 (constantI S_ 32 0#32))) (addi pos (broadcastInDim S32 ![] bcast_S_S32 (constantI S_ 32 1024#32))) pos))⟩] concatenates_S32x1_S32x1_S32x2_d1)
      (broadcastInDim S32x256 ![1] bcast_S256_S32x256_1 e) (ix3 b s t)
    = x (ix3 b s t) + (if wrapPos (pos (ix1 b)) = (s.val : ℤ) then e (ix1 t) else 0) := by
  -- which update elements land at (b, s, t)
  have key : ∀ j : S32x256.Idx,
      ScatterDims.resultIdx? dSA j
        (concatenate S32x2 1 [⟨S32x1, (broadcastInDim S32x1 ![0] bcast_S32_S32x1_0 (select (cmpi .slt (iotaInDim S32 32 0) (broadcastInDim S32 ![] bcast_S_S32 (constantI S_ 32 0#32))) (addi (iotaInDim S32 32 0) (broadcastInDim S32 ![] bcast_S_S32 (constantI S_ 32 32#32))) (iotaInDim S32 32 0)))⟩, ⟨S32x1, (broadcastInDim S32x1 ![0] bcast_S32_S32x1_0 (select (cmpi .slt pos (broadcastInDim S32 ![] bcast_S_S32 (constantI S_ 32 0#32))) (addi pos (broadcastInDim S32 ![] bcast_S_S32 (constantI S_ 32 1024#32))) pos))⟩] concatenates_S32x1_S32x1_S32x2_d1)
        = some (ix3 b s t) ↔ j = ix2 b t ∧ wrapPos (pos (ix1 b)) = (s.val : ℤ) := by
    intro j
    obtain ⟨b', t', rfl⟩ : ∃ (b' : Fin 32) (t' : Fin 256), j = ix2 b' t' := ⟨j 0, j 1, eq_ix2 j⟩
    rw [resultIdx_rows, pairs_apply0, pairs_apply1, col_apply, col_apply, wrapSel_apply, wrapSel_apply]
    have hb : ((iotaInDim S32 32 0 : IVec S32 32) (ix1 b')).toInt = (b'.val : ℤ) := toInt_ofNat_batch b'
    have hnn : ¬ ((iotaInDim S32 32 0 : IVec S32 32) (ix1 b')).toInt < 0 := by rw [hb]; omega
    rw [if_neg hnn, hb]
    have hw : (if (pos (ix1 b')).toInt < 0 then pos (ix1 b') + 1024#32 else pos (ix1 b')).toInt = wrapPos (pos (ix1 b')) := by
      unfold wrapPos
      split <;> rfl
    rw [hw]
    constructor
    · rintro ⟨h0, h1, rfl⟩
      have hbb : b' = b := Fin.ext (by omega)
      subst hbb
      exact ⟨rfl, h1⟩
    · rintro ⟨hj, h1⟩
      have hbb : b' = b := congrFun hj (0 : Fin 2)
      have htt : t' = t := congrFun hj (1 : Fin 2)
      subst hbb; subst htt
      exact ⟨rfl, h1, rfl⟩
  unfold Host.scatterAdd
  rw [Ideal.hostScatterAdd_def]
  unfold Ideal.hostScatterAdd
  refine congrArg (fun z => x (ix3 b s t) + z) ?_
  by_cases hw : wrapPos (pos (ix1 b)) = (s.val : ℤ)
  · rw [if_pos hw]
    rw [Finset.sum_eq_single_of_mem (ix2 b t) (Finset.mem_filter.2 ⟨Finset.mem_univ _, (key _).2 ⟨rfl, hw⟩⟩)
      (fun j hj hne => absurd ((key j).1 (Finset.mem_filter.1 hj).2).1 hne)]
    exact broadcastInDim_apply _ _ _ (ix2 b t) (ix1 t) (fun a => match a with | ⟨0, _⟩ => rfl)
  · rw [if_neg hw]
    exact Finset.sum_eq_zero fun j hj => absurd ((key j).1 (Finset.mem_filter.1 hj).2).2 hw

end Cert.ReferenceIdeal.Hand

end
-- ==== Proof.RScatter.lean ====
/-
  The host's window scatters read at an index. A scatter of one window of `W` rows at a literal row offset `k` adds the
  update's row `s - k` to the operand's row `s` for `k ≤ s < k + W` and leaves the other rows: the scatter is a left fold
  of pointwise updates over the update indices, each update index lands on its own operand index, so at most one step of
  the fold touches a given element. (The scatter-add of one row per batch element is read in RScatterAdd.)
-/
import proofs.«422564_j72224170049656_1_alg».proof.Proof.RStep
import proofs.«422564_j72224170049656_1_alg».proof.Proof.RScatterAdd
import Idealize.ShloMosaic.PureOps.Ideal.Laws
import Idealize.ShloMosaic.Lib.ValueIdx
import Idealize.ShloMosaic.Lib.Pipeline.Value

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Mfvi

/-! ## A left fold of pointwise updates, read at one point -/

section Fold
variable {ι κ α : Type}

/-- A fold of steps none of which touches `k` leaves the value at `k`. -/
theorem foldl_step_miss (step : (κ → α) → ι → (κ → α)) (k : κ) (P : ι → Prop)
    (hmiss : ∀ r n, ¬ P n → step r n k = r k) :
    ∀ (l : List ι) (x : κ → α), (∀ n ∈ l, ¬ P n) → l.foldl step x k = x k := by
  intro l
  induction l with
  | nil => intro x _; rfl
  | cons a l ih =>
    intro x h
    rw [List.foldl_cons, ih _ (fun n hn => h n (List.mem_cons_of_mem _ hn)), hmiss _ _ (h a List.mem_cons_self)]

/-- A fold of steps exactly one of which touches `k`: the value at `k` is that step's. -/
theorem foldl_step_hit (step : (κ → α) → ι → (κ → α)) (f : α → α → α) (upd : ι → α) (k : κ) (P : ι → Prop)
    (hmiss : ∀ r n, ¬ P n → step r n k = r k) (hhit : ∀ r n, P n → step r n k = f (r k) (upd n)) (n : ι) (hP : P n) :
    ∀ (l : List ι) (x : κ → α), l.Nodup → n ∈ l → (∀ m ∈ l, P m → m = n) → l.foldl step x k = f (x k) (upd n) := by
  intro l
  induction l with
  | nil => intro x _ hn; exact absurd hn List.not_mem_nil
  | cons a l ih =>
    intro x hnd hn huniq
    rw [List.foldl_cons]
    by_cases han : a = n
    · subst han
      have hnl : a ∉ l := (List.nodup_cons.1 hnd).1
      rw [foldl_step_miss step k P hmiss l _ (fun m hm hPm => hnl (huniq m (List.mem_cons_of_mem _ hm) hPm ▸ hm)), hhit _ _ hP]
    · have hnl : n ∈ l := by
        rcases List.mem_cons.1 hn with h | h
        · exact absurd h.symm han
        · exact h
      rw [ih _ (List.nodup_cons.1 hnd).2 hnl (fun m hm => huniq m (List.mem_cons_of_mem _ hm)),
        hmiss _ _ (fun hPa => han (huniq a List.mem_cons_self hPa))]

end Fold

/-! ## The host's scatter read at an index that at most one update index lands on -/

section Scatter
variable {α : Type} {s si u : Shape} {w : Nat}

/-- No update index lands on `i`: the operand's element. -/
theorem scatter_apply_none (d : ScatterDims s si u) (f : α → α → α) (x : s.Idx → α) (idx : IVec si w) (upd : u.Idx → α) (i : s.Idx)
    (hnone : ∀ j, d.resultIdx? j idx ≠ some i) : Host.scatter d f x idx upd i = x i := by
  unfold Host.scatter
  refine foldl_step_miss _ i (fun n => d.resultIdx? (u.rowMajor.symm n) idx = some i) ?_ _ x (fun n _ => hnone _)
  intro r n hn
  generalize d.resultIdx? (u.rowMajor.symm n) idx = o at hn
  cases o with
  | none => rfl
  | some i' => exact if_neg (fun h : i = i' => hn (congrArg some h.symm))

/-- Exactly the update index `j` lands on `i`: the body applied to the operand's element and the update's. -/
theorem scatter_apply_unique (d : ScatterDims s si u) (f : α → α → α) (x : s.Idx → α) (idx : IVec si w) (upd : u.Idx → α) (i : s.Idx)
    (j : u.Idx) (hj : d.resultIdx? j idx = some i) (huniq : ∀ j', d.resultIdx? j' idx = some i → j' = j) :
    Host.scatter d f x idx upd i = f (x i) (upd j) := by
  unfold Host.scatter
  refine (foldl_step_hit _ f (fun n => upd (u.rowMajor.symm n)) i (fun n => d.resultIdx? (u.rowMajor.symm n) idx = some i)
    ?_ ?_ (u.rowMajor j) ?_ (List.finRange u.numel) x (List.nodup_finRange _) (List.mem_finRange _) ?_).trans ?_
  · intro r n hn
    generalize d.resultIdx? (u.rowMajor.symm n) idx = o at hn
    cases o with
    | none => rfl
    | some i' => exact if_neg (fun h : i = i' => hn (congrArg some h.symm))
  · intro r n hn
    generalize d.resultIdx? (u.rowMajor.symm n) idx = o at hn
    cases hn
    exact if_pos rfl
  · show d.resultIdx? (u.rowMajor.symm (u.rowMajor j)) idx = some i
    rw [Equiv.symm_apply_apply]; exact hj
  · intro m _ hm
    rw [← huniq _ hm, Equiv.apply_symm_apply]
  · show f (x i) (upd (u.rowMajor.symm (u.rowMajor j))) = _
    rw [Equiv.symm_apply_apply]

end Scatter

/-! ## One window of rows scattered at a literal row offset -/

section Rows
variable {W : ℕ}

/-- The dimension numbers of a scatter of one window `[32, W, 256]` at a row offset: every update axis a window axis,
    the one index component the start on the row axis. -/
abbrev rowsDims (W : ℕ) (wf : ScatterDims.WF S32x1024x256 S1 ⟨3, ![32, W, 256]⟩ [0, 1, 2] [] [1] 0) :
    ScatterDims S32x1024x256 S1 ⟨3, ![32, W, 256]⟩ where
  updateWindowDims := [0, 1, 2]
  insertedWindowDims := []
  scatterDimsToOperandDims := [1]
  indexVectorDim := 0
  wf := wf

/-- The index operand: the literal row offset `k` as the one component of the one index vector. -/
abbrev rowIdx (k : ℕ) : IVec S1 32 := broadcastInDim S1 ![] bcast_S_S1 (constantI S_ 32 (BitVec.ofNat 32 k))

theorem toInt_ofNat_small (k : ℕ) (hk : k ≤ 1024) : (BitVec.ofNat 32 k).toInt = (k : ℤ) := by
  have h2 : (BitVec.ofNat 32 k).toNat = k := by rw [BitVec.toNat_ofNat]; omega
  rw [BitVec.toInt_eq_toNat_of_lt (by rw [h2]; omega), h2]

/-- The window starts at row `k`, at `0` on the other two axes. -/
theorem rows_start (wf : ScatterDims.WF S32x1024x256 S1 ⟨3, ![32, W, 256]⟩ [0, 1, 2] [] [1] 0) (k : ℕ) (hk : k ≤ 1024)
    (j : (⟨3, ![32, W, 256]⟩ : Shape).Idx) (a : Fin 3) :
    (rowsDims W wf).start j (rowIdx k) a = if a.val = 1 then (k : ℤ) else 0 := by
  unfold ScatterDims.start
  match a with
  | ⟨0, _⟩ => rfl
  | ⟨1, _⟩ =>
    show (BitVec.ofNat 32 k).toInt = (k : ℤ)
    exact toInt_ofNat_small k hk
  | ⟨2, _⟩ => rfl

/-- The window coordinate on each axis is the update index's. -/
theorem rows_window (wf : ScatterDims.WF S32x1024x256 S1 ⟨3, ![32, W, 256]⟩ [0, 1, 2] [] [1] 0)
    (j : (⟨3, ![32, W, 256]⟩ : Shape).Idx) (a : Fin 3) :
    (rowsDims W wf).window j a = (j a).val := by
  unfold ScatterDims.window
  match a with
  | ⟨0, _⟩ => rfl
  | ⟨1, _⟩ => rfl
  | ⟨2, _⟩ => rfl

end Rows

section Rows2
variable {W : ℕ}

/-- Where update index `(b', s', t')` lands: row `k + s'` of the same batch element and column. -/
theorem rows_resultIdx (wf : ScatterDims.WF S32x1024x256 S1 ⟨3, ![32, W, 256]⟩ [0, 1, 2] [] [1] 0) (k : ℕ) (hk : k + W ≤ 1024)
    (b' : Fin 32) (s' : Fin W) (t' : Fin 256) :
    (rowsDims W wf).resultIdx? (ix3 b' s' t') (rowIdx k) = some (ix3 b' ⟨k + s'.val, by omega⟩ t') := by
  have hb := b'.isLt
  have hs := s'.isLt
  have ht := t'.isLt
  have hk' : k ≤ 1024 := by omega
  have H : ∀ a : Fin 3, 0 ≤ (rowsDims W wf).start (ix3 b' s' t') (rowIdx k) a + (rowsDims W wf).window (ix3 b' s' t') a
      ∧ (rowsDims W wf).start (ix3 b' s' t') (rowIdx k) a + (rowsDims W wf).window (ix3 b' s' t') a < S32x1024x256.size a := by
    intro a
    rw [rows_start wf k hk', rows_window wf]
    match a with
    | ⟨0, _⟩ => exact ⟨by show (0 : ℤ) ≤ 0 + (b'.val : ℤ); omega, by show (0 : ℤ) + (b'.val : ℤ) < ((32 : ℕ) : ℤ); omega⟩
    | ⟨1, _⟩ => exact ⟨by show (0 : ℤ) ≤ (k : ℤ) + (s'.val : ℤ); omega, by show (k : ℤ) + (s'.val : ℤ) < ((1024 : ℕ) : ℤ); omega⟩
    | ⟨2, _⟩ => exact ⟨by show (0 : ℤ) ≤ 0 + (t'.val : ℤ); omega, by show (0 : ℤ) + (t'.val : ℤ) < ((256 : ℕ) : ℤ); omega⟩
  unfold ScatterDims.resultIdx?
  rw [dif_pos H]
  refine congrArg some (funext fun a => Fin.ext ?_)
  show ((rowsDims W wf).start (ix3 b' s' t') (rowIdx k) a + (rowsDims W wf).window (ix3 b' s' t') a).toNat = _
  rw [rows_start wf k hk', rows_window wf]
  match a with
  | ⟨0, _⟩ => show ((0 : ℤ) + (b'.val : ℤ)).toNat = b'.val; omega
  | ⟨1, _⟩ => show ((k : ℤ) + (s'.val : ℤ)).toNat = k + s'.val; omega
  | ⟨2, _⟩ => show ((0 : ℤ) + (t'.val : ℤ)).toNat = t'.val; omega

/-- The scatter of one window of `W` rows at the literal row offset `k`, read at `(b, s, t)`: rows `k ≤ s < k + W`
    gain the update's row `s - k`, the others are the operand's. -/
theorem scatter_rows_apply (wf : ScatterDims.WF S32x1024x256 S1 ⟨3, ![32, W, 256]⟩ [0, 1, 2] [] [1] 0)
    (x : FVec Ideal S32x1024x256 .f32) (k : ℕ) (hk : k + W ≤ 1024) (u : FVec Ideal ⟨3, ![32, W, 256]⟩ .f32)
    (b : Fin 32) (s : Fin 1024) (t : Fin 256) :
    Host.scatter (rowsDims W wf) FloatOps.addf x (rowIdx k) u (ix3 b s t)
      = if h : k ≤ s.val ∧ s.val < k + W then x (ix3 b s t) + u (ix3 b ⟨s.val - k, by omega⟩ t) else x (ix3 b s t) := by
  -- every update index is a triple of coordinates, and lands at its row plus `k`
  have key : ∀ j' : (⟨3, ![32, W, 256]⟩ : Shape).Idx, (rowsDims W wf).resultIdx? j' (rowIdx k) = some (ix3 b s t) →
      ∃ (s' : Fin W), j' = ix3 b s' t ∧ k + s'.val = s.val := by
    intro j' hj'
    obtain ⟨b', s', t', rfl⟩ : ∃ (b' : Fin 32) (s' : Fin W) (t' : Fin 256), j' = ix3 b' s' t' := ⟨_, _, _, eq_ix3 j'⟩
    rw [rows_resultIdx wf k hk] at hj'
    have e := Option.some.inj hj'
    have e0 : b' = b := congrFun e (0 : Fin 3)
    have e1 : (⟨k + s'.val, by omega⟩ : Fin 1024) = s := congrFun e (1 : Fin 3)
    have e2 : t' = t := congrFun e (2 : Fin 3)
    subst e0 e2
    exact ⟨s', rfl, congrArg Fin.val e1⟩
  by_cases h : k ≤ s.val ∧ s.val < k + W
  · rw [dif_pos h]
    refine scatter_apply_unique _ _ _ _ _ _ (ix3 b ⟨s.val - k, by omega⟩ t) ?_ ?_
    · rw [rows_resultIdx wf k hk]
      refine congrArg some (congrArg (fun r => ix3 b r t) (Fin.ext ?_))
      show k + (s.val - k) = s.val
      omega
    · intro j' hj'
      obtain ⟨s', rfl, hs'⟩ := key j' hj'
      refine congrArg (fun r => ix3 b r t) (Fin.ext ?_)
      show s'.val = s.val - k
      omega
  · rw [dif_neg h]
    refine scatter_apply_none _ _ _ _ _ _ ?_
    intro j' hj'
    obtain ⟨s', _, hs'⟩ := key j' hj'
    have := s'.isLt
    omega

end Rows2

/-! ## The program's three row scatters -/

/-- A window of `1023` rows scattered at the literal row offset `k`. -/
theorem scatter_rows1023_apply (x : FVec Ideal S32x1024x256 .f32) (k : ℕ) (hk : k + 1023 ≤ 1024) (u : FVec Ideal S32x1023x256 .f32)
    (b : Fin 32) (s : Fin 1024) (t : Fin 256) :
    Host.scatter scatter_S32x1024x256_S1_S32x1023x256_012_n_1_0 FloatOps.addf x (broadcastInDim S1 ![] bcast_S_S1 (constantI S_ 32 (BitVec.ofNat 32 k))) u (ix3 b s t)
      = if h : k ≤ s.val ∧ s.val < k + 1023 then x (ix3 b s t) + u (ix3 b ⟨s.val - k, by omega⟩ t) else x (ix3 b s t) :=
  scatter_rows_apply (W := 1023) scatter_S32x1024x256_S1_S32x1023x256_012_n_1_0_wf x k hk u b s t

/-- A window of `1022` rows scattered at the literal row offset `k`. -/
theorem scatter_rows1022_apply (x : FVec Ideal S32x1024x256 .f32) (k : ℕ) (hk : k + 1022 ≤ 1024) (u : FVec Ideal S32x1022x256 .f32)
    (b : Fin 32) (s : Fin 1024) (t : Fin 256) :
    Host.scatter scatter_S32x1024x256_S1_S32x1022x256_012_n_1_0 FloatOps.addf x (broadcastInDim S1 ![] bcast_S_S1 (constantI S_ 32 (BitVec.ofNat 32 k))) u (ix3 b s t)
      = if h : k ≤ s.val ∧ s.val < k + 1022 then x (ix3 b s t) + u (ix3 b ⟨s.val - k, by omega⟩ t) else x (ix3 b s t) :=
  scatter_rows_apply (W := 1022) scatter_S32x1024x256_S1_S32x1022x256_012_n_1_0_wf x k hk u b s t

/-- A window of `2` rows scattered at the literal row offset `k`. -/
theorem scatter_rows2_apply (x : FVec Ideal S32x1024x256 .f32) (k : ℕ) (hk : k + 2 ≤ 1024) (u : FVec Ideal S32x2x256 .f32)
    (b : Fin 32) (s : Fin 1024) (t : Fin 256) :
    Host.scatter scatter_S32x1024x256_S1_S32x2x256_012_n_1_0 FloatOps.addf x (broadcastInDim S1 ![] bcast_S_S1 (constantI S_ 32 (BitVec.ofNat 32 k))) u (ix3 b s t)
      = if h : k ≤ s.val ∧ s.val < k + 2 then x (ix3 b s t) + u (ix3 b ⟨s.val - k, by omega⟩ t) else x (ix3 b s t) :=
  scatter_rows_apply (W := 2) scatter_S32x1024x256_S1_S32x2x256_012_n_1_0_wf x k hk u b s t

end Cert.ReferenceIdeal.Hand

end
-- ==== Proof.RUpd.lean ====
/-
  One round's update of the reference, read at an index: each scatter of a shifted product adds row `s ∓ j` of the
  product where the shifted window covers `s`, each scatter-add of an end row adds it at the position `length - j`
  (not negative when the length is at least two, so the wrap by 1024 does not fire), and the start rows land on
  positions 0 and 1; the sum is the specification's message up to the order of its terms.
-/
import proofs.«422564_j72224170049656_1_alg».proof.Proof.RStep
import proofs.«422564_j72224170049656_1_alg».proof.Proof.RScatter
import Idealize.ShloMosaic.PureOps.Ideal.Laws
import Idealize.ShloMosaic.Lib.ValueLayout

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Mfvi
open scoped BigOperators

namespace Upd

/-! ## The products at an index -/

/-- A stack of 1023 rows times a matrix, contracted over the matrix's rows: entry `(b, s, t)` is `∑ₐ X b s a · M a t`. -/
theorem dot1023L_apply (X : FVec Ideal S32x1023x256 .f32) (M : FVec Ideal S256x256 .f32) (b : Fin 32) (s : Fin 1023) (t : Fin 256) :
    Host.dotGeneral (F := Ideal) dot_S32x1023x256_S256x256_S32x1023x256_2_0_01_1_n_n none X M (ix3 b s t)
      = ∑ a : Fin 256, X (ix3 b s a) * M (ix2 a t) := by
  show FloatOps.dotGeneral _ none _ X M (ix3 b s t) = _
  rw [Ideal.dotGeneral_apply,
    ← Equiv.sum_comp (contrEquiv1 dot_S32x1023x256_S256x256_S32x1023x256_2_0_01_1_n_n 256 rfl rfl).symm]
  refine Finset.sum_congr rfl fun c _ => ?_
  have c3 := contrEquiv1_symm_val dot_S32x1023x256_S256x256_S32x1023x256_2_0_01_1_n_n 256 rfl rfl c
  have l3 : dot_S32x1023x256_S256x256_S32x1023x256_2_0_01_1_n_n.lhsIdx (ix3 b s t)
      ((contrEquiv1 _ 256 rfl rfl).symm c) = ix3 b s c := by
    funext ax; apply Fin.ext
    match ax with
    | ⟨0, _⟩ => simp [DotDims.lhsIdx, dot_S32x1023x256_S256x256_S32x1023x256_2_0_01_1_n_n]; rfl
    | ⟨1, _⟩ => simp [DotDims.lhsIdx, dot_S32x1023x256_S256x256_S32x1023x256_2_0_01_1_n_n]; rfl
    | ⟨2, _⟩ => simp [DotDims.lhsIdx, dot_S32x1023x256_S256x256_S32x1023x256_2_0_01_1_n_n]; exact c3
  have r3 : dot_S32x1023x256_S256x256_S32x1023x256_2_0_01_1_n_n.rhsIdx (ix3 b s t)
      ((contrEquiv1 _ 256 rfl rfl).symm c) = ix2 c t := by
    funext ax; apply Fin.ext
    match ax with
    | ⟨0, _⟩ => simp [DotDims.rhsIdx, dot_S32x1023x256_S256x256_S32x1023x256_2_0_01_1_n_n]; exact c3
    | ⟨1, _⟩ => simp [DotDims.rhsIdx, dot_S32x1023x256_S256x256_S32x1023x256_2_0_01_1_n_n]; rfl
  rw [l3, r3]

/-- A stack of 1023 rows times a matrix, contracted over the matrix's columns: entry `(b, s, t)` is `∑ₐ X b s a · M t a`. -/
theorem dot1023R_apply (X : FVec Ideal S32x1023x256 .f32) (M : FVec Ideal S256x256 .f32) (b : Fin 32) (s : Fin 1023) (t : Fin 256) :
    Host.dotGeneral (F := Ideal) dot_S32x1023x256_S256x256_S32x1023x256_2_1_01_0_n_n none X M (ix3 b s t)
      = ∑ a : Fin 256, X (ix3 b s a) * M (ix2 t a) := by
  show FloatOps.dotGeneral _ none _ X M (ix3 b s t) = _
  rw [Ideal.dotGeneral_apply,
    ← Equiv.sum_comp (contrEquiv1 dot_S32x1023x256_S256x256_S32x1023x256_2_1_01_0_n_n 256 rfl rfl).symm]
  refine Finset.sum_congr rfl fun c _ => ?_
  have c3 := contrEquiv1_symm_val dot_S32x1023x256_S256x256_S32x1023x256_2_1_01_0_n_n 256 rfl rfl c
  have l3 : dot_S32x1023x256_S256x256_S32x1023x256_2_1_01_0_n_n.lhsIdx (ix3 b s t)
      ((contrEquiv1 _ 256 rfl rfl).symm c) = ix3 b s c := by
    funext ax; apply Fin.ext
    match ax with
    | ⟨0, _⟩ => simp [DotDims.lhsIdx, dot_S32x1023x256_S256x256_S32x1023x256_2_1_01_0_n_n]; rfl
    | ⟨1, _⟩ => simp [DotDims.lhsIdx, dot_S32x1023x256_S256x256_S32x1023x256_2_1_01_0_n_n]; rfl
    | ⟨2, _⟩ => simp [DotDims.lhsIdx, dot_S32x1023x256_S256x256_S32x1023x256_2_1_01_0_n_n]; exact c3
  have r3 : dot_S32x1023x256_S256x256_S32x1023x256_2_1_01_0_n_n.rhsIdx (ix3 b s t)
      ((contrEquiv1 _ 256 rfl rfl).symm c) = ix2 t c := by
    funext ax; apply Fin.ext
    match ax with
    | ⟨0, _⟩ => simp [DotDims.rhsIdx, dot_S32x1023x256_S256x256_S32x1023x256_2_1_01_0_n_n]; rfl
    | ⟨1, _⟩ => simp [DotDims.rhsIdx, dot_S32x1023x256_S256x256_S32x1023x256_2_1_01_0_n_n]; exact c3
  rw [l3, r3]

/-- A stack of 1022 rows times a matrix, contracted over the matrix's rows. -/
theorem dot1022L_apply (X : FVec Ideal S32x1022x256 .f32) (M : FVec Ideal S256x256 .f32) (b : Fin 32) (s : Fin 1022) (t : Fin 256) :
    Host.dotGeneral (F := Ideal) dot_S32x1022x256_S256x256_S32x1022x256_2_0_01_1_n_n none X M (ix3 b s t)
      = ∑ a : Fin 256, X (ix3 b s a) * M (ix2 a t) := by
  show FloatOps.dotGeneral _ none _ X M (ix3 b s t) = _
  rw [Ideal.dotGeneral_apply,
    ← Equiv.sum_comp (contrEquiv1 dot_S32x1022x256_S256x256_S32x1022x256_2_0_01_1_n_n 256 rfl rfl).symm]
  refine Finset.sum_congr rfl fun c _ => ?_
  have c3 := contrEquiv1_symm_val dot_S32x1022x256_S256x256_S32x1022x256_2_0_01_1_n_n 256 rfl rfl c
  have l3 : dot_S32x1022x256_S256x256_S32x1022x256_2_0_01_1_n_n.lhsIdx (ix3 b s t)
      ((contrEquiv1 _ 256 rfl rfl).symm c) = ix3 b s c := by
    funext ax; apply Fin.ext
    match ax with
    | ⟨0, _⟩ => simp [DotDims.lhsIdx, dot_S32x1022x256_S256x256_S32x1022x256_2_0_01_1_n_n]; rfl
    | ⟨1, _⟩ => simp [DotDims.lhsIdx, dot_S32x1022x256_S256x256_S32x1022x256_2_0_01_1_n_n]; rfl
    | ⟨2, _⟩ => simp [DotDims.lhsIdx, dot_S32x1022x256_S256x256_S32x1022x256_2_0_01_1_n_n]; exact c3
  have r3 : dot_S32x1022x256_S256x256_S32x1022x256_2_0_01_1_n_n.rhsIdx (ix3 b s t)
      ((contrEquiv1 _ 256 rfl rfl).symm c) = ix2 c t := by
    funext ax; apply Fin.ext
    match ax with
    | ⟨0, _⟩ => simp [DotDims.rhsIdx, dot_S32x1022x256_S256x256_S32x1022x256_2_0_01_1_n_n]; exact c3
    | ⟨1, _⟩ => simp [DotDims.rhsIdx, dot_S32x1022x256_S256x256_S32x1022x256_2_0_01_1_n_n]; rfl
  rw [l3, r3]

/-- A stack of 1022 rows times a matrix, contracted over the matrix's columns. -/
theorem dot1022R_apply (X : FVec Ideal S32x1022x256 .f32) (M : FVec Ideal S256x256 .f32) (b : Fin 32) (s : Fin 1022) (t : Fin 256) :
    Host.dotGeneral (F := Ideal) dot_S32x1022x256_S256x256_S32x1022x256_2_1_01_0_n_n none X M (ix3 b s t)
      = ∑ a : Fin 256, X (ix3 b s a) * M (ix2 t a) := by
  show FloatOps.dotGeneral _ none _ X M (ix3 b s t) = _
  rw [Ideal.dotGeneral_apply,
    ← Equiv.sum_comp (contrEquiv1 dot_S32x1022x256_S256x256_S32x1022x256_2_1_01_0_n_n 256 rfl rfl).symm]
  refine Finset.sum_congr rfl fun c _ => ?_
  have c3 := contrEquiv1_symm_val dot_S32x1022x256_S256x256_S32x1022x256_2_1_01_0_n_n 256 rfl rfl c
  have l3 : dot_S32x1022x256_S256x256_S32x1022x256_2_1_01_0_n_n.lhsIdx (ix3 b s t)
      ((contrEquiv1 _ 256 rfl rfl).symm c) = ix3 b s c := by
    funext ax; apply Fin.ext
    match ax with
    | ⟨0, _⟩ => simp [DotDims.lhsIdx, dot_S32x1022x256_S256x256_S32x1022x256_2_1_01_0_n_n]; rfl
    | ⟨1, _⟩ => simp [DotDims.lhsIdx, dot_S32x1022x256_S256x256_S32x1022x256_2_1_01_0_n_n]; rfl
    | ⟨2, _⟩ => simp [DotDims.lhsIdx, dot_S32x1022x256_S256x256_S32x1022x256_2_1_01_0_n_n]; exact c3
  have r3 : dot_S32x1022x256_S256x256_S32x1022x256_2_1_01_0_n_n.rhsIdx (ix3 b s t)
      ((contrEquiv1 _ 256 rfl rfl).symm c) = ix2 t c := by
    funext ax; apply Fin.ext
    match ax with
    | ⟨0, _⟩ => simp [DotDims.rhsIdx, dot_S32x1022x256_S256x256_S32x1022x256_2_1_01_0_n_n]; rfl
    | ⟨1, _⟩ => simp [DotDims.rhsIdx, dot_S32x1022x256_S256x256_S32x1022x256_2_1_01_0_n_n]; exact c3
  rw [l3, r3]

/-! ## The slices and broadcasts at an index -/

/-- Transition matrix `j`: the slice `[j]` of the stack with its unit axis dropped. -/
theorem trans_apply (o : ℕ) (A3 : FVec Ideal S2x256x256 .f32) (h : S2x256x256.Slices ![o, 0, 0] S1x256x256)
    (h' : S1x256x256.ShapeCasts S256x256) (j : Fin 2) (hj : j.val = o) (a c : Fin 256) :
    shapeCast S256x256 (extractStridedSlice S1x256x256 ![o, 0, 0] A3 h) h' (ix2 a c) = A3 (ix3 j a c) :=
  (shapeCast_1ab_ab_apply _ h' a c).trans (extractStridedSlice_apply _ _ _ _ (ix3 j a c) (fun ax => by
    match ax with
    | ⟨0, _⟩ => exact hj.trans (Nat.add_zero _).symm
    | ⟨1, _⟩ => exact (Nat.zero_add _).symm
    | ⟨2, _⟩ => exact (Nat.zero_add _).symm))

/-- End row `j`: the slice `[j]` of the two rows with its unit axis dropped. -/
theorem endrow_apply (o : ℕ) (A5 : FVec Ideal S2x256 .f32) (h : S2x256.Slices ![o, 0] S1x256)
    (h' : S1x256.ShapeCasts S256) (j : Fin 2) (hj : j.val = o) (t : Fin 256) :
    shapeCast S256 (extractStridedSlice S1x256 ![o, 0] A5 h) h' (ix1 t) = A5 (ix2 j t) :=
  (shapeCast_1a_a_apply _ h' t).trans (slice2_axis0_apply o A5 h (0 : Fin 1) t j (hj.trans (Nat.add_zero _).symm))

/-- The zero array both scatter chains start from. -/
theorem zeros_apply (i : S32x1024x256.Idx) :
    broadcastInDim S32x1024x256 ![] bcast_S_S32x1024x256 (constant (F := Ideal) S_ .f32 0x00000000#32) i = 0 :=
  Ideal.ofBits_zero_f32

/-- The mask broadcast along the tags. -/
theorem maskB_apply (A2 : FVec Ideal S32x1024 .f32) (b : Fin 32) (s : Fin 1024) (t : Fin 256) :
    broadcastInDim S32x1024x256 ![0, 1, 2] bcast_S32x1024x1_S32x1024x256_0_1_2
      (broadcastInDim S32x1024x1 ![0, 1] bcast_S32x1024_S32x1024x1_0_1 A2) (ix3 b s t) = A2 (ix2 b s) :=
  (broadcastInDim_apply _ _ _ (ix3 b s t) (ix3 b s (0 : Fin 1)) (fun ax => by
    match ax with
    | ⟨0, _⟩ => rfl
    | ⟨1, _⟩ => rfl
    | ⟨2, _⟩ => rfl)).trans
  (broadcastInDim_apply _ _ _ (ix3 b s (0 : Fin 1)) (ix2 b s) (fun ax => by
    match ax with
    | ⟨0, _⟩ => rfl
    | ⟨1, _⟩ => rfl))

/-- The start rows broadcast over the batch. -/
theorem startB_apply (A4 : FVec Ideal S2x256 .f32) (b : Fin 32) (r : Fin 2) (t : Fin 256) :
    broadcastInDim S32x2x256 ![1, 2] bcast_S2x256_S32x2x256_1_2 A4 (ix3 b r t) = A4 (ix2 r t) :=
  broadcastInDim_apply _ _ _ (ix3 b r t) (ix2 r t) (fun ax => by
    match ax with
    | ⟨0, _⟩ => rfl
    | ⟨1, _⟩ => rfl)

/-! ## Positions: the rows `s ∓ j` and the words `length - j` -/

theorem val_sub_one (s : Fin 1024) (h : 1 ≤ s.val) : (s - 1).val = s.val - 1 := by
  have := s.isLt
  rw [Fin.coe_sub]
  show (1024 - 1 + s.val) % 1024 = s.val - 1
  omega

theorem val_sub_two (s : Fin 1024) (h : 2 ≤ s.val) : (s - 2).val = s.val - 2 := by
  have := s.isLt
  rw [Fin.coe_sub]
  show (1024 - 2 + s.val) % 1024 = s.val - 2
  omega

theorem val_add_one (s : Fin 1024) (h : s.val < 1023) : (s + 1).val = s.val + 1 := by
  rw [Fin.val_add]
  show (s.val + 1) % 1024 = s.val + 1
  omega

theorem val_add_two (s : Fin 1024) (h : s.val < 1022) : (s + 2).val = s.val + 2 := by
  rw [Fin.val_add]
  show (s.val + 2) % 1024 = s.val + 2
  omega

/-- A position below 1024 is its own word's signed value. -/
theorem toInt_ofNat_small (s : Fin 1024) : (BitVec.ofNat 32 s.val).toInt = (s.val : ℤ) := by
  have := s.isLt
  rw [BitVec.toInt_ofNat']
  exact Int.bmod_eq_of_le_mul_two (by omega) (by omega)

/-- Taking one or two off a length of at least two does not wrap. -/
theorem toInt_sub_small (len j : BitVec 32) (hl : 2 ≤ len.toInt) (hj0 : 0 ≤ j.toInt) (hj : j.toInt ≤ 2) :
    (len - j).toInt = len.toInt - j.toInt := by
  have h1 := BitVec.toInt_lt (x := len)
  rw [BitVec.toInt_sub]
  exact Int.bmod_eq_of_le_mul_two (by omega) (by omega)

/-- … so the position `length - j` is not negative and is read as it stands. -/
theorem wrapPos_sub_small (len j : BitVec 32) (hl : 2 ≤ len.toInt) (hj0 : 0 ≤ j.toInt) (hj : j.toInt ≤ 2) :
    wrapPos (len - j) = (len - j).toInt := by
  unfold wrapPos
  rw [if_neg]
  rw [toInt_sub_small len j hl hj0 hj]
  omega

/-- The position `length - j` is `s` exactly when the words agree. -/
theorem toInt_eq_iff_hit (len j : BitVec 32) (s : Fin 1024) : (len - j).toInt = (s.val : ℤ) ↔ hit len j s := by
  unfold hit
  constructor
  · intro h
    exact BitVec.eq_of_toInt_eq ((toInt_ofNat_small s).trans h.symm)
  · intro h
    rw [← h]
    exact toInt_ofNat_small s

/-! ## The scatters as sums -/

/-- A scattered window of 1023 rows, as the operand plus the window's row where it covers `s`. -/
theorem scatter_rows1023_add (x : FVec Ideal S32x1024x256 .f32) (k : ℕ) (hk : k + 1023 ≤ 1024) (u : FVec Ideal S32x1023x256 .f32)
    (b : Fin 32) (s : Fin 1024) (t : Fin 256) :
    Host.scatter scatter_S32x1024x256_S1_S32x1023x256_012_n_1_0 FloatOps.addf x (broadcastInDim S1 ![] bcast_S_S1 (constantI S_ 32 (BitVec.ofNat 32 k))) u (ix3 b s t)
      = x (ix3 b s t) + (if h : k ≤ s.val ∧ s.val < k + 1023 then u (ix3 b ⟨s.val - k, by omega⟩ t) else 0) := by
  rw [scatter_rows1023_apply x k hk u b s t]
  by_cases h : k ≤ s.val ∧ s.val < k + 1023
  · rw [dif_pos h, dif_pos h]
  · rw [dif_neg h, dif_neg h, add_zero]

/-- The same for a window of 1022 rows. -/
theorem scatter_rows1022_add (x : FVec Ideal S32x1024x256 .f32) (k : ℕ) (hk : k + 1022 ≤ 1024) (u : FVec Ideal S32x1022x256 .f32)
    (b : Fin 32) (s : Fin 1024) (t : Fin 256) :
    Host.scatter scatter_S32x1024x256_S1_S32x1022x256_012_n_1_0 FloatOps.addf x (broadcastInDim S1 ![] bcast_S_S1 (constantI S_ 32 (BitVec.ofNat 32 k))) u (ix3 b s t)
      = x (ix3 b s t) + (if h : k ≤ s.val ∧ s.val < k + 1022 then u (ix3 b ⟨s.val - k, by omega⟩ t) else 0) := by
  rw [scatter_rows1022_apply x k hk u b s t]
  by_cases h : k ≤ s.val ∧ s.val < k + 1022
  · rw [dif_pos h, dif_pos h]
  · rw [dif_neg h, dif_neg h, add_zero]

/-- The same for a window of 2 rows. -/
theorem scatter_rows2_add (x : FVec Ideal S32x1024x256 .f32) (k : ℕ) (hk : k + 2 ≤ 1024) (u : FVec Ideal S32x2x256 .f32)
    (b : Fin 32) (s : Fin 1024) (t : Fin 256) :
    Host.scatter scatter_S32x1024x256_S1_S32x2x256_012_n_1_0 FloatOps.addf x (broadcastInDim S1 ![] bcast_S_S1 (constantI S_ 32 (BitVec.ofNat 32 k))) u (ix3 b s t)
      = x (ix3 b s t) + (if h : k ≤ s.val ∧ s.val < k + 2 then u (ix3 b ⟨s.val - k, by omega⟩ t) else 0) := by
  rw [scatter_rows2_apply x k hk u b s t]
  by_cases h : k ≤ s.val ∧ s.val < k + 2
  · rw [dif_pos h, dif_pos h]
  · rw [dif_neg h, dif_neg h, add_zero]

/-! ## The eight terms of the message -/

/-- The left neighbour at distance one. -/
theorem termL1 (P : FVec Ideal S32x1024x256 .f32) (A3 : FVec Ideal S2x256x256 .f32) (b : Fin 32) (s : Fin 1024) (t : Fin 256) :
    (if h : 1 ≤ s.val ∧ s.val < 1 + 1023 then
        Host.dotGeneral (F := Ideal) dot_S32x1023x256_S256x256_S32x1023x256_2_0_01_1_n_n none
          (extractStridedSlice S32x1023x256 ![0, 0, 0] P slices_S32x1024x256_S32x1023x256_0_0_0)
          (shapeCast _ (extractStridedSlice S1x256x256 ![0, 0, 0] A3 slices_S2x256x256_S1x256x256_0_0_0) shapeCasts_S1x256x256_S256x256)
          (ix3 b ⟨s.val - 1, by omega⟩ t)
      else 0)
    = if 1 ≤ s.val then dotL (fun a c => A3 (ix3 (0 : Fin 2) a c)) (fun s t => P (ix3 b s t)) (s - 1) t else 0 := by
  have hs := s.isLt
  by_cases h : 1 ≤ s.val
  · rw [dif_pos ⟨h, by omega⟩, if_pos h, dot1023L_apply]
    unfold dotL
    refine Finset.sum_congr rfl fun a _ => ?_
    rw [slice3_axis1_apply 0 P _ b _ a (s - 1) (by rw [val_sub_one s h]; show s.val - 1 = 0 + (s.val - 1); omega),
      trans_apply 0 A3 _ _ 0 rfl a t]
  · rw [dif_neg (fun h' => h h'.1), if_neg h]

/-- The left neighbour at distance two. -/
theorem termL2 (P : FVec Ideal S32x1024x256 .f32) (A3 : FVec Ideal S2x256x256 .f32) (b : Fin 32) (s : Fin 1024) (t : Fin 256) :
    (if h : 2 ≤ s.val ∧ s.val < 2 + 1022 then
        Host.dotGeneral (F := Ideal) dot_S32x1022x256_S256x256_S32x1022x256_2_0_01_1_n_n none
          (extractStridedSlice S32x1022x256 ![0, 0, 0] P slices_S32x1024x256_S32x1022x256_0_0_0)
          (shapeCast _ (extractStridedSlice S1x256x256 ![1, 0, 0] A3 slices_S2x256x256_S1x256x256_1_0_0) shapeCasts_S1x256x256_S256x256)
          (ix3 b ⟨s.val - 2, by omega⟩ t)
      else 0)
    = if 2 ≤ s.val then dotL (fun a c => A3 (ix3 (1 : Fin 2) a c)) (fun s t => P (ix3 b s t)) (s - 2) t else 0 := by
  have hs := s.isLt
  by_cases h : 2 ≤ s.val
  · rw [dif_pos ⟨h, by omega⟩, if_pos h, dot1022L_apply]
    unfold dotL
    refine Finset.sum_congr rfl fun a _ => ?_
    rw [slice3_axis1_apply 0 P _ b _ a (s - 2) (by rw [val_sub_two s h]; show s.val - 2 = 0 + (s.val - 2); omega),
      trans_apply 1 A3 _ _ 1 rfl a t]
  · rw [dif_neg (fun h' => h h'.1), if_neg h]

/-- The right neighbour at distance one. -/
theorem termR1 (P : FVec Ideal S32x1024x256 .f32) (A3 : FVec Ideal S2x256x256 .f32) (b : Fin 32) (s : Fin 1024) (t : Fin 256) :
    (if h : 0 ≤ s.val ∧ s.val < 0 + 1023 then
        Host.dotGeneral (F := Ideal) dot_S32x1023x256_S256x256_S32x1023x256_2_1_01_0_n_n none
          (extractStridedSlice S32x1023x256 ![0, 1, 0] P slices_S32x1024x256_S32x1023x256_0_1_0)
          (shapeCast _ (extractStridedSlice S1x256x256 ![0, 0, 0] A3 slices_S2x256x256_S1x256x256_0_0_0) shapeCasts_S1x256x256_S256x256)
          (ix3 b ⟨s.val - 0, by omega⟩ t)
      else 0)
    = if s.val < 1023 then dotR (fun a c => A3 (ix3 (0 : Fin 2) a c)) (fun s t => P (ix3 b s t)) (s + 1) t else 0 := by
  by_cases h : s.val < 1023
  · rw [dif_pos ⟨Nat.zero_le _, by omega⟩, if_pos h, dot1023R_apply]
    unfold dotR
    refine Finset.sum_congr rfl fun a _ => ?_
    rw [slice3_axis1_apply 1 P _ b _ a (s + 1) (by rw [val_add_one s h]; show s.val + 1 = 1 + (s.val - 0); omega),
      trans_apply 0 A3 _ _ 0 rfl t a]
  · rw [dif_neg (fun h' => h (by omega)), if_neg h]

/-- The right neighbour at distance two. -/
theorem termR2 (P : FVec Ideal S32x1024x256 .f32) (A3 : FVec Ideal S2x256x256 .f32) (b : Fin 32) (s : Fin 1024) (t : Fin 256) :
    (if h : 0 ≤ s.val ∧ s.val < 0 + 1022 then
        Host.dotGeneral (F := Ideal) dot_S32x1022x256_S256x256_S32x1022x256_2_1_01_0_n_n none
          (extractStridedSlice S32x1022x256 ![0, 2, 0] P slices_S32x1024x256_S32x1022x256_0_2_0)
          (shapeCast _ (extractStridedSlice S1x256x256 ![1, 0, 0] A3 slices_S2x256x256_S1x256x256_1_0_0) shapeCasts_S1x256x256_S256x256)
          (ix3 b ⟨s.val - 0, by omega⟩ t)
      else 0)
    = if s.val < 1022 then dotR (fun a c => A3 (ix3 (1 : Fin 2) a c)) (fun s t => P (ix3 b s t)) (s + 2) t else 0 := by
  by_cases h : s.val < 1022
  · rw [dif_pos ⟨Nat.zero_le _, by omega⟩, if_pos h, dot1022R_apply]
    unfold dotR
    refine Finset.sum_congr rfl fun a _ => ?_
    rw [slice3_axis1_apply 2 P _ b _ a (s + 2) (by rw [val_add_two s h]; show s.val + 2 = 2 + (s.val - 0); omega),
      trans_apply 1 A3 _ _ 1 rfl t a]
  · rw [dif_neg (fun h' => h (by omega)), if_neg h]

/-- The start rows: the two-row window at offset zero puts row 0 on position 0 and row 1 on position 1. -/
theorem termS (A4 : FVec Ideal S2x256 .f32) (b : Fin 32) (s : Fin 1024) (t : Fin 256) :
    (if h : 0 ≤ s.val ∧ s.val < 0 + 2 then
        broadcastInDim S32x2x256 ![1, 2] bcast_S2x256_S32x2x256_1_2 A4 (ix3 b ⟨s.val - 0, by omega⟩ t)
      else 0)
    = (if s.val = 0 then A4 (ix2 (0 : Fin 2) t) else 0) + (if s.val = 1 then A4 (ix2 (1 : Fin 2) t) else 0) := by
  by_cases h0 : s.val = 0
  · rw [dif_pos ⟨Nat.zero_le _, by omega⟩, if_pos h0, if_neg (by omega), add_zero, startB_apply]
    exact congrArg (fun r => A4 (ix2 r t)) (Fin.ext (by show s.val - 0 = 0; omega))
  · by_cases h1 : s.val = 1
    · rw [dif_pos ⟨Nat.zero_le _, by omega⟩, if_neg h0, if_pos h1, startB_apply]
      exact (congrArg (fun r => A4 (ix2 r t)) (Fin.ext (by show s.val - 0 = 1; omega))).trans (zero_add _).symm
    · rw [dif_neg (fun h' => by omega), if_neg h0, if_neg h1, add_zero]

/-- An end row: added at the position `length - j`. -/
theorem termE (o : ℕ) (A5 : FVec Ideal S2x256 .f32) (h : S2x256.Slices ![o, 0] S1x256) (r : Fin 2) (hr : r.val = o)
    (len j : BitVec 32) (hl : 2 ≤ len.toInt) (hj0 : 0 ≤ j.toInt) (hj : j.toInt ≤ 2) (s : Fin 1024) (t : Fin 256) :
    (if wrapPos (len - j) = (s.val : ℤ) then
        shapeCast S256 (extractStridedSlice S1x256 ![o, 0] A5 h) shapeCasts_S1x256_S256 (ix1 t) else 0)
    = if hit len j s then A5 (ix2 r t) else 0 := by
  rw [endrow_apply o A5 h _ r hr t, wrapPos_sub_small len j hl hj0 hj]
  exact if_congr (toInt_eq_iff_hit len j s) rfl rfl

/-! ## The update -/

/-- The order of the terms: the reference collects the left neighbours, then the right neighbours with the end
    rows, then the start rows; the specification lists them by distance. -/
theorem msg_order (l1 r1 h1 l2 r2 h2 s0 s1 : EReal) :
    0 + l1 + l2 + (0 + r1 + h1 + r2 + h2) + (s0 + s1) = l1 + r1 + h1 + l2 + r2 + h2 + s0 + s1 := by
  rw [zero_add, zero_add]
  ac_rfl

end Upd
/-- One round's update at an index, when every length is at least two: the masked score plus batch element
    `b`'s message, times the mask. -/
theorem rupd_apply (U : FVec Ideal S32x1024x256 .f32) (A2 : FVec Ideal S32x1024 .f32) (A3 : FVec Ideal S2x256x256 .f32)
    (A4 A5 : FVec Ideal S2x256 .f32) (A6 : IVec S32 32) (hlen : ∀ b : Fin 32, 2 ≤ (A6 (ix1 b)).toInt)
    (P : FVec Ideal S32x1024x256 .f32) (b : Fin 32) (s : Fin 1024) (t : Fin 256) :
    rupd U A2 A3 A4 A5 A6 P (ix3 b s t)
      = (U (ix3 b s t) + msg (fun j a c => A3 (ix3 j a c)) (fun j t => A4 (ix2 j t)) (fun j t => A5 (ix2 j t)) (A6 (ix1 b))
            (fun s t => P (ix3 b s t)) s t) * A2 (ix2 b s) := by
  have hpos1 : subi A6 (broadcastInDim S32 ![] bcast_S_S32 (constantI S_ 32 1#32)) (ix1 b) = A6 (ix1 b) - 1#32 := rfl
  have hpos2 : subi A6 (broadcastInDim S32 ![] bcast_S_S32 (constantI S_ 32 2#32)) (ix1 b) = A6 (ix1 b) - 2#32 := rfl
  unfold rupd
  rw [mulf_apply, addf_apply, Upd.maskB_apply, Upd.scatter_rows2_add _ 0 (by omega), addf_apply,
    Upd.scatter_rows1022_add _ 2 (by omega), Upd.scatter_rows1023_add _ 1 (by omega), Upd.zeros_apply,
    scatterAdd_rows_apply, Upd.scatter_rows1022_add _ 0 (by omega), scatterAdd_rows_apply,
    Upd.scatter_rows1023_add _ 0 (by omega), Upd.zeros_apply, hpos1, hpos2,
    Upd.termL1, Upd.termL2, Upd.termR1, Upd.termR2, Upd.termS,
    Upd.termE 0 A5 _ 0 rfl (A6 (ix1 b)) 1#32 (hlen b) (by decide) (by decide) s t,
    Upd.termE 1 A5 _ 1 rfl (A6 (ix1 b)) 2#32 (hlen b) (by decide) (by decide) s t]
  refine congrArg (fun m => (U (ix3 b s t) + m) * A2 (ix2 b s)) ?_
  unfold msg
  beta_reduce
  exact Upd.msg_order _ _ _ _ _ _ _ _

end Cert.ReferenceIdeal.Hand

end
-- ==== Proof.RValue.lean ====
/-
  The reference's result term is `Cert.Mfvi.Gfull` of its arguments, when every length is at least two (so that
  the positions `length - 1` and `length - 2` the end rows are added at are not negative).
-/
import proofs.«422564_j72224170049656_1_alg».proof.Proof.RSoftmax
import proofs.«422564_j72224170049656_1_alg».proof.Proof.RUpd

noncomputable section

namespace Cert.ReferenceIdeal.Hand

open Idealize.ShloMosaic Idealize.ShloMosaic.TcCoe Idealize.SL.Sem Idealize.ShloMosaic.StableHlo Idealize.ShloMosaic.ValueIdx Cert.ReferenceIdeal Cert.ReferenceIdeal.Gen Cert.Mfvi

variable {F : FTy → Type} [FloatOps F]

/-! The run's named intermediates, each as one of the three pieces applied to the ones before it. -/

theorem v2_eq (V0 : Valuation τ sig (Elt F)) :
    Value.res_main_v2 (F := F) V0 = rmasked (V0 (Proc.devRef .tc main_arg1)) (V0 (Proc.devRef .tc main_arg2)) := rfl

theorem v17_eq (V0 : Valuation τ sig (Elt F)) :
    Value.res_main_v17 (F := F) V0 = rsoftmax (Value.res_main_v2 V0) := rfl

theorem v89_eq (V0 : Valuation τ sig (Elt F)) :
    Value.res_main_v89 (F := F) V0
      = rupd (Value.res_main_v2 V0) (V0 (Proc.devRef .tc main_arg2)) (V0 (Proc.devRef .tc main_arg3)) (V0 (Proc.devRef .tc main_arg4))
          (V0 (Proc.devRef .tc main_arg5)) (V0 (Proc.devRef .tc main_arg6)) (Value.res_main_v17 V0) := rfl

theorem v100_eq (V0 : Valuation τ sig (Elt F)) :
    Value.res_main_v100 (F := F) V0 = rsoftmax (Value.res_main_v89 V0) := rfl

theorem v172_eq (V0 : Valuation τ sig (Elt F)) :
    Value.res_main_v172 (F := F) V0
      = rupd (Value.res_main_v2 V0) (V0 (Proc.devRef .tc main_arg2)) (V0 (Proc.devRef .tc main_arg3)) (V0 (Proc.devRef .tc main_arg4))
          (V0 (Proc.devRef .tc main_arg5)) (V0 (Proc.devRef .tc main_arg6)) (Value.res_main_v100 V0) := rfl

theorem v183_eq (V0 : Valuation τ sig (Elt F)) :
    Value.res_main_v183 (F := F) V0 = rsoftmax (Value.res_main_v172 V0) := rfl

theorem v255_eq (V0 : Valuation τ sig (Elt F)) :
    Value.res_main_v255 (F := F) V0
      = rupd (Value.res_main_v2 V0) (V0 (Proc.devRef .tc main_arg2)) (V0 (Proc.devRef .tc main_arg3)) (V0 (Proc.devRef .tc main_arg4))
          (V0 (Proc.devRef .tc main_arg5)) (V0 (Proc.devRef .tc main_arg6)) (Value.res_main_v183 V0) := rfl

/-- The run's result term is three rounds from the masked scores. -/
theorem res_eq_rounds (V0 : Valuation τ sig (Elt F)) :
    Cert.ReferenceIdeal.Value.res_main_v255 (F := F) V0
      = (let U := rmasked (V0 (Proc.devRef .tc main_arg1)) (V0 (Proc.devRef .tc main_arg2))
         let r := fun P => rupd U (V0 (Proc.devRef .tc main_arg2)) (V0 (Proc.devRef .tc main_arg3)) (V0 (Proc.devRef .tc main_arg4))
                    (V0 (Proc.devRef .tc main_arg5)) (V0 (Proc.devRef .tc main_arg6)) (rsoftmax P)
         r (r (r U))) := by
  dsimp only
  rw [v255_eq, v183_eq, v172_eq, v100_eq, v89_eq, v17_eq, v2_eq]

/-- Batch element `b` of the masked scores is the spec's masked slab. -/
theorem masked_slab (A1 : FVec Ideal S32x1024x256 .f32) (A2 : FVec Ideal S32x1024 .f32) (b : Fin 32) :
    (fun (s : Fin 1024) (t : Fin 256) => rmasked A1 A2 (ix3 b s t))
      = masked (fun s t => A1 (ix3 b s t)) (fun s => A2 (ix2 b s)) := by
  funext s t
  exact rmasked_apply A1 A2 b s t

/-- Batch element `b` of one reference round is the spec's step of batch element `b`. -/
theorem round_slab (A1 : FVec Ideal S32x1024x256 .f32) (A2 : FVec Ideal S32x1024 .f32) (A3 : FVec Ideal S2x256x256 .f32)
    (A4 A5 : FVec Ideal S2x256 .f32) (A6 : IVec S32 32) (hlen : ∀ b : Fin 32, 2 ≤ (A6 (ix1 b)).toInt)
    (P : FVec Ideal S32x1024x256 .f32) (b : Fin 32) :
    (fun (s : Fin 1024) (t : Fin 256) => rupd (rmasked A1 A2) A2 A3 A4 A5 A6 (rsoftmax P) (ix3 b s t))
      = step (masked (fun s t => A1 (ix3 b s t)) (fun s => A2 (ix2 b s))) (fun s => A2 (ix2 b s))
          (fun j a c => A3 (ix3 j a c)) (fun j t => A4 (ix2 j t)) (fun j t => A5 (ix2 j t)) (A6 (ix1 b))
          (fun s t => P (ix3 b s t)) := by
  have hp : (fun (s : Fin 1024) (t : Fin 256) => rsoftmax P (ix3 b s t)) = smax (fun s t => P (ix3 b s t)) := by
    funext s t
    exact rsoftmax_apply P b s t
  funext s t
  rw [rupd_apply (rmasked A1 A2) A2 A3 A4 A5 A6 hlen (rsoftmax P) b s t, rmasked_apply, hp]
  rfl

/-- The run's result term, read index by index: three rounds per batch element. -/
theorem ref_value (V0 : Valuation τ sig (Elt Ideal))
    (hlen : ∀ b : Fin 32, 2 ≤ ((show IVec S32 32 from V0 (Proc.devRef .tc main_arg6)) (ix1 b)).toInt) :
    Cert.ReferenceIdeal.Value.res_main_v255 (F := Ideal) V0
      = Gfull (V0 (Proc.devRef .tc main_arg1)) (V0 (Proc.devRef .tc main_arg2)) (V0 (Proc.devRef .tc main_arg3))
          (V0 (Proc.devRef .tc main_arg4)) (V0 (Proc.devRef .tc main_arg5)) (V0 (Proc.devRef .tc main_arg6)) := by
  funext i
  obtain ⟨b, s, t, rfl⟩ : ∃ (b : Fin 32) (s : Fin 1024) (t : Fin 256), i = ix3 b s t := ⟨i 0, i 1, i 2, eq_ix3 i⟩
  rw [res_eq_rounds]
  dsimp only
  -- the three rounds, each read on batch element b
  have h1 := round_slab (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) hlen
  have h0 := masked_slab (V0 (Proc.devRef .tc main_arg1)) (V0 (Proc.devRef .tc main_arg2)) b
  refine (congrFun (congrFun (h1 _ b) s) t).trans ?_
  rw [h1 _ b, h1 _ b, h0]
  rfl

end Cert.ReferenceIdeal.Hand

end
-- ==== Proof.PreFacts.lean ====
/-
  What the precondition says of the lengths: each of the 32 is at least two, as a signed 32-bit word.
-/
import proofs.«422564_j72224170049656_1_alg».proof.Defs
import proofs.«422564_j72224170049656_1_alg».proof.Proof.Gen.KernelIdeal
import proofs.«422564_j72224170049656_1_alg».proof.Proof.Gen.Pre_finite_inputs
import Idealize.ShloMosaic.Lib.ReduceAll
import Idealize.ShloMosaic.Lib.ValueIdx

noncomputable section

namespace Cert.KernelIdeal.Hand

open Idealize.ShloMosaic Idealize.ShloMosaic.TcCoe Idealize.SL.Sem Idealize.ShloMosaic.ValueIdx Cert.KernelIdeal

/-- Under the precondition every length word is at least two (signed). -/
theorem lens_ge_two (m : (ℓ : Loc nD τ sig) → Buf (Elt Ideal) ℓ) (h : Cert.Pre_KernelIdeal m) (c : Dev nD) (b : Fin 32) :
    2 ≤ ((show IVec S32 32 from m ((c.tc : Thread nD τ).loc main_arg6)) (ix1 b)).toInt := by
  -- the shape of a scalar has one index
  haveI : Subsingleton Cert.Pre_finite_inputs.S_.Idx := ⟨fun a b => funext fun d => d.elim0⟩
  -- the precondition at the one index of its scalar result
  have e := congrFun (h c) ValueIdx.ix0
  dsimp only [Cert.Pre_finite_inputs.fn, Cert.Pre_finite_inputs.fn_part1] at e
  -- the last conjunct: the conjunction over all 32 lengths of "length ≥ 2"
  have e2 := (IntOp.andi_eq_one.1 e).2
  -- a conjunction over all entries that is true is true at entry b
  have e3 := Host.reduce_andi_all _ _ _ _ _ e2 (ix1 b)
  -- the signed comparison read as an inequality of integers; the right side is the constant 2
  exact IntOp.cmpi_sge.1 e3

end Cert.KernelIdeal.Hand

end
-- ==== Proof.lean ====
/- The five claims about the mean-field kernel and its reference.
   Both programs compute, per batch element, three rounds of q ↦ (U + message (softmax q)) · mask on the extended
   reals (Proof/Spec.lean). The kernel's side reads its result array off the pipeline's run block by block
   (Proof/KBody.lean, Proof/KValue.lean); the reference's side reads its run's term index by index
   (Proof/RValue.lean), where the lengths being at least two (the precondition, Proof/PreFacts.lean) keeps the two
   end positions from wrapping. The frames are the runs with the result dropped; the kernel's index maps read no
   table word, so its pipeline's side condition is trivially true. -/
import proofs.«422564_j72224170049656_1_alg».proof.Defs
import proofs.«422564_j72224170049656_1_alg».proof.Proof.Gen.Kernel
import proofs.«422564_j72224170049656_1_alg».proof.Proof.Gen.Kernel.Skeleton
import proofs.«422564_j72224170049656_1_alg».proof.Proof.Gen.Kernel.Launch
import proofs.«422564_j72224170049656_1_alg».proof.Proof.Gen.Kernel.Points
import proofs.«422564_j72224170049656_1_alg».proof.Proof.Gen.Kernel.Frame
import proofs.«422564_j72224170049656_1_alg».proof.Proof.Gen.KernelIdeal
import proofs.«422564_j72224170049656_1_alg».proof.Proof.Gen.KernelIdeal.Skeleton
import proofs.«422564_j72224170049656_1_alg».proof.Proof.Gen.KernelIdeal.Launch
import proofs.«422564_j72224170049656_1_alg».proof.Proof.Gen.KernelIdeal.Points
import proofs.«422564_j72224170049656_1_alg».proof.Proof.Gen.KernelIdeal.Frame
import proofs.«422564_j72224170049656_1_alg».proof.Proof.Gen.ReferenceIdeal
import proofs.«422564_j72224170049656_1_alg».proof.Proof.Gen.ReferenceIdeal.Run
import proofs.«422564_j72224170049656_1_alg».proof.Proof.Gen.Pre_finite_inputs
import proofs.«422564_j72224170049656_1_alg».proof.Proof.KValue
import proofs.«422564_j72224170049656_1_alg».proof.Proof.RValue
import proofs.«422564_j72224170049656_1_alg».proof.Proof.PreFacts
import Idealize.ShloMosaic.Adequacy
import Idealize.ShloMosaic.Init

noncomputable section

namespace Cert.Proof

open Idealize.ShloMosaic Idealize.SL.Sem Cert.Kernel

/-- The kernel's pipeline asks nothing of the table of lengths: no index map reads it. -/
theorem ok_bits (m : (ℓ : Loc Cert.Kernel.nD Cert.Kernel.τ Cert.Kernel.sig) → Buf (Elt Bits) ℓ) : Cert.Kernel.Gen.Ok m := trivial
theorem ok_ideal (m : (ℓ : Loc Cert.KernelIdeal.nD Cert.KernelIdeal.τ Cert.KernelIdeal.sig) → Buf (Elt Ideal) ℓ) : Cert.KernelIdeal.Gen.Ok m := trivial

theorem frame_k : Cert.frame_Kernel := fun m ρ _ => Cert.Kernel.Gen.frame m ρ (ok_bits m)
theorem frame_ki : Cert.frame_KernelIdeal := fun m ρ _ => Cert.KernelIdeal.Gen.frame m ρ (ok_ideal m)
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at `Gfull` of the arguments: the kernel's by its blocks, the reference's by its
    term read index by index at arguments that agree with the kernel's, whose lengths are at least two. -/
theorem algebraic : Cert.algebraic_KernelIdeal_ReferenceIdeal := by
  intro m ρ m' ρ' hpre hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  have hl : ∀ b : Fin 32, 2 ≤ ((show IVec Cert.ReferenceIdeal.S32 32 from
      (Idealize.ShloMosaic.StableHlo.launchContents m' c) (Proc.devRef .tc Cert.ReferenceIdeal.main_arg6)) (ValueIdx.ix1 b)).toInt := by
    intro b
    have := Cert.KernelIdeal.Hand.lens_ge_two m hpre c b
    rw [← (hagree c).2.2.2.2.2.2] at this
    exact this
  rw [Cert.ReferenceIdeal.Hand.ref_value _ hl]
  show Cert.Mfvi.Gfull (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
  rw [(hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
